-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg2 : IVec S640000 32) (main_v30 : IVec S_ 1) (main_v32 : IVec S640000 1) (main_c_12 : IVec S_ 32) : IVec S_ 1 :=
  let main_v33 : IVec S640000 32 := broadcastInDim S640000 ![] bcast_S_S640000 main_c_12
  let main_v34 : IVec S640000 1 := cmpi .slt main_arg2 main_v33
  let main_v35 : IVec S640000 1 := andi main_v32 main_v34
  let main_c_13 : IVec S_ 1 := constantI S_ 1 1#1
  let main_v36 : IVec S_ 1 := (fun x v => Host.reduce IntOp.andi x v reducesTo_S640000_S_d0 h_S_) main_v35 main_c_13
  let main_v37 : IVec S_ 1 := andi main_v30 main_v36
  main_v37

def fn_part1 {F : FTy → Type} [FloatOps F] (main_arg1 : IVec S640000 32) (main_arg2 : IVec S640000 32) (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S640000 32 := broadcastInDim S640000 ![] bcast_S_S640000 main_c_8
  let main_v25 : IVec S640000 1 := cmpi .sge main_arg1 main_v24
  let main_c_9 : IVec S_ 32 := constantI S_ 32 10000#32
  let main_v26 : IVec S640000 32 := broadcastInDim S640000 ![] bcast_S_S640000 main_c_9
  let main_v27 : IVec S640000 1 := cmpi .slt main_arg1 main_v26
  let main_v28 : IVec S640000 1 := andi main_v25 main_v27
  let main_c_10 : IVec S_ 1 := constantI S_ 1 1#1
  let main_v29 : IVec S_ 1 := (fun x v => Host.reduce IntOp.andi x v reducesTo_S640000_S_d0 h_S_) main_v28 main_c_10
  let main_v30 : IVec S_ 1 := andi main_v23 main_v29
  let main_c_11 : IVec S_ 32 := constantI S_ 32 0#32
  let main_v31 : IVec S640000 32 := broadcastInDim S640000 ![] bcast_S_S640000 main_c_11
  let main_v32 : IVec S640000 1 := cmpi .sge main_arg2 main_v31
  let main_c_12 : IVec S_ 32 := constantI S_ 32 10000#32
  fn_part2 (F := F) main_arg2 main_v30 main_v32 main_c_12

def fn {F : FTy → Type} [FloatOps F] (main_arg0 : FVec F S10000x128 .f32) (main_arg1 : IVec S640000 32) (main_arg2 : IVec S640000 32) (main_arg3 : FVec F S128x128 .f32) (main_arg4 : FVec F S128 .f32) (main_arg5 : FVec F S128x64 .f32) (main_arg6 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg2 main_arg6 main_v13 main_v16
-- ==== Kernel.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S10000 : Shape := ⟨1, ![10000]⟩
abbrev S640000x1 : Shape := ⟨2, ![640000, 1]⟩
abbrev S10240 : Shape := ⟨1, ![10240]⟩
abbrev S1 : Shape := ⟨1, ![1]⟩
abbrev S10240x10240 : Shape := ⟨2, ![10240, 10240]⟩
abbrev S640000x2 : Shape := ⟨2, ![640000, 2]⟩
abbrev S10240x1 : Shape := ⟨2, ![10240, 1]⟩
abbrev S1x10240 : Shape := ⟨2, ![1, 10240]⟩
abbrev S10240x128 : Shape := ⟨2, ![10240, 128]⟩
abbrev S1x128 : Shape := ⟨2, ![1, 128]⟩
abbrev S1024x1024 : Shape := ⟨2, ![1024, 1024]⟩
abbrev S1024x128 : Shape := ⟨2, ![1024, 128]⟩
abbrev S1x64 : Shape := ⟨2, ![1, 64]⟩
abbrev S10240x64 : Shape := ⟨2, ![10240, 64]⟩
abbrev S1024x64 : Shape := ⟨2, ![1024, 64]⟩
abbrev S10000x64 : Shape := ⟨2, ![10000, 64]⟩

abbrev nBuf : Space → Nat
  | .hbm => 76
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S640000, .f32⟩
  | .hbm, ⟨9, _⟩ => ⟨S_, .f32⟩
  | .hbm, ⟨10, _⟩ => ⟨S10000, .f32⟩
  | .hbm, ⟨11, _⟩ => ⟨S640000x1, .i32⟩
  | .hbm, ⟨12, _⟩ => ⟨S10000, .f32⟩
  | .hbm, ⟨13, _⟩ => ⟨S_, .f32⟩
  | .hbm, ⟨14, _⟩ => ⟨S_, .f32⟩
  | .hbm, ⟨15, _⟩ => ⟨S10000, .f32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S640000x1, .i32⟩
  | .hbm, ⟨20, _⟩ => ⟨S10000, .f32⟩
  | .hbm, ⟨21, _⟩ => ⟨S_, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S10000, .f32⟩
  | .hbm, ⟨26, _⟩ => ⟨S10000, .f32⟩
  | .hbm, ⟨27, _⟩ => ⟨S_, .f32⟩
  | .hbm, ⟨28, _⟩ => ⟨S10240, .f32⟩
  | .hbm, ⟨29, _⟩ => ⟨S_, .i32⟩
  | .hbm, ⟨30, _⟩ => ⟨S1, .i32⟩
  | .hbm, ⟨31, _⟩ => ⟨S10240, .f32⟩
  | .hbm, ⟨32, _⟩ => ⟨S_, .f32⟩
  | .hbm, ⟨33, _⟩ => ⟨S10240, .f32⟩
  | .hbm, ⟨34, _⟩ => ⟨S_, .i32⟩
  | .hbm, ⟨35, _⟩ => ⟨S1, .i32⟩
  | .hbm, ⟨36, _⟩ => ⟨S10240, .f32⟩
  | .hbm, ⟨37, _⟩ => ⟨S_, .f32⟩
  | .hbm, ⟨38, _⟩ => ⟨S10240x10240, .f32⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x1, .i32⟩
  | .hbm, ⟨55, _⟩ => ⟨S640000x2, .i32⟩
  | .hbm, ⟨56, _⟩ => ⟨S_, .f32⟩
  | .hbm, ⟨57, _⟩ => ⟨S640000, .f32⟩
  | .hbm, ⟨58, _⟩ => ⟨S10240x10240, .f32⟩
  | .hbm, ⟨59, _⟩ => ⟨S10240x1, .f32⟩
  | .hbm, ⟨60, _⟩ => ⟨S10240x10240, .f32⟩
  | .hbm, ⟨61, _⟩ => ⟨S10240x10240, .f32⟩
  | .hbm, ⟨62, _⟩ => ⟨S1x10240, .f32⟩
  | .hbm, ⟨63, _⟩ => ⟨S10240x10240, .f32⟩
  | .hbm, ⟨64, _⟩ => ⟨S10240x10240, .f32⟩
  | .hbm, ⟨65, _⟩ => ⟨S10240x10240, .bf16⟩
  | .hbm, ⟨66, _⟩ => ⟨S_, .f32⟩
  | .hbm, ⟨67, _⟩ => ⟨S10240x128, .f32⟩
  | .hbm, ⟨68, _⟩ => ⟨S_, .i32⟩
  | .hbm, ⟨69, _⟩ => ⟨S1, .i32⟩
  | .hbm, ⟨70, _⟩ => ⟨S10240x128, .f32⟩
  | .hbm, ⟨71, _⟩ => ⟨S1x128, .f32⟩
  | .hbm, ⟨72, _⟩ => ⟨S10240x128, .f32⟩
  | .hbm, ⟨73, _⟩ => ⟨S1x64, .f32⟩
  | .hbm, ⟨74, _⟩ => ⟨S10240x64, .f32⟩
  | .hbm, ⟨75, _⟩ => ⟨S10000x64, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S128x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x128, .f32⟩
  | .local _ .vmem, ⟨12, _⟩ => ⟨S1024x128, .f32⟩
  | .local _ .vmem, ⟨13, _⟩ => ⟨S128x64, .f32⟩
  | .local _ .vmem, ⟨14, _⟩ => ⟨S1x64, .f32⟩
  | .local _ .vmem, ⟨15, _⟩ => ⟨S1024x64, .f32⟩
  | .local _ .vmem, ⟨16, _⟩ => ⟨S1024x64, .f32⟩
  | .local _ .vmem, ⟨17, _⟩ => ⟨S1024x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_c_6 : Ref sig .tc := ⟨.hbm, 34, rfl⟩
abbrev main_v15 : Ref sig .tc := ⟨.hbm, 35, rfl⟩
abbrev main_v16 : Ref sig .tc := ⟨.hbm, 36, rfl⟩
abbrev main_cst_7 : Ref sig .tc := ⟨.hbm, 37, rfl⟩
abbrev main_v17 : Ref sig .tc := ⟨.hbm, 38, rfl⟩
abbrev main_c_8 : Ref sig .tc := ⟨.hbm, 39, rfl⟩
abbrev main_v18 : Ref sig .tc := ⟨.hbm, 40, rfl⟩
abbrev main_v19 : Ref sig .tc := ⟨.hbm, 41, rfl⟩
abbrev main_c_9 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_10 : Ref sig .tc := ⟨.hbm, 46, rfl⟩
abbrev main_v23 : Ref sig .tc := ⟨.hbm, 47, rfl⟩
abbrev main_v24 : Ref sig .tc := ⟨.hbm, 48, rfl⟩
abbrev main_c_11 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_12 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_13 : Ref sig .tc := ⟨.hbm, 66, rfl⟩
abbrev main_v40 : Ref sig .tc := ⟨.hbm, 67, rfl⟩
abbrev main_c_14 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![10, 10], ![false, false]⟩

def k0_cond2 (i : grid0.Coords) : BitVec 1 :=
  let arg1 : BitVec 32 := BitVec.ofNat 32 (i 1).val
  let c9_i32 : BitVec 32 := 9#32
  let v14 : BitVec 1 := Scalar.cmpi .eq arg1 c9_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![10, 10], ![false, false]⟩

def k1_cond2 (i : grid1.Coords) : BitVec 1 :=
  let arg1 : BitVec 32 := BitVec.ofNat 32 (i 1).val
  let c9_i32 : BitVec 32 := 9#32
  let v14 : BitVec 1 := Scalar.cmpi .eq arg1 c9_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S_S10240 : S_.BroadcastsInDim S10240 (![] : Fin 0 → Fin S10240.rank)
  bcast_S_S1 : S_.BroadcastsInDim S1 (![] : Fin 0 → Fin S1.rank)
  bcast_S_S10240x10240 : S_.BroadcastsInDim S10240x10240 (![] : Fin 0 → Fin S10240x10240.rank)
  concatenates_S640000x1_S640000x1_S640000x2_d1 : Shape.Concatenates [S640000x1, S640000x1] S640000x2 1
  bcast_S10240_S10240x1_0 : S10240.BroadcastsInDim S10240x1 (![0] : Fin 1 → Fin S10240x1.rank)
  bcast_S10240x1_S10240x10240_0_1 : S10240x1.BroadcastsInDim S10240x10240 (![0, 1] : Fin 2 → Fin S10240x10240.rank)
  bcast_S10240_S1x10240_1 : S10240.BroadcastsInDim S1x10240 (![1] : Fin 1 → Fin S1x10240.rank)
  bcast_S1x10240_S10240x10240_0_1 : S1x10240.BroadcastsInDim S10240x10240 (![0, 1] : Fin 2 → Fin S10240x10240.rank)
  bitsLt_bf16_f32 : FTy.bits .bf16 < FTy.bits .f32
  bcast_S_S10240x128 : S_.BroadcastsInDim S10240x128 (![] : Fin 0 → Fin S10240x128.rank)
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  slices_S10240x64_S10000x64_0_0 : S10240x64.Slices ![0, 0] S10000x64
  scatter_S10000_S640000x1_S640000_n_0_0_1_wf : ScatterDims.WF S10000 S640000x1 S640000 [] [0] [0] 1
  scatter_S10240_S1_S10000_0_n_0_0_wf : ScatterDims.WF S10240 S1 S10000 [0] [] [0] 0
  scatter_S10240x10240_S640000x2_S640000_n_01_01_1_wf : ScatterDims.WF S10240x10240 S640000x2 S640000 [] [0, 1] [0, 1] 1
  scatter_S10240x128_S1_S10000x128_01_n_0_0_wf : ScatterDims.WF S10240x128 S1 S10000x128 [0, 1] [] [0] 0
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S10240x10240.size a
  hwx0_0 : ∀ i : grid0.Coords, EltTy.bits .bf16 = 32 ∨ (Rect.block (s := S10240x10240) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S10240x128.size a
  hwx0_1 : ∀ i : grid0.Coords, EltTy.bits .f32 = 32 ∨ (Rect.block (s := S10240x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S10240x128.size a
  hwx0_4 : ∀ i : grid0.Coords, EltTy.bits .f32 = 32 ∨ (Rect.block (s := S10240x128) S1024x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S10240x10240.size a
  hwx1_0 : ∀ i : grid1.Coords, EltTy.bits .bf16 = 32 ∨ (Rect.block (s := S10240x10240) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S10240x128.size a
  hwx1_1 : ∀ i : grid1.Coords, EltTy.bits .f32 = 32 ∨ (Rect.block (s := S10240x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S10240x64.size a
  hwx1_4 : ∀ i : grid1.Coords, EltTy.bits .f32 = 32 ∨ (Rect.block (s := S10240x64) S1024x64.size (cc1_transform_4 i) (hinb1_4 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def scatter_S10240_S1_S10000_0_n_0_0 : ScatterDims S10240 S1 S10000 where
  updateWindowDims := [0]
  insertedWindowDims := []
  scatterDimsToOperandDims := [0]
  indexVectorDim := 0
  wf := scatter_S10240_S1_S10000_0_n_0_0_wf
def scatter_S10240x10240_S640000x2_S640000_n_01_01_1 : ScatterDims S10240x10240 S640000x2 S640000 where
  updateWindowDims := []
  insertedWindowDims := [0, 1]
  scatterDimsToOperandDims := [0, 1]
  indexVectorDim := 1
  wf := scatter_S10240x10240_S640000x2_S640000_n_01_01_1_wf
def scatter_S10240x128_S1_S10000x128_01_n_0_0 : ScatterDims S10240x128 S1 S10000x128 where
  updateWindowDims := [0, 1]
  insertedWindowDims := []
  scatterDimsToOperandDims := [0]
  indexVectorDim := 0
  wf := scatter_S10240x128_S1_S10000x128_01_n_0_0_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

abbrev win0_0 : Pipeline.Window sig grid0 :=
  Pipeline.Window.ofSpec (Memref.whole main_v39) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v39) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S10000 : Shape := ⟨1, ![10000]⟩
abbrev S640000x1 : Shape := ⟨2, ![640000, 1]⟩
abbrev S10000x1 : Shape := ⟨2, ![10000, 1]⟩
abbrev S640000x128 : Shape := ⟨2, ![640000, 128]⟩
abbrev S1x128 : Shape := ⟨2, ![1, 128]⟩
abbrev S10000x64 : Shape := ⟨2, ![10000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S640000, .f32⟩
  | .hbm, ⟨9, _⟩ => ⟨S_, .f32⟩
  | .hbm, ⟨10, _⟩ => ⟨S10000, .f32⟩
  | .hbm, ⟨11, _⟩ => ⟨S640000x1, .i32⟩
  | .hbm, ⟨12, _⟩ => ⟨S10000, .f32⟩
  | .hbm, ⟨13, _⟩ => ⟨S_, .f32⟩
  | .hbm, ⟨14, _⟩ => ⟨S_, .f32⟩
  | .hbm, ⟨15, _⟩ => ⟨S10000, .f32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S640000x1, .i32⟩
  | .hbm, ⟨20, _⟩ => ⟨S10000, .f32⟩
  | .hbm, ⟨21, _⟩ => ⟨S_, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S10000, .f32⟩
  | .hbm, ⟨26, _⟩ => ⟨S10000x1, .f32⟩
  | .hbm, ⟨27, _⟩ => ⟨S10000x128, .f32⟩
  | .hbm, ⟨28, _⟩ => ⟨S10000x128, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000x128, .f32⟩
  | .hbm, ⟨38, _⟩ => ⟨S_, .f32⟩
  | .hbm, ⟨39, _⟩ => ⟨S10000x128, .f32⟩
  | .hbm, ⟨40, _⟩ => ⟨S640000x1, .i32⟩
  | .hbm, ⟨41, _⟩ => ⟨S10000x128, .f32⟩
  | .hbm, ⟨42, _⟩ => ⟨S10000, .f32⟩
  | .hbm, ⟨43, _⟩ => ⟨S10000x1, .f32⟩
  | .hbm, ⟨44, _⟩ => ⟨S10000x128, .f32⟩
  | .hbm, ⟨45, _⟩ => ⟨S10000x128, .f32⟩
  | .hbm, ⟨46, _⟩ => ⟨S10000x128, .f32⟩
  | .hbm, ⟨47, _⟩ => ⟨S1x128, .f32⟩
  | .hbm, ⟨48, _⟩ => ⟨S10000x128, .f32⟩
  | .hbm, ⟨49, _⟩ => ⟨S10000x128, .f32⟩
  | .hbm, ⟨50, _⟩ => ⟨S_, .f32⟩
  | .hbm, ⟨51, _⟩ => ⟨S10000x128, .f32⟩
  | .hbm, ⟨52, _⟩ => ⟨S10000x128, .f32⟩
  | .hbm, ⟨53, _⟩ => ⟨S_, .f32⟩
  | .hbm, ⟨54, _⟩ => ⟨S640000, .f32⟩
  | .hbm, ⟨55, _⟩ => ⟨S_, .f32⟩
  | .hbm, ⟨56, _⟩ => ⟨S10000, .f32⟩
  | .hbm, ⟨57, _⟩ => ⟨S640000x1, .i32⟩
  | .hbm, ⟨58, _⟩ => ⟨S10000, .f32⟩
  | .hbm, ⟨59, _⟩ => ⟨S_, .f32⟩
  | .hbm, ⟨60, _⟩ => ⟨S_, .f32⟩
  | .hbm, ⟨61, _⟩ => ⟨S10000, .f32⟩
  | .hbm, ⟨62, _⟩ => ⟨S10000, .f32⟩
  | .hbm, ⟨63, _⟩ => ⟨S_, .f32⟩
  | .hbm, ⟨64, _⟩ => ⟨S10000, .f32⟩
  | .hbm, ⟨65, _⟩ => ⟨S640000x1, .i32⟩
  | .hbm, ⟨66, _⟩ => ⟨S10000, .f32⟩
  | .hbm, ⟨67, _⟩ => ⟨S_, .f32⟩
  | .hbm, ⟨68, _⟩ => ⟨S_, .f32⟩
  | .hbm, ⟨69, _⟩ => ⟨S10000, .f32⟩
  | .hbm, ⟨70, _⟩ => ⟨S10000, .f32⟩
  | .hbm, ⟨71, _⟩ => ⟨S10000, .f32⟩
  | .hbm, ⟨72, _⟩ => ⟨S10000x1, .f32⟩
  | .hbm, ⟨73, _⟩ => ⟨S10000x128, .f32⟩
  | .hbm, ⟨74, _⟩ => ⟨S10000x128, .f32⟩
  | .hbm, ⟨75, _⟩ => ⟨S_, .i32⟩
  | .hbm, ⟨76, _⟩ => ⟨S640000, .i32⟩
  | .hbm, ⟨77, _⟩ => ⟨S640000, .i1⟩
  | .hbm, ⟨78, _⟩ => ⟨S_, .i32⟩
  | .hbm, ⟨79, _⟩ => ⟨S640000, .i32⟩
  | .hbm, ⟨80, _⟩ => ⟨S640000, .i32⟩
  | .hbm, ⟨81, _⟩ => ⟨S640000, .i32⟩
  | .hbm, ⟨82, _⟩ => ⟨S640000x1, .i32⟩
  | .hbm, ⟨83, _⟩ => ⟨S640000x128, .f32⟩
  | .hbm, ⟨84, _⟩ => ⟨S_, .f32⟩
  | .hbm, ⟨85, _⟩ => ⟨S10000x128, .f32⟩
  | .hbm, ⟨86, _⟩ => ⟨S640000x1, .i32⟩
  | .hbm, ⟨87, _⟩ => ⟨S10000x128, .f32⟩
  | .hbm, ⟨88, _⟩ => ⟨S10000, .f32⟩
  | .hbm, ⟨89, _⟩ => ⟨S10000x1, .f32⟩
  | .hbm, ⟨90, _⟩ => ⟨S10000x128, .f32⟩
  | .hbm, ⟨91, _⟩ => ⟨S10000x128, .f32⟩
  | .hbm, ⟨92, _⟩ => ⟨S10000x64, .f32⟩
  | .hbm, ⟨93, _⟩ => ⟨S1x64, .f32⟩
  | .hbm, ⟨94, _⟩ => ⟨S10000x64, .f32⟩
  | .hbm, ⟨95, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_8 : Ref sig .tc := ⟨.hbm, 59, rfl⟩
abbrev main_call3_v0 : Ref sig .tc := ⟨.hbm, 60, rfl⟩
abbrev main_call3_v1 : Ref sig .tc := ⟨.hbm, 61, rfl⟩
abbrev main_v36 : Ref sig .tc := ⟨.hbm, 62, rfl⟩
abbrev main_cst_9 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_10 : Ref sig .tc := ⟨.hbm, 67, rfl⟩
abbrev main_call4_v0 : Ref sig .tc := ⟨.hbm, 68, rfl⟩
abbrev main_call4_v1 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_11 : Ref sig .tc := ⟨.hbm, 75, rfl⟩
abbrev main_v45 : Ref sig .tc := ⟨.hbm, 76, rfl⟩
abbrev main_v46 : Ref sig .tc := ⟨.hbm, 77, rfl⟩
abbrev main_c_12 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_13 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  scatter_S10000_S640000x1_S640000_n_0_0_1_wf : ScatterDims.WF S10000 S640000x1 S640000 [] [0] [0] 1
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.BitsRegion0a.lean ====
/-
  The first aggregation-and-projection call, point by point: what one run of its body does to the accumulator
  and to the output block, in each of the three situations a grid point (i, k) can be in.

  The body keeps a running sum `acc` of shape 1024 × 128 across the ten points k = 0 … 9 of a row of blocks:
  at k = 0 it first sets `acc` to zero; at every k it adds the product of the point's 1024 × 1024 block of the
  normalised adjacency matrix with the point's 1024 × 128 block of the features; at k = 9 it also writes the output
  block, `max (acc · W + b) 0`.  So a point is in one of three cases: k = 0 (reset, then add), 0 < k < 9 (add),
  k = 9 (add, then write the output).  For each case the body is run once, symbolically, on arbitrary staging
  buffers; what it leaves in the accumulator and in the output buffer is recorded as the list of stores it made.
-/
import proofs.«414079_j34359738415_1_alg».proof.Proof.Gen.Kernel.Launch
import proofs.«414079_j34359738415_1_alg».proof.Proof.Gen.Kernel.Skeleton
import proofs.«414079_j34359738415_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, decided over the grid -/

/-- "k = 0", as the body computes it from the grid point. -/
abbrev cond0_0 (i : grid0.Coords) : Prop := (Scalar.cmpi .ne (Scalar.extui (Scalar.cmpi .eq (BitVec.ofNat 32 (i 1).val) 0#32)) 0#32) = 1#1
/-- It holds exactly at the points whose position is ≡ 0 (mod 10). -/
theorem hcond0_0 : ∀ t : Fin cfg0.N, cond0_0 (grid0.coords t) ↔ t.val % 10 = 0 :=
  (by decide +kernel : ∀ t : Fin grid0.N, cond0_0 (grid0.coords t) ↔ t.val % 10 = 0)

/-- "k = 9", as the body computes it from the grid point. -/
abbrev cond0_1 (i : grid0.Coords) : Prop := k0_cond2 i = 1#1
/-- It holds exactly at the points whose position is ≡ 9 (mod 10). -/
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The output block is stored only at k = 9: elsewhere its window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The body's run in each case -/

/-- The accumulator's buffer. -/
abbrev scM0 : Memref sig .tc .vmem S1024x128 .f32 := Memref.whole cc0_scratch0

set_option maxHeartbeats 4000000 in
/-- CASE k = 0.  The inputs' buffers hold `x0 … x3`, the output's buffer `xi4` (untouched), the accumulator anything.
    The body runs and leaves the inputs and the output's buffer as they were, and the accumulator with the stores `LS`. -/
noncomputable def kernelRun0_A (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole)
    (hc0 : cond0_0 i) (hc1 : ¬cond0_1 i)
    (x0 : Vec F S1024x1024 .bf16) (x1 : Vec F S1024x128 .f32) (x2 : Vec F S128x128 .f32) (x3 : Vec F S1x128 .f32) :
    { LS : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, fun xi4 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- CASE 0 < k < 9.  As before, but the accumulator holds `xs`, what the point before left in it. -/
noncomputable def kernelRun0_B (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole)
    (hc0 : ¬cond0_0 i) (hc1 : ¬cond0_1 i)
    (x0 : Vec F S1024x1024 .bf16) (x1 : Vec F S1024x128 .f32) (x2 : Vec F S128x128 .f32) (x3 : Vec F S1x128 .f32) (xs : Vec F S1024x128 .f32) :
    { LS : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, fun xi4 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- CASE k = 9.  The accumulator holds `xs`; the output's buffer holds anything.  The body leaves the accumulator with
    the stores `LS` and the output's buffer with the stores `L4`. -/
noncomputable def kernelRun0_C (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole)
    (hc0 : ¬cond0_0 i) (hc1 : cond0_1 i)
    (x0 : Vec F S1024x1024 .bf16) (x1 : Vec F S1024x128 .f32) (x2 : Vec F S128x128 .f32) (x3 : Vec F S1x128 .f32) (xs : Vec F S1024x128 .f32) :
    Σ' (L4 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

end Cert.Kernel.Hand

end
-- ==== Proof.BitsRegion0b.lean ====
/-
  The first aggregation-and-projection call over its whole grid: what the accumulator and the output block hold after
  every point, and that the body, run at any point from that state, re-establishes it.

  `outsAt0 n` is the pair (output buffer, accumulator) after the point at position `n`, by recursion on `n`: at a point
  with k = 0 the accumulator is what the reset-and-add run leaves; at a later point it is what the add run leaves over the
  accumulator of the point before; at k = 9 the output buffer is what the add-and-write run leaves.  The region's invariant
  before a point holds the accumulator's buffer at `outsAt0` of the point before (at anything before the first point) and
  the core's other scratch buffers at anything.
-/
import proofs.«414079_j34359738415_1_alg».proof.Proof.BitsRegion0a

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers of the core when the region is entered
variable (V : (c : Dev nD) → (b : Ref sig .tc) → Buf (Elt F) ((c : Thread nD τ).loc b))

/-! ## The windows' blocks and staging buffers -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)

/-- One staging buffer of the output window, and the accumulator, as views: contents are stated through them. -/
abbrev VO0 : View sig .tc .vmem S1024x128 .f32 := (Memref.whole cc0_stg4_0 : Memref sig .tc .vmem S1024x128 .f32).view
abbrev VS0 : View sig .tc .vmem S1024x128 .f32 := scM0.view

/-! ## The invariant's shape: the accumulator beside the other scratch buffers -/

/-- The core's other scoped buffers that are no staging buffer of this call, each at some contents, unopened. -/
abbrev rest0 (c : Dev nD) : sProp 𝕄 :=
  Pipeline.scopedRestBut (Ix := Unit) (Name := ℕ) (U := UR sig nD τ) (Lvl := ℕ) (Val := Elt F) spec0 c [cc0_scratch0]

/-- The region's default invariant: the accumulator at some contents, the other buffers, the generator register. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA
  rw [Pipeline.scopedRest_split_of_list spec0 c [cc0_scratch0] (by decide) (by decide)]
  simp only [scM0, owns_whole]; try rfl

/-! ## What each case leaves -/

/-- The accumulator after a point with k = 0. -/
def accA0 (c : Dev nD) (t : Fin cfg0.N) (h0 : cond0_0 (grid0.coords t)) (h1 : ¬cond0_1 (grid0.coords t)) : Vec F S1024x128 .f32 :=
  VS0.read (Elt F) (VS0.writes (Elt F) VS0.junk (kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t)).1)
theorem coverA0 (c : Dev nD) (t : Fin cfg0.N) (h0 : cond0_0 (grid0.coords t)) (h1 : ¬cond0_1 (grid0.coords t)) (y : S1024x128.Idx) :
    ∃ pc ∈ (kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t)).1, y ∈ pc.1.set :=
  View.cover_of_tiledL (kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t)).1 S1024x128.size (by sl_kernel_rfl) y

/-- The accumulator after a point with 0 < k < 9, over the accumulator `xs` of the point before. -/
def accB0 (c : Dev nD) (t : Fin cfg0.N) (h0 : ¬cond0_0 (grid0.coords t)) (h1 : ¬cond0_1 (grid0.coords t)) (xs : Vec F S1024x128 .f32) : Vec F S1024x128 .f32 :=
  VS0.read (Elt F) (VS0.writes (Elt F) VS0.junk (kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t) xs).1)
theorem coverB0 (c : Dev nD) (t : Fin cfg0.N) (h0 : ¬cond0_0 (grid0.coords t)) (h1 : ¬cond0_1 (grid0.coords t)) (xs : Vec F S1024x128 .f32) (y : S1024x128.Idx) :
    ∃ pc ∈ (kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t) xs).1, y ∈ pc.1.set :=
  View.cover_of_tiledL (kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t) xs).1 S1024x128.size (by sl_kernel_rfl) y

/-- The accumulator and the output buffer after a point with k = 9. -/
def accC0 (c : Dev nD) (t : Fin cfg0.N) (h0 : ¬cond0_0 (grid0.coords t)) (h1 : cond0_1 (grid0.coords t)) (xs : Vec F S1024x128 .f32) : Vec F S1024x128 .f32 :=
  VS0.read (Elt F) (VS0.writes (Elt F) VS0.junk (kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t) xs).2.1)
theorem coverCs0 (c : Dev nD) (t : Fin cfg0.N) (h0 : ¬cond0_0 (grid0.coords t)) (h1 : cond0_1 (grid0.coords t)) (xs : Vec F S1024x128 .f32) (y : S1024x128.Idx) :
    ∃ pc ∈ (kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t) xs).2.1, y ∈ pc.1.set :=
  View.cover_of_tiledL (kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t) xs).2.1 S1024x128.size (by sl_kernel_rfl) y
def outC0 (c : Dev nD) (t : Fin cfg0.N) (h0 : ¬cond0_0 (grid0.coords t)) (h1 : cond0_1 (grid0.coords t)) (xs : Vec F S1024x128 .f32) : Vec F S1024x128 .f32 :=
  VO0.read (Elt F) (VO0.writes (Elt F) VO0.junk (kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t) xs).1)
theorem coverCo0 (c : Dev nD) (t : Fin cfg0.N) (h0 : ¬cond0_0 (grid0.coords t)) (h1 : cond0_1 (grid0.coords t)) (xs : Vec F S1024x128 .f32) (y : S1024x128.Idx) :
    ∃ pc ∈ (kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t) xs).1, y ∈ pc.1.set :=
  View.cover_of_tiledL (kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t) xs).1 S1024x128.size (by sl_kernel_rfl) y

/-! ## The accumulation -/

/-- After the point at position `n`: (the output buffer, the accumulator).  Where the output window is idle its
    component is a placeholder nothing consults. -/
def outsAt0 (c : Dev nD) : (n : ℕ) → n < cfg0.N → Vec F S1024x128 .f32 × Vec F S1024x128 .f32
  | 0, hn => (VO0.read (Elt F) VO0.junk, accA0 V c ⟨0, hn⟩ ((hcond0_0 ⟨0, hn⟩).mpr (Nat.zero_mod _)) (fun h => (fun h => by (try dsimp only at h); omega) ((hcond0_1 ⟨0, hn⟩).mp h)))
  | n + 1, hn =>
    if h0 : (n + 1) % 10 = 0 then
      (VO0.read (Elt F) VO0.junk, accA0 V c ⟨n + 1, hn⟩ ((hcond0_0 ⟨n + 1, hn⟩).mpr h0) (fun h => (fun h => by (try dsimp only at h); omega) ((hcond0_1 ⟨n + 1, hn⟩).mp h)))
    else
      if h1 : (n + 1) % 10 = 9 then
        (outC0 V c ⟨n + 1, hn⟩ (fun h => h0 ((hcond0_0 ⟨n + 1, hn⟩).mp h)) ((hcond0_1 ⟨n + 1, hn⟩).mpr h1) (outsAt0 c n (Nat.lt_of_succ_lt hn)).2,
         accC0 V c ⟨n + 1, hn⟩ (fun h => h0 ((hcond0_0 ⟨n + 1, hn⟩).mp h)) ((hcond0_1 ⟨n + 1, hn⟩).mpr h1) (outsAt0 c n (Nat.lt_of_succ_lt hn)).2)
      else
        (VO0.read (Elt F) VO0.junk, accB0 V c ⟨n + 1, hn⟩ (fun h => h0 ((hcond0_0 ⟨n + 1, hn⟩).mp h)) (fun h => h1 ((hcond0_1 ⟨n + 1, hn⟩).mp h)) (outsAt0 c n (Nat.lt_of_succ_lt hn)).2)

theorem outsAt0_A (c : Dev nD) (t : Fin cfg0.N) (h0 : t.val % 10 = 0) :
    outsAt0 V c t.val t.isLt = (VO0.read (Elt F) VO0.junk, accA0 V c t ((hcond0_0 t).mpr h0) (fun h => (fun h => by omega) ((hcond0_1 t).mp h))) := by
  obtain ⟨n, hn⟩ := t
  cases n with
  | zero => exact rfl
  | succ n => exact (dif_pos h0).trans rfl

theorem outsAt0_B (c : Dev nD) (t : Fin cfg0.N) (h0 : ¬t.val % 10 = 0) (h1 : ¬t.val % 10 = 9) :
    outsAt0 V c t.val t.isLt = (VO0.read (Elt F) VO0.junk, accB0 V c t (fun h => h0 ((hcond0_0 t).mp h)) (fun h => h1 ((hcond0_1 t).mp h)) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 10 = 0) (h1 : t.val % 10 = 9) :
    outsAt0 V c t.val t.isLt = (outC0 V c t (fun h => h0 ((hcond0_0 t).mp h)) ((hcond0_1 t).mpr h1) (outsAt0 V c (t.val - 1) (Nat.lt_of_le_of_lt (Nat.sub_le _ _) t.isLt)).2,
      accC0 V c t (fun h => h0 ((hcond0_0 t).mp h)) ((hcond0_1 t).mpr h1) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The invariant before position `n`. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 (F := F) c) ∗ (∃ r, prngReg c r)) := by
  cases n with
  | zero => exact absurd rfl hz
  | succ n => rfl

/-! ## The proof data -/

/-- The arrays as the region finds them; after the body each input's buffer at its block, the output's and the
    accumulator at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.Kernel.Hand

end
-- ==== Proof.BitsRegion0c.lean ====
/-
  The first aggregation-and-projection call: the body's obligation at every grid point.

  From the invariant before a point, the staged blocks of the four inputs and the output's staging buffer, one run of the
  body gives the invariant before the next point: the case is decided by the point's position modulo 10 (0: reset and add;
  9: add and write the output block; otherwise: add), and the accumulator ends at `outsAt0` of the point because the
  stores of the case's run cover its buffer.  Where the output window is idle its buffer is handed back as it was found.
-/
import proofs.«414079_j34359738415_1_alg».proof.Proof.BitsRegion0b

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 100 := lt_of_lt_of_eq t.isLt (show cfg0.N = 100 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 10 = 0
  · have hc0 : cond0_0 (grid0.coords t) := (hcond0_0 t).mpr h0
    have hc1 : ¬cond0_1 (grid0.coords t) := fun h => by have := (hcond0_1 t).mp h; omega
    rw [Dat.leavesExact_idle (dat0 V c) 4 t (idleAt0_4 t hc1) (noFlush0_4 t hc1)]
    rw [outsAt0_A V c t h0]; dsimp only
    unfold accA0; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverA0 V c t hc0 hc1)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverA0 V c t hc0 hc1)
          iexact Hr
        iexact Hg
      isplitl [Ho]; · iexact Ho
      isplitl [H0]; · iexact H0
      isplitl [H1]; · iexact H1
      isplitl [H2]; · iexact H2
      isplitl [H3]; · iexact H3
      iexists _; iexact H4
  · have hc0 : ¬cond0_0 (grid0.coords t) := fun h => h0 ((hcond0_0 t).mp h)
    have hz : t.val ≠ 0 := fun e => h0 (by rw [e])
    by_cases h1 : t.val % 10 = 9
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [outsAt0_C V c t h0 h1]; dsimp only
      unfold outC0 accC0; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverCs0 V c t hc0 hc1 _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverCo0 V c t hc0 hc1 _)
    · have hc1 : ¬cond0_1 (grid0.coords t) := fun h => h1 ((hcond0_1 t).mp h)
      rw [Dat.leavesExact_idle (dat0 V c) 4 t (idleAt0_4 t hc1) (noFlush0_4 t hc1)]
      rw [outsAt0_B V c t h0 h1]; dsimp only
      unfold accB0; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (iblk0 V c 2 t) (iblk0 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverB0 V c t hc0 hc1 _)
          iexact Hr
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

/-- The region's default invariant is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the default one back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

theorem hout0 (c : Dev nD) : (dat0 V c).Φ (Fin.last cfg0.N) ⊢ Pipeline.ΦA spec0 c :=
  Phi_out0 V c _ (by rw [Fin.val_last]; have : cfg0.N = 100 := N_0; omega)

end Cert.Kernel.Hand

end
-- ==== Proof.BitsRegion1a.lean ====
/-
  The second aggregation-and-projection call, point by point: what one run of its body does to the accumulator
  and to the output block, in each of the three situations a grid point (i, k) can be in.

  The body keeps a running sum `acc` of shape 1024 × 128 across the ten points k = 0 … 9 of a row of blocks:
  at k = 0 it first sets `acc` to zero; at every k it adds the product of the point's 1024 × 1024 block of the
  normalised adjacency matrix with the point's 1024 × 128 block of the features; at k = 9 it also writes the output
  block, `acc · W + b`.  So a point is in one of three cases: k = 0 (reset, then add), 0 < k < 9 (add),
  k = 9 (add, then write the output).  For each case the body is run once, symbolically, on arbitrary staging
  buffers; what it leaves in the accumulator and in the output buffer is recorded as the list of stores it made.
-/
import proofs.«414079_j34359738415_1_alg».proof.Proof.Gen.Kernel.Launch
import proofs.«414079_j34359738415_1_alg».proof.Proof.Gen.Kernel.Skeleton
import proofs.«414079_j34359738415_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, decided over the grid -/

/-- "k = 0", as the body computes it from the grid point. -/
abbrev cond1_0 (i : grid1.Coords) : Prop := (Scalar.cmpi .ne (Scalar.extui (Scalar.cmpi .eq (BitVec.ofNat 32 (i 1).val) 0#32)) 0#32) = 1#1
/-- It holds exactly at the points whose position is ≡ 0 (mod 10). -/
theorem hcond1_0 : ∀ t : Fin cfg1.N, cond1_0 (grid1.coords t) ↔ t.val % 10 = 0 :=
  (by decide +kernel : ∀ t : Fin grid1.N, cond1_0 (grid1.coords t) ↔ t.val % 10 = 0)

/-- "k = 9", as the body computes it from the grid point. -/
abbrev cond1_1 (i : grid1.Coords) : Prop := k1_cond2 i = 1#1
/-- It holds exactly at the points whose position is ≡ 9 (mod 10). -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- The output block is stored only at k = 9: elsewhere its window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The body's run in each case -/

/-- The accumulator's buffer. -/
abbrev scM1 : Memref sig .tc .vmem S1024x128 .f32 := Memref.whole cc1_scratch0

set_option maxHeartbeats 4000000 in
/-- CASE k = 0.  The inputs' buffers hold `x0 … x3`, the output's buffer `xi4` (untouched), the accumulator anything.
    The body runs and leaves the inputs and the output's buffer as they were, and the accumulator with the stores `LS`. -/
noncomputable def kernelRun1_A (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x128 .f32) (harg7 : arg7.IsWhole)
    (hc0 : cond1_0 i) (hc1 : ¬cond1_1 i)
    (x0 : Vec F S1024x1024 .bf16) (x1 : Vec F S1024x128 .f32) (x2 : Vec F S128x64 .f32) (x3 : Vec F S1x64 .f32) :
    { LS : List (View.Piece (Elt F) S1024x128 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun xi4 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- CASE 0 < k < 9.  As before, but the accumulator holds `xs`, what the point before left in it. -/
noncomputable def kernelRun1_B (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x128 .f32) (harg7 : arg7.IsWhole)
    (hc0 : ¬cond1_0 i) (hc1 : ¬cond1_1 i)
    (x0 : Vec F S1024x1024 .bf16) (x1 : Vec F S1024x128 .f32) (x2 : Vec F S128x64 .f32) (x3 : Vec F S1x64 .f32) (xs : Vec F S1024x128 .f32) :
    { LS : List (View.Piece (Elt F) S1024x128 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun xi4 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- CASE k = 9.  The accumulator holds `xs`; the output's buffer holds anything.  The body leaves the accumulator with
    the stores `LS` and the output's buffer with the stores `L4`. -/
noncomputable def kernelRun1_C (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x128 .f32) (harg7 : arg7.IsWhole)
    (hc0 : ¬cond1_0 i) (hc1 : cond1_1 i)
    (x0 : Vec F S1024x1024 .bf16) (x1 : Vec F S1024x128 .f32) (x2 : Vec F S128x64 .f32) (x3 : Vec F S1x64 .f32) (xs : Vec F S1024x128 .f32) :
    Σ' (L4 : List (View.Piece (Elt F) S1024x64 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

end Cert.Kernel.Hand

end
-- ==== Proof.BitsRegion1b.lean ====
/-
  The second aggregation-and-projection call over its whole grid: what the accumulator and the output block hold after
  every point, and that the body, run at any point from that state, re-establishes it.

  `outsAt1 n` is the pair (output buffer, accumulator) after the point at position `n`, by recursion on `n`: at a point
  with k = 0 the accumulator is what the reset-and-add run leaves; at a later point it is what the add run leaves over the
  accumulator of the point before; at k = 9 the output buffer is what the add-and-write run leaves.  The region's invariant
  before a point holds the accumulator's buffer at `outsAt1` of the point before (at anything before the first point) and
  the core's other scratch buffers at anything.
-/
import proofs.«414079_j34359738415_1_alg».proof.Proof.BitsRegion1a

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers of the core when the region is entered
variable (V : (c : Dev nD) → (b : Ref sig .tc) → Buf (Elt F) ((c : Thread nD τ).loc b))

/-! ## The windows' blocks and staging buffers -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)

/-- One staging buffer of the output window, and the accumulator, as views: contents are stated through them. -/
abbrev VO1 : View sig .tc .vmem S1024x64 .f32 := (Memref.whole cc1_stg4_0 : Memref sig .tc .vmem S1024x64 .f32).view
abbrev VS1 : View sig .tc .vmem S1024x128 .f32 := scM1.view

/-! ## The invariant's shape: the accumulator beside the other scratch buffers -/

/-- The core's other scoped buffers that are no staging buffer of this call, each at some contents, unopened. -/
abbrev rest1 (c : Dev nD) : sProp 𝕄 :=
  Pipeline.scopedRestBut (Ix := Unit) (Name := ℕ) (U := UR sig nD τ) (Lvl := ℕ) (Val := Elt F) spec1 c [cc1_scratch0]

/-- The region's default invariant: the accumulator at some contents, the other buffers, the generator register. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA
  rw [Pipeline.scopedRest_split_of_list spec1 c [cc1_scratch0] (by decide) (by decide)]
  simp only [scM1, owns_whole]; try rfl

/-! ## What each case leaves -/

/-- The accumulator after a point with k = 0. -/
def accA1 (c : Dev nD) (t : Fin cfg1.N) (h0 : cond1_0 (grid1.coords t)) (h1 : ¬cond1_1 (grid1.coords t)) : Vec F S1024x128 .f32 :=
  VS1.read (Elt F) (VS1.writes (Elt F) VS1.junk (kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t)).1)
theorem coverA1 (c : Dev nD) (t : Fin cfg1.N) (h0 : cond1_0 (grid1.coords t)) (h1 : ¬cond1_1 (grid1.coords t)) (y : S1024x128.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t)).1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t)).1 S1024x128.size (by sl_kernel_rfl) y

/-- The accumulator after a point with 0 < k < 9, over the accumulator `xs` of the point before. -/
def accB1 (c : Dev nD) (t : Fin cfg1.N) (h0 : ¬cond1_0 (grid1.coords t)) (h1 : ¬cond1_1 (grid1.coords t)) (xs : Vec F S1024x128 .f32) : Vec F S1024x128 .f32 :=
  VS1.read (Elt F) (VS1.writes (Elt F) VS1.junk (kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t) xs).1)
theorem coverB1 (c : Dev nD) (t : Fin cfg1.N) (h0 : ¬cond1_0 (grid1.coords t)) (h1 : ¬cond1_1 (grid1.coords t)) (xs : Vec F S1024x128 .f32) (y : S1024x128.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t) xs).1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t) xs).1 S1024x128.size (by sl_kernel_rfl) y

/-- The accumulator and the output buffer after a point with k = 9. -/
def accC1 (c : Dev nD) (t : Fin cfg1.N) (h0 : ¬cond1_0 (grid1.coords t)) (h1 : cond1_1 (grid1.coords t)) (xs : Vec F S1024x128 .f32) : Vec F S1024x128 .f32 :=
  VS1.read (Elt F) (VS1.writes (Elt F) VS1.junk (kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t) xs).2.1)
theorem coverCs1 (c : Dev nD) (t : Fin cfg1.N) (h0 : ¬cond1_0 (grid1.coords t)) (h1 : cond1_1 (grid1.coords t)) (xs : Vec F S1024x128 .f32) (y : S1024x128.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t) xs).2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t) xs).2.1 S1024x128.size (by sl_kernel_rfl) y
def outC1 (c : Dev nD) (t : Fin cfg1.N) (h0 : ¬cond1_0 (grid1.coords t)) (h1 : cond1_1 (grid1.coords t)) (xs : Vec F S1024x128 .f32) : Vec F S1024x64 .f32 :=
  VO1.read (Elt F) (VO1.writes (Elt F) VO1.junk (kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t) xs).1)
theorem coverCo1 (c : Dev nD) (t : Fin cfg1.N) (h0 : ¬cond1_0 (grid1.coords t)) (h1 : cond1_1 (grid1.coords t)) (xs : Vec F S1024x128 .f32) (y : S1024x64.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t) xs).1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t) xs).1 S1024x64.size (by sl_kernel_rfl) y

/-! ## The accumulation -/

/-- After the point at position `n`: (the output buffer, the accumulator).  Where the output window is idle its
    component is a placeholder nothing consults. -/
def outsAt1 (c : Dev nD) : (n : ℕ) → n < cfg1.N → Vec F S1024x64 .f32 × Vec F S1024x128 .f32
  | 0, hn => (VO1.read (Elt F) VO1.junk, accA1 V c ⟨0, hn⟩ ((hcond1_0 ⟨0, hn⟩).mpr (Nat.zero_mod _)) (fun h => (fun h => by (try dsimp only at h); omega) ((hcond1_1 ⟨0, hn⟩).mp h)))
  | n + 1, hn =>
    if h0 : (n + 1) % 10 = 0 then
      (VO1.read (Elt F) VO1.junk, accA1 V c ⟨n + 1, hn⟩ ((hcond1_0 ⟨n + 1, hn⟩).mpr h0) (fun h => (fun h => by (try dsimp only at h); omega) ((hcond1_1 ⟨n + 1, hn⟩).mp h)))
    else
      if h1 : (n + 1) % 10 = 9 then
        (outC1 V c ⟨n + 1, hn⟩ (fun h => h0 ((hcond1_0 ⟨n + 1, hn⟩).mp h)) ((hcond1_1 ⟨n + 1, hn⟩).mpr h1) (outsAt1 c n (Nat.lt_of_succ_lt hn)).2,
         accC1 V c ⟨n + 1, hn⟩ (fun h => h0 ((hcond1_0 ⟨n + 1, hn⟩).mp h)) ((hcond1_1 ⟨n + 1, hn⟩).mpr h1) (outsAt1 c n (Nat.lt_of_succ_lt hn)).2)
      else
        (VO1.read (Elt F) VO1.junk, accB1 V c ⟨n + 1, hn⟩ (fun h => h0 ((hcond1_0 ⟨n + 1, hn⟩).mp h)) (fun h => h1 ((hcond1_1 ⟨n + 1, hn⟩).mp h)) (outsAt1 c n (Nat.lt_of_succ_lt hn)).2)

theorem outsAt1_A (c : Dev nD) (t : Fin cfg1.N) (h0 : t.val % 10 = 0) :
    outsAt1 V c t.val t.isLt = (VO1.read (Elt F) VO1.junk, accA1 V c t ((hcond1_0 t).mpr h0) (fun h => (fun h => by omega) ((hcond1_1 t).mp h))) := by
  obtain ⟨n, hn⟩ := t
  cases n with
  | zero => exact rfl
  | succ n => exact (dif_pos h0).trans rfl

theorem outsAt1_B (c : Dev nD) (t : Fin cfg1.N) (h0 : ¬t.val % 10 = 0) (h1 : ¬t.val % 10 = 9) :
    outsAt1 V c t.val t.isLt = (VO1.read (Elt F) VO1.junk, accB1 V c t (fun h => h0 ((hcond1_0 t).mp h)) (fun h => h1 ((hcond1_1 t).mp h)) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 10 = 0) (h1 : t.val % 10 = 9) :
    outsAt1 V c t.val t.isLt = (outC1 V c t (fun h => h0 ((hcond1_0 t).mp h)) ((hcond1_1 t).mpr h1) (outsAt1 V c (t.val - 1) (Nat.lt_of_le_of_lt (Nat.sub_le _ _) t.isLt)).2,
      accC1 V c t (fun h => h0 ((hcond1_0 t).mp h)) ((hcond1_1 t).mpr h1) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The invariant before position `n`. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 (F := F) c) ∗ (∃ r, prngReg c r)) := by
  cases n with
  | zero => exact absurd rfl hz
  | succ n => rfl

/-! ## The proof data -/

/-- The arrays as the region finds them; after the body each input's buffer at its block, the output's and the
    accumulator at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.Kernel.Hand

end
-- ==== Proof.BitsRegion1c.lean ====
/-
  The second aggregation-and-projection call: the body's obligation at every grid point.

  From the invariant before a point, the staged blocks of the four inputs and the output's staging buffer, one run of the
  body gives the invariant before the next point: the case is decided by the point's position modulo 10 (0: reset and add;
  9: add and write the output block; otherwise: add), and the accumulator ends at `outsAt1` of the point because the
  stores of the case's run cover its buffer.  Where the output window is idle its buffer is handed back as it was found.
-/
import proofs.«414079_j34359738415_1_alg».proof.Proof.BitsRegion1b

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 100 := lt_of_lt_of_eq t.isLt (show cfg1.N = 100 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 10 = 0
  · have hc0 : cond1_0 (grid1.coords t) := (hcond1_0 t).mpr h0
    have hc1 : ¬cond1_1 (grid1.coords t) := fun h => by have := (hcond1_1 t).mp h; omega
    rw [Dat.leavesExact_idle (dat1 V c) 4 t (idleAt1_4 t hc1) (noFlush1_4 t hc1)]
    rw [outsAt1_A V c t h0]; dsimp only
    unfold accA1; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverA1 V c t hc0 hc1)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverA1 V c t hc0 hc1)
          iexact Hr
        iexact Hg
      isplitl [Ho]; · iexact Ho
      isplitl [H0]; · iexact H0
      isplitl [H1]; · iexact H1
      isplitl [H2]; · iexact H2
      isplitl [H3]; · iexact H3
      iexists _; iexact H4
  · have hc0 : ¬cond1_0 (grid1.coords t) := fun h => h0 ((hcond1_0 t).mp h)
    have hz : t.val ≠ 0 := fun e => h0 (by rw [e])
    by_cases h1 : t.val % 10 = 9
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [outsAt1_C V c t h0 h1]; dsimp only
      unfold outC1 accC1; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverCs1 V c t hc0 hc1 _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverCo1 V c t hc0 hc1 _)
    · have hc1 : ¬cond1_1 (grid1.coords t) := fun h => h1 ((hcond1_1 t).mp h)
      rw [Dat.leavesExact_idle (dat1 V c) 4 t (idleAt1_4 t hc1) (noFlush1_4 t hc1)]
      rw [outsAt1_B V c t h0 h1]; dsimp only
      unfold accB1; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverB1 V c t hc0 hc1 _)
          iexact Hr
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- The region's default invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the default one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem hout1 (c : Dev nD) : (dat1 V c).Φ (Fin.last cfg1.N) ⊢ Pipeline.ΦA spec1 c :=
  Phi_out1 V c _ (by rw [Fin.val_last]; have : cfg1.N = 100 := N_1; omega)

end Cert.Kernel.Hand

end
-- ==== Proof.BitsRun.lean ====
/-
  The whole kernel program: host operations, the first aggregation-and-projection call, a host operation, the second
  call, a host operation.  Every weakly fair execution terminates; the seven argument arrays end as launched; and the
  result buffer ends at what the last host operation computes from the second call's output array, which is what that
  call's write-backs leave, computed from buffers that hold what the first call's write-backs leave.

  Between two items of the program every unscoped buffer of the core is held at a known valuation: the launch memory, then
  each host stretch applied, then the first call's output array replaced by what its write-backs leave, and so on.  Each
  call is a segment entered from the valuation before it and left at the valuation after it.
-/
import proofs.«414079_j34359738415_1_alg».proof.Proof.BitsRegion0c
import proofs.«414079_j34359738415_1_alg».proof.Proof.BitsRegion1c
import proofs.«414079_j34359738415_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two calls leave, and the valuations between the items -/

/-- The buffers when the first call is entered, read at the TensorCore's references. -/
abbrev E5 : (c : Dev nD) → (b : Ref sig .tc) → Buf (Elt F) ((c : Thread nD τ).loc b) := fun c b => V5 m c b

/-- What the first call's write-backs leave in its output array. -/
def o6 (c : Dev nD) : Buf (Elt F) ((c : Thread nD τ).loc main_v44) := (dat0 (E5 m) c).arrAt 4 cfg0.N

/-- The contents the calls leave, as far as the first call goes. -/
def outs6 : Outs (F := F) := fun _ r c => if h : r = main_v44 then h ▸ o6 m c else m ((c : Thread nD τ).loc r)
theorem outs6_v44 (c : Dev nD) : outs6 m 6 main_v44 c = o6 m c := by unfold outs6; rw [dif_pos rfl]

/-- The buffers when the second call is entered. -/
abbrev E7 : (c : Dev nD) → (b : Ref sig .tc) → Buf (Elt F) ((c : Thread nD τ).loc b) := fun c b => V7 m (outs6 m) c b

/-- What the second call's write-backs leave in its output array. -/
def o8 (c : Dev nD) : Buf (Elt F) ((c : Thread nD τ).loc main_v46) := (dat1 (E7 m) c).arrAt 4 cfg1.N

/-- The contents the two calls leave. -/
def outs : Outs (F := F) := fun _ r c =>
  if h : r = main_v44 then h ▸ o6 m c else if h' : r = main_v46 then h' ▸ o8 m c else m ((c : Thread nD τ).loc r)
theorem outs_v44 (c : Dev nD) : outs m 6 main_v44 c = o6 m c := by unfold outs; rw [dif_pos rfl]
theorem outs_v46 (c : Dev nD) : outs m 8 main_v46 c = o8 m c := by unfold outs; rw [dif_neg (by decide), dif_pos rfl]

/-- The valuation before the second call does not depend on what that call leaves. -/
theorem V7_outs (c : Dev nD) : V7 m (outs m) c = V7 m (outs6 m) c := by
  show StableHlo.after hostOps1 (Function.update (V5 m c) _ (outs m 6 main_v44 c)) = StableHlo.after hostOps1 (Function.update (V5 m c) _ (outs6 m 6 main_v44 c))
  rw [outs_v44, outs6_v44]

theorem V6_v44 (c : Dev nD) : V6 m (outs m) c main_v44 = (dat0 (E5 m) c).arrAt 4 cfg0.N := by
  show Function.update (V5 m c) _ (outs m 6 main_v44 c) _ = _
  rw [Function.update_self, outs_v44]; rfl
theorem V8_v46 (c : Dev nD) : V8 m (outs m) c main_v46 = (dat1 (E7 m) c).arrAt 4 cfg1.N := by
  show Function.update (V7 m (outs m) c) _ (outs m 8 main_v46 c) _ = _
  rw [Function.update_self, outs_v46]; rfl

/-- After the first call each of its arrays holds what the pipeline leaves, every other buffer what it held. -/
theorem hF0 (c : Dev nD) : ∀ w : Fin cfg0.W, (dat0 (E5 m) c).arrAt w cfg0.N = V6 m (outs m) c (Pipeline.arrRef spec0 w)
  | ⟨0, _⟩ => ((dat0 (E5 m) c).arrAt_in 0 rfl _).trans ((A_eq0 (E5 m) c 0).trans (V6_of m (outs m) c main_v39 (by decide)).symm)
  | ⟨1, _⟩ => ((dat0 (E5 m) c).arrAt_in 1 rfl _).trans ((A_eq0 (E5 m) c 1).trans (V6_of m (outs m) c main_v42 (by decide)).symm)
  | ⟨2, _⟩ => ((dat0 (E5 m) c).arrAt_in 2 rfl _).trans ((A_eq0 (E5 m) c 2).trans (V6_of m (outs m) c main_arg3 (by decide)).symm)
  | ⟨3, _⟩ => ((dat0 (E5 m) c).arrAt_in 3 rfl _).trans ((A_eq0 (E5 m) c 3).trans (V6_of m (outs m) c main_v43 (by decide)).symm)
  | ⟨4, _⟩ => (V6_v44 m c).symm
theorem hrest0 (c : Dev nD) : ∀ b, b ∉ Finset.univ.image (Pipeline.arrRef spec0) → V6 m (outs m) c b = E5 m c b :=
  fun b hb => V6_of m (outs m) c b (fun h => hb (by rw [List.mem_singleton.mp h]; exact Finset.mem_image.mpr ⟨4, Finset.mem_univ _, rfl⟩))

theorem E7_eq (c : Dev nD) (b : Ref sig .tc) : E7 m c b = V7 m (outs m) c b := by
  show V7 m (outs6 m) c b = _; rw [V7_outs]
theorem hF1 (c : Dev nD) : ∀ w : Fin cfg1.W, (dat1 (E7 m) c).arrAt w cfg1.N = V8 m (outs m) c (Pipeline.arrRef spec1 w)
  | ⟨0, _⟩ => ((dat1 (E7 m) c).arrAt_in 0 rfl _).trans ((A_eq1 (E7 m) c 0).trans ((E7_eq m c main_v39).trans (V8_of m (outs m) c main_v39 (by decide)).symm))
  | ⟨1, _⟩ => ((dat1 (E7 m) c).arrAt_in 1 rfl _).trans ((A_eq1 (E7 m) c 1).trans ((E7_eq m c main_v44).trans (V8_of m (outs m) c main_v44 (by decide)).symm))
  | ⟨2, _⟩ => ((dat1 (E7 m) c).arrAt_in 2 rfl _).trans ((A_eq1 (E7 m) c 2).trans ((E7_eq m c main_arg5).trans (V8_of m (outs m) c main_arg5 (by decide)).symm))
  | ⟨3, _⟩ => ((dat1 (E7 m) c).arrAt_in 3 rfl _).trans ((A_eq1 (E7 m) c 3).trans ((E7_eq m c main_v45).trans (V8_of m (outs m) c main_v45 (by decide)).symm))
  | ⟨4, _⟩ => (V8_v46 m c).symm
theorem hrest1 (c : Dev nD) : ∀ b, b ∉ Finset.univ.image (Pipeline.arrRef spec1) → V8 m (outs m) c b = E7 m c b :=
  fun b hb => (V8_of m (outs m) c b (fun h => hb (by rw [List.mem_singleton.mp h]; exact Finset.mem_image.mpr ⟨4, Finset.mem_univ _, rfl⟩))).trans (E7_eq m c b).symm

/-! ## The proof data family and the thread state -/

/-- Every pipeline's proof data, each at its call's entry contents. -/
def pdats : (p : Fin 2) → (c : Dev nD) → Dat τ (Elt F) Unit ℕ (UR sig nD τ) ℕ (cfgs p) c
  | ⟨0, _⟩ => fun c => dat0 (E5 m) c
  | ⟨1, _⟩ => fun c => dat1 (E7 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

/-- The valuation the second call is entered from, as the run reaches it. -/
abbrev W7 (c : Dev nD) : Valuation τ sig (Elt F) := V7 m (outs6 m) c

set_option backward.isDefEq.respectTransparency.types false in
/-- The call as a segment of the program: entered from every unscoped buffer at the contents before it, left with
    them at the contents after it; its arrays are split out of the unscoped buffers on entry and put back, at what
    the write-backs leave, on exit; the generator register rides through the invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E5 m) c)
    unfold Pipeline.ΦA
    iintro ⟨Hp, -, Hr⟩
    isplitl [Hr]; · iexact Hr
    iexact Hp
  hout c := by
    rw [Pipeline.ownSems0_none]
    refine BIBase.Entails.trans (hout0 (E5 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call as a segment of the program: entered from every unscoped buffer at the contents before it, left with
    them at the contents after it; its arrays are split out of the unscoped buffers on entry and put back, at what
    the write-backs leave, on exit; the generator register rides through the invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E7 m) c)
    unfold Pipeline.ΦA
    iintro ⟨Hp, -, Hr⟩
    isplitl [Hr]; · iexact Hr
    iexact Hp
  hout c := by
    rw [Pipeline.ownSems0_none]
    refine BIBase.Entails.trans (hout1 (E7 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (fun b => V8 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- The program's run from the two calls' records: it terminates, the result buffer ends at the last valuation's
    contents and every argument array as launched. -/
theorem run_of_regions {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : Pipeline.RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : Pipeline.RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      r.2.mem ((c.tc : Thread nD τ).loc main_v47) = V9 m outs c main_v47
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Pipeline.Seg.run_eq_chain,
        show (segs m outs 𝒱₀ L lv E ι pdats R0 R1 c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, .rfl, .rfl, .rfl, hpre0 c, hpost0 c, hpre1 c, hpost1 c, sep_mono .rfl (hE2 c)⟩)
    (hinit := ?_) (QY := fun c s => s.mem ((c.tc : Thread nD τ).loc main_v47) = V9 m outs c main_v47 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v47) (Finset.mem_filter.mpr ⟨StableHlo.devRef_mem_tcRefs main_v47, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c),
        (h (Proc.devRef .tc main_arg5) (Finset.mem_filter.mpr ⟨StableHlo.devRef_mem_tcRefs main_arg5, by decide⟩)).trans (V9_main_arg5 m outs c),
        (h (Proc.devRef .tc main_arg6) (Finset.mem_filter.mpr ⟨StableHlo.devRef_mem_tcRefs main_arg6, by decide⟩)).trans (V9_main_arg6 m outs c)⟩
    · iexact HSI

set_option backward.isDefEq.respectTransparency.types false in
/-- THE RUN of the kernel program, at any float instance. -/
theorem run_main : θ_run defs (onTc (τ := τ) (main (F := F))) ⟨m, fun _ => 0, ρ⟩ (fun r => ∀ c : Dev nD,
      r.2.mem ((c.tc : Thread nD τ).loc main_v47) = V9 m (outs m) c main_v47
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_of_regions m (emb₁ : Emb _ 𝕄) () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => .rfl)
    (R1 := reg1 m) (hpre1 := fun c => by rw [V7_outs]; exact .rfl) (hpost1 := fun c => .rfl)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_main m ρ)

end Cert.Kernel.Hand

end
-- ==== Proof.Region0a.lean ====
/-
  The first aggregation-and-projection call, point by point: what one run of its body does to the accumulator
  and to the output block, in each of the three situations a grid point (i, k) can be in.

  The body keeps a running sum `acc` of shape 1024 × 128 across the ten points k = 0 … 9 of a row of blocks:
  at k = 0 it first sets `acc` to zero; at every k it adds the product of the point's 1024 × 1024 block of the
  normalised adjacency matrix with the point's 1024 × 128 block of the features; at k = 9 it also writes the output
  block, `max (acc · W + b) 0`.  So a point is in one of three cases: k = 0 (reset, then add), 0 < k < 9 (add),
  k = 9 (add, then write the output).  For each case the body is run once, symbolically, on arbitrary staging
  buffers; what it leaves in the accumulator and in the output buffer is recorded as the list of stores it made.
-/
import proofs.«414079_j34359738415_1_alg».proof.Proof.Gen.KernelIdeal.Launch
import proofs.«414079_j34359738415_1_alg».proof.Proof.Gen.KernelIdeal.Skeleton
import proofs.«414079_j34359738415_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, decided over the grid -/

/-- "k = 0", as the body computes it from the grid point. -/
abbrev cond0_0 (i : grid0.Coords) : Prop := (Scalar.cmpi .ne (Scalar.extui (Scalar.cmpi .eq (BitVec.ofNat 32 (i 1).val) 0#32)) 0#32) = 1#1
/-- It holds exactly at the points whose position is ≡ 0 (mod 10). -/
theorem hcond0_0 : ∀ t : Fin cfg0.N, cond0_0 (grid0.coords t) ↔ t.val % 10 = 0 :=
  (by decide +kernel : ∀ t : Fin grid0.N, cond0_0 (grid0.coords t) ↔ t.val % 10 = 0)

/-- "k = 9", as the body computes it from the grid point. -/
abbrev cond0_1 (i : grid0.Coords) : Prop := k0_cond2 i = 1#1
/-- It holds exactly at the points whose position is ≡ 9 (mod 10). -/
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The output block is stored only at k = 9: elsewhere its window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The body's run in each case -/

/-- The accumulator's buffer. -/
abbrev scM0 : Memref sig .tc .vmem S1024x128 .f32 := Memref.whole cc0_scratch0

set_option maxHeartbeats 4000000 in
/-- CASE k = 0.  The inputs' buffers hold `x0 … x3`, the output's buffer `xi4` (untouched), the accumulator anything.
    The body runs and leaves the inputs and the output's buffer as they were, and the accumulator with the stores `LS`. -/
noncomputable def kernelRun0_A (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole)
    (hc0 : cond0_0 i) (hc1 : ¬cond0_1 i)
    (x0 : Vec F S1024x1024 .bf16) (x1 : Vec F S1024x128 .f32) (x2 : Vec F S128x128 .f32) (x3 : Vec F S1x128 .f32) :
    { LS : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, fun xi4 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- CASE 0 < k < 9.  As before, but the accumulator holds `xs`, what the point before left in it. -/
noncomputable def kernelRun0_B (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole)
    (hc0 : ¬cond0_0 i) (hc1 : ¬cond0_1 i)
    (x0 : Vec F S1024x1024 .bf16) (x1 : Vec F S1024x128 .f32) (x2 : Vec F S128x128 .f32) (x3 : Vec F S1x128 .f32) (xs : Vec F S1024x128 .f32) :
    { LS : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, fun xi4 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- CASE k = 9.  The accumulator holds `xs`; the output's buffer holds anything.  The body leaves the accumulator with
    the stores `LS` and the output's buffer with the stores `L4`. -/
noncomputable def kernelRun0_C (c : Dev nD) (i : grid0.Coords) (arg2 : Memref sig .tc .vmem S1024x1024 .bf16) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole)
    (hc0 : ¬cond0_0 i) (hc1 : cond0_1 i)
    (x0 : Vec F S1024x1024 .bf16) (x1 : Vec F S1024x128 .f32) (x2 : Vec F S128x128 .f32) (x3 : Vec F S1x128 .f32) (xs : Vec F S1024x128 .f32) :
    Σ' (L4 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

end Cert.KernelIdeal.Hand

end
-- ==== Proof.Region0b.lean ====
/-
  The first aggregation-and-projection call over its whole grid: what the accumulator and the output block hold after
  every point, and that the body, run at any point from that state, re-establishes it.

  `outsAt0 n` is the pair (output buffer, accumulator) after the point at position `n`, by recursion on `n`: at a point
  with k = 0 the accumulator is what the reset-and-add run leaves; at a later point it is what the add run leaves over the
  accumulator of the point before; at k = 9 the output buffer is what the add-and-write run leaves.  The region's invariant
  before a point holds the accumulator's buffer at `outsAt0` of the point before (at anything before the first point) and
  the core's other scratch buffers at anything.
-/
import proofs.«414079_j34359738415_1_alg».proof.Proof.Region0a

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers of the core when the region is entered
variable (V : (c : Dev nD) → (b : Ref sig .tc) → Buf (Elt F) ((c : Thread nD τ).loc b))

/-! ## The windows' blocks and staging buffers -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)

/-- One staging buffer of the output window, and the accumulator, as views: contents are stated through them. -/
abbrev VO0 : View sig .tc .vmem S1024x128 .f32 := (Memref.whole cc0_stg4_0 : Memref sig .tc .vmem S1024x128 .f32).view
abbrev VS0 : View sig .tc .vmem S1024x128 .f32 := scM0.view

/-! ## The invariant's shape: the accumulator beside the other scratch buffers -/

/-- The core's other scoped buffers that are no staging buffer of this call, each at some contents, unopened. -/
abbrev rest0 (c : Dev nD) : sProp 𝕄 :=
  Pipeline.scopedRestBut (Ix := Unit) (Name := ℕ) (U := UR sig nD τ) (Lvl := ℕ) (Val := Elt F) spec0 c [cc0_scratch0]

/-- The region's default invariant: the accumulator at some contents, the other buffers, the generator register. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA
  rw [Pipeline.scopedRest_split_of_list spec0 c [cc0_scratch0] (by decide) (by decide)]
  simp only [scM0, owns_whole]; try rfl

/-! ## What each case leaves -/

/-- The accumulator after a point with k = 0. -/
def accA0 (c : Dev nD) (t : Fin cfg0.N) (h0 : cond0_0 (grid0.coords t)) (h1 : ¬cond0_1 (grid0.coords t)) : Vec F S1024x128 .f32 :=
  VS0.read (Elt F) (VS0.writes (Elt F) VS0.junk (kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t)).1)
theorem coverA0 (c : Dev nD) (t : Fin cfg0.N) (h0 : cond0_0 (grid0.coords t)) (h1 : ¬cond0_1 (grid0.coords t)) (y : S1024x128.Idx) :
    ∃ pc ∈ (kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t)).1, y ∈ pc.1.set :=
  View.cover_of_tiledL (kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t)).1 S1024x128.size (by sl_kernel_rfl) y

/-- The accumulator after a point with 0 < k < 9, over the accumulator `xs` of the point before. -/
def accB0 (c : Dev nD) (t : Fin cfg0.N) (h0 : ¬cond0_0 (grid0.coords t)) (h1 : ¬cond0_1 (grid0.coords t)) (xs : Vec F S1024x128 .f32) : Vec F S1024x128 .f32 :=
  VS0.read (Elt F) (VS0.writes (Elt F) VS0.junk (kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t) xs).1)
theorem coverB0 (c : Dev nD) (t : Fin cfg0.N) (h0 : ¬cond0_0 (grid0.coords t)) (h1 : ¬cond0_1 (grid0.coords t)) (xs : Vec F S1024x128 .f32) (y : S1024x128.Idx) :
    ∃ pc ∈ (kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t) xs).1, y ∈ pc.1.set :=
  View.cover_of_tiledL (kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t) xs).1 S1024x128.size (by sl_kernel_rfl) y

/-- The accumulator and the output buffer after a point with k = 9. -/
def accC0 (c : Dev nD) (t : Fin cfg0.N) (h0 : ¬cond0_0 (grid0.coords t)) (h1 : cond0_1 (grid0.coords t)) (xs : Vec F S1024x128 .f32) : Vec F S1024x128 .f32 :=
  VS0.read (Elt F) (VS0.writes (Elt F) VS0.junk (kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t) xs).2.1)
theorem coverCs0 (c : Dev nD) (t : Fin cfg0.N) (h0 : ¬cond0_0 (grid0.coords t)) (h1 : cond0_1 (grid0.coords t)) (xs : Vec F S1024x128 .f32) (y : S1024x128.Idx) :
    ∃ pc ∈ (kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t) xs).2.1, y ∈ pc.1.set :=
  View.cover_of_tiledL (kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t) xs).2.1 S1024x128.size (by sl_kernel_rfl) y
def outC0 (c : Dev nD) (t : Fin cfg0.N) (h0 : ¬cond0_0 (grid0.coords t)) (h1 : cond0_1 (grid0.coords t)) (xs : Vec F S1024x128 .f32) : Vec F S1024x128 .f32 :=
  VO0.read (Elt F) (VO0.writes (Elt F) VO0.junk (kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t) xs).1)
theorem coverCo0 (c : Dev nD) (t : Fin cfg0.N) (h0 : ¬cond0_0 (grid0.coords t)) (h1 : cond0_1 (grid0.coords t)) (xs : Vec F S1024x128 .f32) (y : S1024x128.Idx) :
    ∃ pc ∈ (kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t) xs).1, y ∈ pc.1.set :=
  View.cover_of_tiledL (kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) h0 h1 (iblk0 V c 0 t) (iblk0 V c 1 t) (iblk0 V c 2 t) (iblk0 V c 3 t) xs).1 S1024x128.size (by sl_kernel_rfl) y

/-! ## The accumulation -/

/-- After the point at position `n`: (the output buffer, the accumulator).  Where the output window is idle its
    component is a placeholder nothing consults. -/
def outsAt0 (c : Dev nD) : (n : ℕ) → n < cfg0.N → Vec F S1024x128 .f32 × Vec F S1024x128 .f32
  | 0, hn => (VO0.read (Elt F) VO0.junk, accA0 V c ⟨0, hn⟩ ((hcond0_0 ⟨0, hn⟩).mpr (Nat.zero_mod _)) (fun h => (fun h => by (try dsimp only at h); omega) ((hcond0_1 ⟨0, hn⟩).mp h)))
  | n + 1, hn =>
    if h0 : (n + 1) % 10 = 0 then
      (VO0.read (Elt F) VO0.junk, accA0 V c ⟨n + 1, hn⟩ ((hcond0_0 ⟨n + 1, hn⟩).mpr h0) (fun h => (fun h => by (try dsimp only at h); omega) ((hcond0_1 ⟨n + 1, hn⟩).mp h)))
    else
      if h1 : (n + 1) % 10 = 9 then
        (outC0 V c ⟨n + 1, hn⟩ (fun h => h0 ((hcond0_0 ⟨n + 1, hn⟩).mp h)) ((hcond0_1 ⟨n + 1, hn⟩).mpr h1) (outsAt0 c n (Nat.lt_of_succ_lt hn)).2,
         accC0 V c ⟨n + 1, hn⟩ (fun h => h0 ((hcond0_0 ⟨n + 1, hn⟩).mp h)) ((hcond0_1 ⟨n + 1, hn⟩).mpr h1) (outsAt0 c n (Nat.lt_of_succ_lt hn)).2)
      else
        (VO0.read (Elt F) VO0.junk, accB0 V c ⟨n + 1, hn⟩ (fun h => h0 ((hcond0_0 ⟨n + 1, hn⟩).mp h)) (fun h => h1 ((hcond0_1 ⟨n + 1, hn⟩).mp h)) (outsAt0 c n (Nat.lt_of_succ_lt hn)).2)

theorem outsAt0_A (c : Dev nD) (t : Fin cfg0.N) (h0 : t.val % 10 = 0) :
    outsAt0 V c t.val t.isLt = (VO0.read (Elt F) VO0.junk, accA0 V c t ((hcond0_0 t).mpr h0) (fun h => (fun h => by omega) ((hcond0_1 t).mp h))) := by
  obtain ⟨n, hn⟩ := t
  cases n with
  | zero => exact rfl
  | succ n => exact (dif_pos h0).trans rfl

theorem outsAt0_B (c : Dev nD) (t : Fin cfg0.N) (h0 : ¬t.val % 10 = 0) (h1 : ¬t.val % 10 = 9) :
    outsAt0 V c t.val t.isLt = (VO0.read (Elt F) VO0.junk, accB0 V c t (fun h => h0 ((hcond0_0 t).mp h)) (fun h => h1 ((hcond0_1 t).mp h)) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 10 = 0) (h1 : t.val % 10 = 9) :
    outsAt0 V c t.val t.isLt = (outC0 V c t (fun h => h0 ((hcond0_0 t).mp h)) ((hcond0_1 t).mpr h1) (outsAt0 V c (t.val - 1) (Nat.lt_of_le_of_lt (Nat.sub_le _ _) t.isLt)).2,
      accC0 V c t (fun h => h0 ((hcond0_0 t).mp h)) ((hcond0_1 t).mpr h1) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The invariant before position `n`. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 (F := F) c) ∗ (∃ r, prngReg c r)) := by
  cases n with
  | zero => exact absurd rfl hz
  | succ n => rfl

/-! ## The proof data -/

/-- The arrays as the region finds them; after the body each input's buffer at its block, the output's and the
    accumulator at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.KernelIdeal.Hand

end
-- ==== Proof.Region0c.lean ====
/-
  The first aggregation-and-projection call: the body's obligation at every grid point.

  From the invariant before a point, the staged blocks of the four inputs and the output's staging buffer, one run of the
  body gives the invariant before the next point: the case is decided by the point's position modulo 10 (0: reset and add;
  9: add and write the output block; otherwise: add), and the accumulator ends at `outsAt0` of the point because the
  stores of the case's run cover its buffer.  Where the output window is idle its buffer is handed back as it was found.
-/
import proofs.«414079_j34359738415_1_alg».proof.Proof.Region0b

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 100 := lt_of_lt_of_eq t.isLt (show cfg0.N = 100 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 10 = 0
  · have hc0 : cond0_0 (grid0.coords t) := (hcond0_0 t).mpr h0
    have hc1 : ¬cond0_1 (grid0.coords t) := fun h => by have := (hcond0_1 t).mp h; omega
    rw [Dat.leavesExact_idle (dat0 V c) 4 t (idleAt0_4 t hc1) (noFlush0_4 t hc1)]
    rw [outsAt0_A V c t h0]; dsimp only
    unfold accA0; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverA0 V c t hc0 hc1)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverA0 V c t hc0 hc1)
          iexact Hr
        iexact Hg
      isplitl [Ho]; · iexact Ho
      isplitl [H0]; · iexact H0
      isplitl [H1]; · iexact H1
      isplitl [H2]; · iexact H2
      isplitl [H3]; · iexact H3
      iexists _; iexact H4
  · have hc0 : ¬cond0_0 (grid0.coords t) := fun h => h0 ((hcond0_0 t).mp h)
    have hz : t.val ≠ 0 := fun e => h0 (by rw [e])
    by_cases h1 : t.val % 10 = 9
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [outsAt0_C V c t h0 h1]; dsimp only
      unfold outC0 accC0; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverCs0 V c t hc0 hc1 _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverCo0 V c t hc0 hc1 _)
    · have hc1 : ¬cond0_1 (grid0.coords t) := fun h => h1 ((hcond0_1 t).mp h)
      rw [Dat.leavesExact_idle (dat0 V c) 4 t (idleAt0_4 t hc1) (noFlush0_4 t hc1)]
      rw [outsAt0_B V c t h0 h1]; dsimp only
      unfold accB0; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) hc0 hc1 (iblk0 V c 0 t) (iblk0 V c 1 t) (iblk0 V c 2 t) (iblk0 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverB0 V c t hc0 hc1 _)
          iexact Hr
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

/-- The region's default invariant is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the default one back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

theorem hout0 (c : Dev nD) : (dat0 V c).Φ (Fin.last cfg0.N) ⊢ Pipeline.ΦA spec0 c :=
  Phi_out0 V c _ (by rw [Fin.val_last]; have : cfg0.N = 100 := N_0; omega)

end Cert.KernelIdeal.Hand

end
-- ==== Proof.Region1a.lean ====
/-
  The second aggregation-and-projection call, point by point: what one run of its body does to the accumulator
  and to the output block, in each of the three situations a grid point (i, k) can be in.

  The body keeps a running sum `acc` of shape 1024 × 128 across the ten points k = 0 … 9 of a row of blocks:
  at k = 0 it first sets `acc` to zero; at every k it adds the product of the point's 1024 × 1024 block of the
  normalised adjacency matrix with the point's 1024 × 128 block of the features; at k = 9 it also writes the output
  block, `acc · W + b`.  So a point is in one of three cases: k = 0 (reset, then add), 0 < k < 9 (add),
  k = 9 (add, then write the output).  For each case the body is run once, symbolically, on arbitrary staging
  buffers; what it leaves in the accumulator and in the output buffer is recorded as the list of stores it made.
-/
import proofs.«414079_j34359738415_1_alg».proof.Proof.Gen.KernelIdeal.Launch
import proofs.«414079_j34359738415_1_alg».proof.Proof.Gen.KernelIdeal.Skeleton
import proofs.«414079_j34359738415_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, decided over the grid -/

/-- "k = 0", as the body computes it from the grid point. -/
abbrev cond1_0 (i : grid1.Coords) : Prop := (Scalar.cmpi .ne (Scalar.extui (Scalar.cmpi .eq (BitVec.ofNat 32 (i 1).val) 0#32)) 0#32) = 1#1
/-- It holds exactly at the points whose position is ≡ 0 (mod 10). -/
theorem hcond1_0 : ∀ t : Fin cfg1.N, cond1_0 (grid1.coords t) ↔ t.val % 10 = 0 :=
  (by decide +kernel : ∀ t : Fin grid1.N, cond1_0 (grid1.coords t) ↔ t.val % 10 = 0)

/-- "k = 9", as the body computes it from the grid point. -/
abbrev cond1_1 (i : grid1.Coords) : Prop := k1_cond2 i = 1#1
/-- It holds exactly at the points whose position is ≡ 9 (mod 10). -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- The output block is stored only at k = 9: elsewhere its window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The body's run in each case -/

/-- The accumulator's buffer. -/
abbrev scM1 : Memref sig .tc .vmem S1024x128 .f32 := Memref.whole cc1_scratch0

set_option maxHeartbeats 4000000 in
/-- CASE k = 0.  The inputs' buffers hold `x0 … x3`, the output's buffer `xi4` (untouched), the accumulator anything.
    The body runs and leaves the inputs and the output's buffer as they were, and the accumulator with the stores `LS`. -/
noncomputable def kernelRun1_A (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x128 .f32) (harg7 : arg7.IsWhole)
    (hc0 : cond1_0 i) (hc1 : ¬cond1_1 i)
    (x0 : Vec F S1024x1024 .bf16) (x1 : Vec F S1024x128 .f32) (x2 : Vec F S128x64 .f32) (x3 : Vec F S1x64 .f32) :
    { LS : List (View.Piece (Elt F) S1024x128 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun xi4 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- CASE 0 < k < 9.  As before, but the accumulator holds `xs`, what the point before left in it. -/
noncomputable def kernelRun1_B (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x128 .f32) (harg7 : arg7.IsWhole)
    (hc0 : ¬cond1_0 i) (hc1 : ¬cond1_1 i)
    (x0 : Vec F S1024x1024 .bf16) (x1 : Vec F S1024x128 .f32) (x2 : Vec F S128x64 .f32) (x3 : Vec F S1x64 .f32) (xs : Vec F S1024x128 .f32) :
    { LS : List (View.Piece (Elt F) S1024x128 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun xi4 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- CASE k = 9.  The accumulator holds `xs`; the output's buffer holds anything.  The body leaves the accumulator with
    the stores `LS` and the output's buffer with the stores `L4`. -/
noncomputable def kernelRun1_C (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x128 .f32) (harg7 : arg7.IsWhole)
    (hc0 : ¬cond1_0 i) (hc1 : cond1_1 i)
    (x0 : Vec F S1024x1024 .bf16) (x1 : Vec F S1024x128 .f32) (x2 : Vec F S128x64 .f32) (x3 : Vec F S1x64 .f32) (xs : Vec F S1024x128 .f32) :
    Σ' (L4 : List (View.Piece (Elt F) S1024x64 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

end Cert.KernelIdeal.Hand

end
-- ==== Proof.Region1b.lean ====
/-
  The second aggregation-and-projection call over its whole grid: what the accumulator and the output block hold after
  every point, and that the body, run at any point from that state, re-establishes it.

  `outsAt1 n` is the pair (output buffer, accumulator) after the point at position `n`, by recursion on `n`: at a point
  with k = 0 the accumulator is what the reset-and-add run leaves; at a later point it is what the add run leaves over the
  accumulator of the point before; at k = 9 the output buffer is what the add-and-write run leaves.  The region's invariant
  before a point holds the accumulator's buffer at `outsAt1` of the point before (at anything before the first point) and
  the core's other scratch buffers at anything.
-/
import proofs.«414079_j34359738415_1_alg».proof.Proof.Region1a

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers of the core when the region is entered
variable (V : (c : Dev nD) → (b : Ref sig .tc) → Buf (Elt F) ((c : Thread nD τ).loc b))

/-! ## The windows' blocks and staging buffers -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)

/-- One staging buffer of the output window, and the accumulator, as views: contents are stated through them. -/
abbrev VO1 : View sig .tc .vmem S1024x64 .f32 := (Memref.whole cc1_stg4_0 : Memref sig .tc .vmem S1024x64 .f32).view
abbrev VS1 : View sig .tc .vmem S1024x128 .f32 := scM1.view

/-! ## The invariant's shape: the accumulator beside the other scratch buffers -/

/-- The core's other scoped buffers that are no staging buffer of this call, each at some contents, unopened. -/
abbrev rest1 (c : Dev nD) : sProp 𝕄 :=
  Pipeline.scopedRestBut (Ix := Unit) (Name := ℕ) (U := UR sig nD τ) (Lvl := ℕ) (Val := Elt F) spec1 c [cc1_scratch0]

/-- The region's default invariant: the accumulator at some contents, the other buffers, the generator register. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA
  rw [Pipeline.scopedRest_split_of_list spec1 c [cc1_scratch0] (by decide) (by decide)]
  simp only [scM1, owns_whole]; try rfl

/-! ## What each case leaves -/

/-- The accumulator after a point with k = 0. -/
def accA1 (c : Dev nD) (t : Fin cfg1.N) (h0 : cond1_0 (grid1.coords t)) (h1 : ¬cond1_1 (grid1.coords t)) : Vec F S1024x128 .f32 :=
  VS1.read (Elt F) (VS1.writes (Elt F) VS1.junk (kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t)).1)
theorem coverA1 (c : Dev nD) (t : Fin cfg1.N) (h0 : cond1_0 (grid1.coords t)) (h1 : ¬cond1_1 (grid1.coords t)) (y : S1024x128.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t)).1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t)).1 S1024x128.size (by sl_kernel_rfl) y

/-- The accumulator after a point with 0 < k < 9, over the accumulator `xs` of the point before. -/
def accB1 (c : Dev nD) (t : Fin cfg1.N) (h0 : ¬cond1_0 (grid1.coords t)) (h1 : ¬cond1_1 (grid1.coords t)) (xs : Vec F S1024x128 .f32) : Vec F S1024x128 .f32 :=
  VS1.read (Elt F) (VS1.writes (Elt F) VS1.junk (kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t) xs).1)
theorem coverB1 (c : Dev nD) (t : Fin cfg1.N) (h0 : ¬cond1_0 (grid1.coords t)) (h1 : ¬cond1_1 (grid1.coords t)) (xs : Vec F S1024x128 .f32) (y : S1024x128.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t) xs).1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t) xs).1 S1024x128.size (by sl_kernel_rfl) y

/-- The accumulator and the output buffer after a point with k = 9. -/
def accC1 (c : Dev nD) (t : Fin cfg1.N) (h0 : ¬cond1_0 (grid1.coords t)) (h1 : cond1_1 (grid1.coords t)) (xs : Vec F S1024x128 .f32) : Vec F S1024x128 .f32 :=
  VS1.read (Elt F) (VS1.writes (Elt F) VS1.junk (kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t) xs).2.1)
theorem coverCs1 (c : Dev nD) (t : Fin cfg1.N) (h0 : ¬cond1_0 (grid1.coords t)) (h1 : cond1_1 (grid1.coords t)) (xs : Vec F S1024x128 .f32) (y : S1024x128.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t) xs).2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t) xs).2.1 S1024x128.size (by sl_kernel_rfl) y
def outC1 (c : Dev nD) (t : Fin cfg1.N) (h0 : ¬cond1_0 (grid1.coords t)) (h1 : cond1_1 (grid1.coords t)) (xs : Vec F S1024x128 .f32) : Vec F S1024x64 .f32 :=
  VO1.read (Elt F) (VO1.writes (Elt F) VO1.junk (kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t) xs).1)
theorem coverCo1 (c : Dev nD) (t : Fin cfg1.N) (h0 : ¬cond1_0 (grid1.coords t)) (h1 : cond1_1 (grid1.coords t)) (xs : Vec F S1024x128 .f32) (y : S1024x64.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t) xs).1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) h0 h1 (iblk1 V c 0 t) (iblk1 V c 1 t) (iblk1 V c 2 t) (iblk1 V c 3 t) xs).1 S1024x64.size (by sl_kernel_rfl) y

/-! ## The accumulation -/

/-- After the point at position `n`: (the output buffer, the accumulator).  Where the output window is idle its
    component is a placeholder nothing consults. -/
def outsAt1 (c : Dev nD) : (n : ℕ) → n < cfg1.N → Vec F S1024x64 .f32 × Vec F S1024x128 .f32
  | 0, hn => (VO1.read (Elt F) VO1.junk, accA1 V c ⟨0, hn⟩ ((hcond1_0 ⟨0, hn⟩).mpr (Nat.zero_mod _)) (fun h => (fun h => by (try dsimp only at h); omega) ((hcond1_1 ⟨0, hn⟩).mp h)))
  | n + 1, hn =>
    if h0 : (n + 1) % 10 = 0 then
      (VO1.read (Elt F) VO1.junk, accA1 V c ⟨n + 1, hn⟩ ((hcond1_0 ⟨n + 1, hn⟩).mpr h0) (fun h => (fun h => by (try dsimp only at h); omega) ((hcond1_1 ⟨n + 1, hn⟩).mp h)))
    else
      if h1 : (n + 1) % 10 = 9 then
        (outC1 V c ⟨n + 1, hn⟩ (fun h => h0 ((hcond1_0 ⟨n + 1, hn⟩).mp h)) ((hcond1_1 ⟨n + 1, hn⟩).mpr h1) (outsAt1 c n (Nat.lt_of_succ_lt hn)).2,
         accC1 V c ⟨n + 1, hn⟩ (fun h => h0 ((hcond1_0 ⟨n + 1, hn⟩).mp h)) ((hcond1_1 ⟨n + 1, hn⟩).mpr h1) (outsAt1 c n (Nat.lt_of_succ_lt hn)).2)
      else
        (VO1.read (Elt F) VO1.junk, accB1 V c ⟨n + 1, hn⟩ (fun h => h0 ((hcond1_0 ⟨n + 1, hn⟩).mp h)) (fun h => h1 ((hcond1_1 ⟨n + 1, hn⟩).mp h)) (outsAt1 c n (Nat.lt_of_succ_lt hn)).2)

theorem outsAt1_A (c : Dev nD) (t : Fin cfg1.N) (h0 : t.val % 10 = 0) :
    outsAt1 V c t.val t.isLt = (VO1.read (Elt F) VO1.junk, accA1 V c t ((hcond1_0 t).mpr h0) (fun h => (fun h => by omega) ((hcond1_1 t).mp h))) := by
  obtain ⟨n, hn⟩ := t
  cases n with
  | zero => exact rfl
  | succ n => exact (dif_pos h0).trans rfl

theorem outsAt1_B (c : Dev nD) (t : Fin cfg1.N) (h0 : ¬t.val % 10 = 0) (h1 : ¬t.val % 10 = 9) :
    outsAt1 V c t.val t.isLt = (VO1.read (Elt F) VO1.junk, accB1 V c t (fun h => h0 ((hcond1_0 t).mp h)) (fun h => h1 ((hcond1_1 t).mp h)) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 10 = 0) (h1 : t.val % 10 = 9) :
    outsAt1 V c t.val t.isLt = (outC1 V c t (fun h => h0 ((hcond1_0 t).mp h)) ((hcond1_1 t).mpr h1) (outsAt1 V c (t.val - 1) (Nat.lt_of_le_of_lt (Nat.sub_le _ _) t.isLt)).2,
      accC1 V c t (fun h => h0 ((hcond1_0 t).mp h)) ((hcond1_1 t).mpr h1) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The invariant before position `n`. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 (F := F) c) ∗ (∃ r, prngReg c r)) := by
  cases n with
  | zero => exact absurd rfl hz
  | succ n => rfl

/-! ## The proof data -/

/-- The arrays as the region finds them; after the body each input's buffer at its block, the output's and the
    accumulator at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.KernelIdeal.Hand

end
-- ==== Proof.Region1c.lean ====
/-
  The second aggregation-and-projection call: the body's obligation at every grid point.

  From the invariant before a point, the staged blocks of the four inputs and the output's staging buffer, one run of the
  body gives the invariant before the next point: the case is decided by the point's position modulo 10 (0: reset and add;
  9: add and write the output block; otherwise: add), and the accumulator ends at `outsAt1` of the point because the
  stores of the case's run cover its buffer.  Where the output window is idle its buffer is handed back as it was found.
-/
import proofs.«414079_j34359738415_1_alg».proof.Proof.Region1b

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 100 := lt_of_lt_of_eq t.isLt (show cfg1.N = 100 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 10 = 0
  · have hc0 : cond1_0 (grid1.coords t) := (hcond1_0 t).mpr h0
    have hc1 : ¬cond1_1 (grid1.coords t) := fun h => by have := (hcond1_1 t).mp h; omega
    rw [Dat.leavesExact_idle (dat1 V c) 4 t (idleAt1_4 t hc1) (noFlush1_4 t hc1)]
    rw [outsAt1_A V c t h0]; dsimp only
    unfold accA1; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverA1 V c t hc0 hc1)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverA1 V c t hc0 hc1)
          iexact Hr
        iexact Hg
      isplitl [Ho]; · iexact Ho
      isplitl [H0]; · iexact H0
      isplitl [H1]; · iexact H1
      isplitl [H2]; · iexact H2
      isplitl [H3]; · iexact H3
      iexists _; iexact H4
  · have hc0 : ¬cond1_0 (grid1.coords t) := fun h => h0 ((hcond1_0 t).mp h)
    have hz : t.val ≠ 0 := fun e => h0 (by rw [e])
    by_cases h1 : t.val % 10 = 9
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [outsAt1_C V c t h0 h1]; dsimp only
      unfold outC1 accC1; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverCs1 V c t hc0 hc1 _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverCo1 V c t hc0 hc1 _)
    · have hc1 : ¬cond1_1 (grid1.coords t) := fun h => h1 ((hcond1_1 t).mp h)
      rw [Dat.leavesExact_idle (dat1 V c) 4 t (idleAt1_4 t hc1) (noFlush1_4 t hc1)]
      rw [outsAt1_B V c t h0 h1]; dsimp only
      unfold accB1; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) hc0 hc1 (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverB1 V c t hc0 hc1 _)
          iexact Hr
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- The region's default invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the default one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem hout1 (c : Dev nD) : (dat1 V c).Φ (Fin.last cfg1.N) ⊢ Pipeline.ΦA spec1 c :=
  Phi_out1 V c _ (by rw [Fin.val_last]; have : cfg1.N = 100 := N_1; omega)

end Cert.KernelIdeal.Hand

end
-- ==== Proof.Run.lean ====
/-
  The whole kernel program: host operations, the first aggregation-and-projection call, a host operation, the second
  call, a host operation.  Every weakly fair execution terminates; the seven argument arrays end as launched; and the
  result buffer ends at what the last host operation computes from the second call's output array, which is what that
  call's write-backs leave, computed from buffers that hold what the first call's write-backs leave.

  Between two items of the program every unscoped buffer of the core is held at a known valuation: the launch memory, then
  each host stretch applied, then the first call's output array replaced by what its write-backs leave, and so on.  Each
  call is a segment entered from the valuation before it and left at the valuation after it.
-/
import proofs.«414079_j34359738415_1_alg».proof.Proof.Region0c
import proofs.«414079_j34359738415_1_alg».proof.Proof.Region1c
import proofs.«414079_j34359738415_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two calls leave, and the valuations between the items -/

/-- The buffers when the first call is entered, read at the TensorCore's references. -/
abbrev E5 : (c : Dev nD) → (b : Ref sig .tc) → Buf (Elt F) ((c : Thread nD τ).loc b) := fun c b => V5 m c b

/-- What the first call's write-backs leave in its output array. -/
def o6 (c : Dev nD) : Buf (Elt F) ((c : Thread nD τ).loc main_v44) := (dat0 (E5 m) c).arrAt 4 cfg0.N

/-- The contents the calls leave, as far as the first call goes. -/
def outs6 : Outs (F := F) := fun _ r c => if h : r = main_v44 then h ▸ o6 m c else m ((c : Thread nD τ).loc r)
theorem outs6_v44 (c : Dev nD) : outs6 m 6 main_v44 c = o6 m c := by unfold outs6; rw [dif_pos rfl]

/-- The buffers when the second call is entered. -/
abbrev E7 : (c : Dev nD) → (b : Ref sig .tc) → Buf (Elt F) ((c : Thread nD τ).loc b) := fun c b => V7 m (outs6 m) c b

/-- What the second call's write-backs leave in its output array. -/
def o8 (c : Dev nD) : Buf (Elt F) ((c : Thread nD τ).loc main_v46) := (dat1 (E7 m) c).arrAt 4 cfg1.N

/-- The contents the two calls leave. -/
def outs : Outs (F := F) := fun _ r c =>
  if h : r = main_v44 then h ▸ o6 m c else if h' : r = main_v46 then h' ▸ o8 m c else m ((c : Thread nD τ).loc r)
theorem outs_v44 (c : Dev nD) : outs m 6 main_v44 c = o6 m c := by unfold outs; rw [dif_pos rfl]
theorem outs_v46 (c : Dev nD) : outs m 8 main_v46 c = o8 m c := by unfold outs; rw [dif_neg (by decide), dif_pos rfl]

/-- The valuation before the second call does not depend on what that call leaves. -/
theorem V7_outs (c : Dev nD) : V7 m (outs m) c = V7 m (outs6 m) c := by
  show StableHlo.after hostOps1 (Function.update (V5 m c) _ (outs m 6 main_v44 c)) = StableHlo.after hostOps1 (Function.update (V5 m c) _ (outs6 m 6 main_v44 c))
  rw [outs_v44, outs6_v44]

theorem V6_v44 (c : Dev nD) : V6 m (outs m) c main_v44 = (dat0 (E5 m) c).arrAt 4 cfg0.N := by
  show Function.update (V5 m c) _ (outs m 6 main_v44 c) _ = _
  rw [Function.update_self, outs_v44]; rfl
theorem V8_v46 (c : Dev nD) : V8 m (outs m) c main_v46 = (dat1 (E7 m) c).arrAt 4 cfg1.N := by
  show Function.update (V7 m (outs m) c) _ (outs m 8 main_v46 c) _ = _
  rw [Function.update_self, outs_v46]; rfl

/-- After the first call each of its arrays holds what the pipeline leaves, every other buffer what it held. -/
theorem hF0 (c : Dev nD) : ∀ w : Fin cfg0.W, (dat0 (E5 m) c).arrAt w cfg0.N = V6 m (outs m) c (Pipeline.arrRef spec0 w)
  | ⟨0, _⟩ => ((dat0 (E5 m) c).arrAt_in 0 rfl _).trans ((A_eq0 (E5 m) c 0).trans (V6_of m (outs m) c main_v39 (by decide)).symm)
  | ⟨1, _⟩ => ((dat0 (E5 m) c).arrAt_in 1 rfl _).trans ((A_eq0 (E5 m) c 1).trans (V6_of m (outs m) c main_v42 (by decide)).symm)
  | ⟨2, _⟩ => ((dat0 (E5 m) c).arrAt_in 2 rfl _).trans ((A_eq0 (E5 m) c 2).trans (V6_of m (outs m) c main_arg3 (by decide)).symm)
  | ⟨3, _⟩ => ((dat0 (E5 m) c).arrAt_in 3 rfl _).trans ((A_eq0 (E5 m) c 3).trans (V6_of m (outs m) c main_v43 (by decide)).symm)
  | ⟨4, _⟩ => (V6_v44 m c).symm
theorem hrest0 (c : Dev nD) : ∀ b, b ∉ Finset.univ.image (Pipeline.arrRef spec0) → V6 m (outs m) c b = E5 m c b :=
  fun b hb => V6_of m (outs m) c b (fun h => hb (by rw [List.mem_singleton.mp h]; exact Finset.mem_image.mpr ⟨4, Finset.mem_univ _, rfl⟩))

theorem E7_eq (c : Dev nD) (b : Ref sig .tc) : E7 m c b = V7 m (outs m) c b := by
  show V7 m (outs6 m) c b = _; rw [V7_outs]
theorem hF1 (c : Dev nD) : ∀ w : Fin cfg1.W, (dat1 (E7 m) c).arrAt w cfg1.N = V8 m (outs m) c (Pipeline.arrRef spec1 w)
  | ⟨0, _⟩ => ((dat1 (E7 m) c).arrAt_in 0 rfl _).trans ((A_eq1 (E7 m) c 0).trans ((E7_eq m c main_v39).trans (V8_of m (outs m) c main_v39 (by decide)).symm))
  | ⟨1, _⟩ => ((dat1 (E7 m) c).arrAt_in 1 rfl _).trans ((A_eq1 (E7 m) c 1).trans ((E7_eq m c main_v44).trans (V8_of m (outs m) c main_v44 (by decide)).symm))
  | ⟨2, _⟩ => ((dat1 (E7 m) c).arrAt_in 2 rfl _).trans ((A_eq1 (E7 m) c 2).trans ((E7_eq m c main_arg5).trans (V8_of m (outs m) c main_arg5 (by decide)).symm))
  | ⟨3, _⟩ => ((dat1 (E7 m) c).arrAt_in 3 rfl _).trans ((A_eq1 (E7 m) c 3).trans ((E7_eq m c main_v45).trans (V8_of m (outs m) c main_v45 (by decide)).symm))
  | ⟨4, _⟩ => (V8_v46 m c).symm
theorem hrest1 (c : Dev nD) : ∀ b, b ∉ Finset.univ.image (Pipeline.arrRef spec1) → V8 m (outs m) c b = E7 m c b :=
  fun b hb => (V8_of m (outs m) c b (fun h => hb (by rw [List.mem_singleton.mp h]; exact Finset.mem_image.mpr ⟨4, Finset.mem_univ _, rfl⟩))).trans (E7_eq m c b).symm

/-! ## The proof data family and the thread state -/

/-- Every pipeline's proof data, each at its call's entry contents. -/
def pdats : (p : Fin 2) → (c : Dev nD) → Dat τ (Elt F) Unit ℕ (UR sig nD τ) ℕ (cfgs p) c
  | ⟨0, _⟩ => fun c => dat0 (E5 m) c
  | ⟨1, _⟩ => fun c => dat1 (E7 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

/-- The valuation the second call is entered from, as the run reaches it. -/
abbrev W7 (c : Dev nD) : Valuation τ sig (Elt F) := V7 m (outs6 m) c

set_option backward.isDefEq.respectTransparency.types false in
/-- The call as a segment of the program: entered from every unscoped buffer at the contents before it, left with
    them at the contents after it; its arrays are split out of the unscoped buffers on entry and put back, at what
    the write-backs leave, on exit; the generator register rides through the invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E5 m) c)
    unfold Pipeline.ΦA
    iintro ⟨Hp, -, Hr⟩
    isplitl [Hr]; · iexact Hr
    iexact Hp
  hout c := by
    rw [Pipeline.ownSems0_none]
    refine BIBase.Entails.trans (hout0 (E5 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call as a segment of the program: entered from every unscoped buffer at the contents before it, left with
    them at the contents after it; its arrays are split out of the unscoped buffers on entry and put back, at what
    the write-backs leave, on exit; the generator register rides through the invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E7 m) c)
    unfold Pipeline.ΦA
    iintro ⟨Hp, -, Hr⟩
    isplitl [Hr]; · iexact Hr
    iexact Hp
  hout c := by
    rw [Pipeline.ownSems0_none]
    refine BIBase.Entails.trans (hout1 (E7 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (fun b => V8 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- The program's run from the two calls' records: it terminates, the result buffer ends at the last valuation's
    contents and every argument array as launched. -/
theorem run_of_regions {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : Pipeline.RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : Pipeline.RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      r.2.mem ((c.tc : Thread nD τ).loc main_v47) = V9 m outs c main_v47
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Pipeline.Seg.run_eq_chain,
        show (segs m outs 𝒱₀ L lv E ι pdats R0 R1 c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, .rfl, .rfl, .rfl, hpre0 c, hpost0 c, hpre1 c, hpost1 c, sep_mono .rfl (hE2 c)⟩)
    (hinit := ?_) (QY := fun c s => s.mem ((c.tc : Thread nD τ).loc main_v47) = V9 m outs c main_v47 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v47) (Finset.mem_filter.mpr ⟨StableHlo.devRef_mem_tcRefs main_v47, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c),
        (h (Proc.devRef .tc main_arg5) (Finset.mem_filter.mpr ⟨StableHlo.devRef_mem_tcRefs main_arg5, by decide⟩)).trans (V9_main_arg5 m outs c),
        (h (Proc.devRef .tc main_arg6) (Finset.mem_filter.mpr ⟨StableHlo.devRef_mem_tcRefs main_arg6, by decide⟩)).trans (V9_main_arg6 m outs c)⟩
    · iexact HSI

set_option backward.isDefEq.respectTransparency.types false in
/-- THE RUN of the kernel program, at any float instance. -/
theorem run_main : θ_run defs (onTc (τ := τ) (main (F := F))) ⟨m, fun _ => 0, ρ⟩ (fun r => ∀ c : Dev nD,
      r.2.mem ((c.tc : Thread nD τ).loc main_v47) = V9 m (outs m) c main_v47
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_of_regions m (emb₁ : Emb _ 𝕄) () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => .rfl)
    (R1 := reg1 m) (hpre1 := fun c => by rw [V7_outs]; exact .rfl) (hpost1 := fun c => .rfl)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_main m ρ)

end Cert.KernelIdeal.Hand

end
-- ==== Proof.Spec.lean ====
/-
  Two-layer graph convolution with symmetric degree normalisation, written twice as plain sums over the
  extended reals.

  A graph on `nN` nodes has `nE` directed edges `s e → d e`.  Write `cₒ a` for the number of edges leaving
  node `a`, `cᵢ a` for the number entering it, and `ω a = (max 1 (cₒ a))^(-1/2)`, `ι a = (max 1 (cᵢ a))^(-1/2)`.

  * EDGE FORM (`refLayer`): scale the features of each node by `ω`, add up, for every node `a`, the scaled
    features of the sources of the edges entering `a`, scale the result by `ι a`, then multiply by the weight
    matrix and add the bias.
  * DENSE FORM (`kerLayer`): build the `nP × nP` matrix (`nP ≥ nN`, rows and columns past `nN` empty)
    whose `(p, q)` entry is the number of edges `q → p` times `ι p` times `ω q` (both read as `1` past `nN`),
    multiply it into the feature matrix padded to `nP` rows, then multiply by the weight matrix and add the bias.

  Both forms are iterated twice with `max · 0` between the layers.  The two agree at every node below `nN`
  when the features, weights and biases are real numbers: a count times a real number is that number added
  up count-many times, and an empty column of the dense matrix annihilates whatever the padded rows hold.
-/
import Idealize.ShloMosaic.PureOps.Ideal

noncomputable section

namespace Cert.Spec

open Idealize.ShloMosaic

/-- The number of nodes, the padded number of nodes, and the number of edges. -/
abbrev nN : ℕ := 10000
abbrev nP : ℕ := 10240
abbrev nE : ℕ := 640000

/-- A node below `nN` as an index of the padded range. -/
def pad (a : Fin nN) : Fin nP := ⟨a.val, lt_of_lt_of_le a.isLt (by decide)⟩

variable (s d : Fin nE → Fin nN)

/-- The number of edges leaving `a`, and the number entering it. -/
def outCount (a : Fin nN) : EReal := ∑ e ∈ Finset.univ.filter (fun e => s e = a), (1 : EReal)
def inCount (a : Fin nN) : EReal := ∑ e ∈ Finset.univ.filter (fun e => d e = a), (1 : EReal)

/-- The degree normalisations: the inverse square root of the degree, an isolated node counted as of degree one. -/
def outNorm (a : Fin nN) : EReal := Ideal.rsqrt (max 1 (outCount s a))
def inNorm (a : Fin nN) : EReal := Ideal.rsqrt (max 1 (inCount d a))

section Layer
variable {fi fo : ℕ}

/-! ## The edge form -/

/-- The normalised sum over the edges entering `a` of the source's features. -/
def refAgg (X : Fin nN → Fin fi → EReal) (a : Fin nN) (k : Fin fi) : EReal :=
  (∑ e ∈ Finset.univ.filter (fun e => d e = a), X (s e) k * outNorm s (s e)) * inNorm d a

/-- One layer in the edge form. -/
def refLayer (X : Fin nN → Fin fi → EReal) (W : Fin fi → Fin fo → EReal) (b : Fin fo → EReal)
    (a : Fin nN) (j : Fin fo) : EReal :=
  (∑ k : Fin fi, refAgg s d X a k * W k j) + b j

/-! ## The dense form -/

/-- The number of edges `q → p`, over the padded range. -/
def adj (p q : Fin nP) : EReal :=
  ∑ e ∈ Finset.univ.filter (fun e => (d e).val = p.val ∧ (s e).val = q.val), (1 : EReal)

/-- The normalisations over the padded range: `1` past the last node. -/
def inNormP (p : Fin nP) : EReal := if h : p.val < nN then inNorm d ⟨p.val, h⟩ else 1
def outNormP (q : Fin nP) : EReal := if h : q.val < nN then outNorm s ⟨q.val, h⟩ else 1

/-- The normalised adjacency matrix. -/
def adjN (p q : Fin nP) : EReal := adj s d p q * inNormP d p * outNormP s q

/-- The feature matrix padded with zero rows. -/
def padRows (X : Fin nN → Fin fi → EReal) (q : Fin nP) (k : Fin fi) : EReal :=
  if h : q.val < nN then X ⟨q.val, h⟩ k else 0

/-- The normalised adjacency matrix times a feature matrix of `nP` rows. -/
def kerAgg (Y : Fin nP → Fin fi → EReal) (p : Fin nP) (k : Fin fi) : EReal :=
  ∑ q : Fin nP, adjN s d p q * Y q k

/-- One layer in the dense form. -/
def kerLayer (Y : Fin nP → Fin fi → EReal) (W : Fin fi → Fin fo → EReal) (b : Fin fo → EReal)
    (p : Fin nP) (j : Fin fo) : EReal :=
  (∑ k : Fin fi, kerAgg s d Y p k * W k j) + b j

end Layer

/-! ## Two layers -/

variable {f0 f1 f2 : ℕ}

/-- Two layers in the edge form, `max · 0` between them. -/
def refOut (x : Fin nN → Fin f0 → EReal) (W1 : Fin f0 → Fin f1 → EReal) (b1 : Fin f1 → EReal)
    (W2 : Fin f1 → Fin f2 → EReal) (b2 : Fin f2 → EReal) (a : Fin nN) (j : Fin f2) : EReal :=
  refLayer s d (fun a k => max (refLayer s d x W1 b1 a k) 0) W2 b2 a j

/-- Two layers in the dense form, `max · 0` between them (on every padded row), read at a node. -/
def kerOut (x : Fin nN → Fin f0 → EReal) (W1 : Fin f0 → Fin f1 → EReal) (b1 : Fin f1 → EReal)
    (W2 : Fin f1 → Fin f2 → EReal) (b2 : Fin f2 → EReal) (a : Fin nN) (j : Fin f2) : EReal :=
  kerLayer s d (fun q k => max (kerLayer s d (padRows x) W1 b1 q k) 0) W2 b2 (pad a) j

/-- An extended real that is a real number. -/
def IsReal (x : EReal) : Prop := ∃ r : ℝ, x = (r : EReal)

end Cert.Spec

end
-- ==== Proof.LibScatterRead.lean ====
/-
  General lemmas, about no particular program, that read a host scatter, scatter-add or gather AT AN INDEX: which updates
  land on an entry, as a condition on the index words read signed.

  The landing index. `resultIdx?_eq_some_iff`: an update lands on operand index i exactly when, on every operand axis,
  its start (the index word for that axis read signed, not clamped; zero on an axis the map does not name) plus its
  window coordinate is i's coordinate. For each shape of dimension numbers below, `start_…` and `window_…` compute the
  two summands on each axis and `resultIdx?_…` states the landing condition in coordinates.

  Accumulating scatters (the ideal instance: the exact sum of the colliding updates).
  • `scatterAdd_vec_apply`: E scalar updates into a vector [n], index array [E,1]: entry a ends at its old value plus
    the sum of the updates whose index word, read signed, is a.
  • `scatterAdd_rows_apply`: E rows of f entries into a matrix [n,f], index array [E,1] (the row index): entry (a,k)
    ends at its old value plus the sum over the updates e whose index word is a of their k-th entries.
  • `scatterAdd_mat_apply`: E scalar updates into a matrix [n1,n2], index array [E,2] (row, column): entry (p,q) ends at
    its old value plus the sum of the updates whose two index words are p and q.

  Overwriting scatters (the body returns the update; any element type). `setStep` is one step of the fold over the
  update positions in row-major order, `foldl_setStep_miss` / `foldl_setStep_hit` the fold's invariant at one entry,
  and `scatter_set_miss` / `scatter_set_hit` the scatter read at an entry: the operand's entry when no update lands
  there, the update's when exactly one does.
  • `scatter_set_prefix_vec`: the leading n entries of a vector [N] overwritten (one start index, the word 0): entry a
    is update a when a < n and the operand's entry otherwise.
  • `scatter_set_prefix_rows`: the same for the leading n rows of a matrix [N,f].

  Gather.
  • `gather_rows_apply`: E rows of a matrix [n,f] gathered, index array [E,1], slice sizes [1,f]: for an index word that
    is in range (read signed it is a < n, so the clamp does nothing), row e of the result is row a of the operand.
-/
import Idealize.ShloMosaic.PureOps.Ideal
import Idealize.ShloMosaic.PureOps.ShapeOps
import Idealize.ShloMosaic.PureOps.Contract
import Idealize.ShloMosaic.PureOps.Dims
import Idealize.ShloMosaic.Lib.ValueIdx

noncomputable section

open Idealize.ShloMosaic Idealize.ShloMosaic.ValueIdx

namespace Idealize.ShloMosaic.ScatterRead

/-- An update lands on operand index i exactly when on every operand axis its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    constructor
    · intro heq a
      rw [← heq]
      exact (Int.toNat_of_nonneg (h a).1).symm
    · intro hall
      funext a
      refine Fin.ext ?_
      show (d.start j idx a + (d.window j a : ℤ)).toNat = (i a).val
      rw [hall a]; exact Int.toNat_natCast _
  · constructor
    · intro heq; exact absurd heq (by simp)
    · intro hall
      exfalso; apply h
      intro a
      rw [hall a]
      exact ⟨Int.natCast_nonneg _, by exact_mod_cast (i a).isLt⟩

/-- The vector case: the start on the one operand axis is the update's index word read signed. -/
theorem start_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin 1) :
    d.start (ix1 e) idx a = (idx (ix2 e (0 : Fin 1))).toInt := by
  obtain ⟨uw, iw, sd, iv, wf⟩ := d
  dsimp only at h1 h2 h3 h4; subst h1 h2 h3 h4
  obtain rfl : a = 0 := Subsingleton.elim _ _
  unfold ScatterDims.start
  rw [dif_pos (List.mem_singleton.mpr rfl)]
  congr 2
  funext b; refine Fin.ext ?_
  match b with
  | ⟨0, _⟩ => rfl
  | ⟨1, _⟩ => rfl

/-- The vector case: there is no window axis, the window coordinate is zero. -/
theorem window_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (j : (⟨1, ![E]⟩ : Shape).Idx) (a : Fin 1) :
    d.window j a = 0 := by
  obtain ⟨uw, iw, sd, iv, wf⟩ := d
  dsimp only at h1 h2 h3 h4; subst h1 h2 h3 h4
  obtain rfl : a = 0 := Subsingleton.elim _ _
  unfold ScatterDims.window
  rw [dif_neg (by simp [ScatterDims.sKept, Shape.kept])]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- The vector case: update e lands on entry a exactly when its index word, read signed, is a. -/
theorem resultIdx?_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin n) :
    d.resultIdx? (ix1 e) idx = some (ix1 a) ↔ (idx (ix2 e (0 : Fin 1))).toInt = (a.val : ℤ) := by
  rw [resultIdx?_eq_some_iff]
  constructor
  · intro h
    have := h 0
    rw [start_vec d h1 h2 h3 h4, window_vec d h1 h2 h3 h4, Nat.cast_zero, add_zero] at this
    exact this
  · intro h b
    obtain rfl : b = 0 := Subsingleton.elim _ _
    rw [start_vec d h1 h2 h3 h4, window_vec d h1 h2 h3 h4, Nat.cast_zero, add_zero]
    exact h

/-- A float scatter-add of E scalar updates into a vector of n entries, one start index per update (index array [E,1]): entry a ends at its old value plus the sum of the updates whose index word, read SIGNED, is a. -/
theorem scatterAdd_vec_apply {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (x : FVec Ideal ⟨1, ![n]⟩ .f32) (idx : IVec ⟨2, ![E, 1]⟩ 32) (upd : FVec Ideal ⟨1, ![E]⟩ .f32) (a : Fin n) :
    Host.scatterAdd d x idx upd (ix1 a) = x (ix1 a) + ∑ e ∈ Finset.univ.filter (fun e : Fin E => (idx (ix2 e (0 : Fin 1))).toInt = (a.val : ℤ)), upd (ix1 e) := by
  show Ideal.hostScatterAdd d x idx upd (ix1 a) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_vec d h1 h2 h3 h4 idx (j 0) a
  · intro j _
    exact congrArg upd (eq_ix1 j)

/-- The rows case: the start on the row axis is the update's index word read signed, on the column axis zero. -/
theorem start_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k : Fin f) :
    d.start (ix2 e k) idx 0 = (idx (ix2 e (0 : Fin 1))).toInt ∧ d.start (ix2 e k) idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext b; refine Fin.ext ?_
    match b with
    | ⟨0, _⟩ => rfl
    | ⟨1, _⟩ => rfl
  · rw [dif_neg (show (1 : Fin 2) ∉ [(0 : Fin 2)] by decide)]

/-- The rows case: the window coordinate is zero on the row axis and the update's column on the column axis. -/
theorem window_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (e : Fin E) (k : Fin f) :
    d.window (ix2 e k) 0 = 0 ∧ d.window (ix2 e k) 1 = k.val := by
  obtain ⟨uw, iw, sd, iv, wf⟩ := d
  dsimp only at h1 h2 h3 h4; subst h1 h2 h3 h4
  unfold ScatterDims.window
  constructor
  · rw [dif_neg (by simp [ScatterDims.sKept, Shape.kept])]
  · rw [dif_pos (by simp [ScatterDims.sKept, Shape.kept])]
    rfl

/-- The rows case: element (e, k') of the updates lands on entry (a, k) exactly when e's index word, read signed, is a and k' = k. -/
theorem resultIdx?_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k' : Fin f) (a : Fin n) (k : Fin f) :
    d.resultIdx? (ix2 e k') idx = some (ix2 a k) ↔ (idx (ix2 e (0 : Fin 1))).toInt = (a.val : ℤ) ∧ k' = k := by
  rw [resultIdx?_eq_some_iff]
  obtain ⟨hs0, hs1⟩ := start_rows d h1 h2 h3 h4 idx e k'
  obtain ⟨hw0, hw1⟩ := window_rows d h1 h2 h3 h4 e k'
  constructor
  · intro h
    have e0 := h 0
    have e1 := h 1
    rw [hs0, hw0, Nat.cast_zero, add_zero] at e0
    rw [hs1, hw1, zero_add] at e1
    exact ⟨e0, Fin.ext (by exact_mod_cast e1)⟩
  · rintro ⟨h, rfl⟩ b
    match b with
    | ⟨0, _⟩ =>
      show d.start (ix2 e k') idx 0 + ((d.window (ix2 e k') 0 : ℕ) : ℤ) = _
      rw [hs0, hw0, Nat.cast_zero, add_zero]; exact h
    | ⟨1, _⟩ =>
      show d.start (ix2 e k') idx 1 + ((d.window (ix2 e k') 1 : ℕ) : ℤ) = _
      rw [hs1, hw1, zero_add]

/-- A float scatter-add of E rows of f entries into a matrix [n, f] (index array [E,1], the row index). -/
theorem scatterAdd_rows_apply {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (x : FVec Ideal ⟨2, ![n, f]⟩ .f32) (idx : IVec ⟨2, ![E, 1]⟩ 32) (upd : FVec Ideal ⟨2, ![E, f]⟩ .f32) (a : Fin n) (k : Fin f) :
    Host.scatterAdd d x idx upd (ix2 a k) = x (ix2 a k) + ∑ e ∈ Finset.univ.filter (fun e : Fin E => (idx (ix2 e (0 : Fin 1))).toInt = (a.val : ℤ)), upd (ix2 e k) := by
  show Ideal.hostScatterAdd d x idx upd (ix2 a k) = _
  unfold Ideal.hostScatterAdd
  congr 1
  have key : ∀ j : (⟨2, ![E, f]⟩ : Shape).Idx, d.resultIdx? j idx = some (ix2 a k) ↔
      (idx (ix2 (j 0) (0 : Fin 1))).toInt = (a.val : ℤ) ∧ j 1 = k := by
    intro j
    conv_lhs => rw [eq_ix2 j]
    exact resultIdx?_rows d h1 h2 h3 h4 idx (j 0) (j 1) a k
  refine Finset.sum_nbij' (fun j => (j 0 : Fin E)) (fun e => ix2 e k) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e k)).2 ⟨(Finset.mem_filter.1 he).2, rfl⟩⟩
  · intro j hj
    have hk : j 1 = k := ((key j).1 (Finset.mem_filter.1 hj).2).2
    rw [← hk]; exact (eq_ix2 j).symm
  · intro e _
    rfl
  · intro j hj
    have hk : j 1 = k := ((key j).1 (Finset.mem_filter.1 hj).2).2
    rw [← hk]; exact congrArg upd (eq_ix2 j)

/-- The matrix case: the starts on the two operand axes are the update's two index words read signed. -/
theorem start_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) :
    d.start (ix1 e) idx 0 = (idx (ix2 e (0 : Fin 2))).toInt ∧ d.start (ix1 e) idx 1 = (idx (ix2 e (1 : Fin 2))).toInt := by
  obtain ⟨uw, iw, sd, iv, wf⟩ := d
  dsimp only at h1 h2 h3 h4; subst h1 h2 h3 h4
  unfold ScatterDims.start
  constructor
  · rw [dif_pos (show (0 : Fin 2) ∈ [(0 : Fin 2), 1] by decide)]
    congr 2
    funext b; refine Fin.ext ?_
    match b with
    | ⟨0, _⟩ => rfl
    | ⟨1, _⟩ => rfl
  · rw [dif_pos (show (1 : Fin 2) ∈ [(0 : Fin 2), 1] by decide)]
    congr 2
    funext b; refine Fin.ext ?_
    match b with
    | ⟨0, _⟩ => rfl
    | ⟨1, _⟩ => rfl

/-- The matrix case: both operand axes are inserted, the window coordinate is zero. -/
theorem window_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (j : (⟨1, ![E]⟩ : Shape).Idx) (b : Fin 2) :
    d.window j b = 0 := by
  obtain ⟨uw, iw, sd, iv, wf⟩ := d
  dsimp only at h1 h2 h3 h4; subst h1 h2 h3 h4
  unfold ScatterDims.window
  rw [dif_neg]
  intro h
  have h' := (List.mem_filter.1 h).2
  simp only [decide_eq_true_eq] at h'
  apply h'
  show b ∈ [(0 : Fin 2), 1]
  match b with
  | ⟨0, _⟩ => exact List.mem_cons.2 (Or.inl rfl)
  | ⟨1, _⟩ => exact List.mem_cons.2 (Or.inr (List.mem_cons.2 (Or.inl rfl)))

/-- The matrix case: update e lands on entry (p, q) exactly when its two index words, read signed, are p and q. -/
theorem resultIdx?_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) (p : Fin n1) (q : Fin n2) :
    d.resultIdx? (ix1 e) idx = some (ix2 p q) ↔
      (idx (ix2 e (0 : Fin 2))).toInt = (p.val : ℤ) ∧ (idx (ix2 e (1 : Fin 2))).toInt = (q.val : ℤ) := by
  rw [resultIdx?_eq_some_iff]
  obtain ⟨hs0, hs1⟩ := start_mat d h1 h2 h3 h4 idx e
  constructor
  · intro h
    have e0 := h 0
    have e1 := h 1
    rw [hs0, window_mat d h1 h2 h3 h4, Nat.cast_zero, add_zero] at e0
    rw [hs1, window_mat d h1 h2 h3 h4, Nat.cast_zero, add_zero] at e1
    exact ⟨e0, e1⟩
  · rintro ⟨hp, hq⟩ b
    rw [window_mat d h1 h2 h3 h4, Nat.cast_zero, add_zero]
    match b with
    | ⟨0, _⟩ => exact hs0.trans hp
    | ⟨1, _⟩ => exact hs1.trans hq

/-- A float scatter-add of E scalar updates into a matrix [n1, n2], two index words per update (index array [E,2]: row, column). -/
theorem scatterAdd_mat_apply {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (x : FVec Ideal ⟨2, ![n1, n2]⟩ .f32) (idx : IVec ⟨2, ![E, 2]⟩ 32) (upd : FVec Ideal ⟨1, ![E]⟩ .f32) (p : Fin n1) (q : Fin n2) :
    Host.scatterAdd d x idx upd (ix2 p q) = x (ix2 p q)
      + ∑ e ∈ Finset.univ.filter (fun e : Fin E => (idx (ix2 e (0 : Fin 2))).toInt = (p.val : ℤ) ∧ (idx (ix2 e (1 : Fin 2))).toInt = (q.val : ℤ)), upd (ix1 e) := by
  show Ideal.hostScatterAdd d x idx upd (ix2 p q) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_mat d h1 h2 h3 h4 idx (j 0) p q
  · intro j _
    exact congrArg upd (eq_ix1 j)

section SetFold
variable {α : Type} {s si u : Shape} {w : ℕ}

/-- One step of an overwriting scatter: the update at row-major position m replaces the entry it lands on, if it lands. -/
def setStep (d : ScatterDims s si u) (idx : IVec si w) (upd : u.Idx → α) (r : s.Idx → α) (m : Fin u.numel) : s.Idx → α :=
  match d.resultIdx? (u.rowMajor.symm m) idx with
  | some i => fun i' => if i' = i then upd (u.rowMajor.symm m) else r i'
  | none => r

/-- An overwriting scatter is the left fold of that step over the update positions in row-major order. -/
theorem scatter_set_eq_foldl (d : ScatterDims s si u) (x : s.Idx → α) (idx : IVec si w) (upd : u.Idx → α) :
    Host.scatter d (fun _ b => b) x idx upd = (List.finRange u.numel).foldl (setStep d idx upd) x := rfl

/-- A step whose update does not land on entry i leaves it. -/
theorem setStep_of_ne (d : ScatterDims s si u) (idx : IVec si w) (upd : u.Idx → α) (r : s.Idx → α) (m : Fin u.numel) (i : s.Idx)
    (h : d.resultIdx? (u.rowMajor.symm m) idx ≠ some i) : setStep d idx upd r m i = r i := by
  unfold setStep
  generalize d.resultIdx? (u.rowMajor.symm m) idx = o at h
  cases o with
  | none => rfl
  | some i0 =>
    show (if i = i0 then upd (u.rowMajor.symm m) else r i) = r i
    rw [if_neg (fun e => h (congrArg some e.symm))]

/-- A step whose update lands on entry i writes it there. -/
theorem setStep_of_eq (d : ScatterDims s si u) (idx : IVec si w) (upd : u.Idx → α) (r : s.Idx → α) (m : Fin u.numel) (i : s.Idx)
    (h : d.resultIdx? (u.rowMajor.symm m) idx = some i) : setStep d idx upd r m i = upd (u.rowMajor.symm m) := by
  unfold setStep
  rw [h]
  show (if i = i then upd (u.rowMajor.symm m) else r i) = upd (u.rowMajor.symm m)
  rw [if_pos rfl]

/-- Folding over positions none of which lands on entry i leaves it. -/
theorem foldl_setStep_miss (d : ScatterDims s si u) (idx : IVec si w) (upd : u.Idx → α) (i : s.Idx) :
    ∀ (l : List (Fin u.numel)) (r : s.Idx → α), (∀ m ∈ l, d.resultIdx? (u.rowMajor.symm m) idx ≠ some i) →
      l.foldl (setStep d idx upd) r i = r i
  | [], _, _ => rfl
  | m :: l, r, h => by
    rw [List.foldl_cons, foldl_setStep_miss d idx upd i l _ (fun m' hm' => h m' (List.mem_cons_of_mem _ hm')),
      setStep_of_ne d idx upd r m i (h m (List.mem_cons.2 (Or.inl rfl)))]

/-- Folding over positions of which exactly m0 lands on entry i leaves the update at m0 there. -/
theorem foldl_setStep_hit (d : ScatterDims s si u) (idx : IVec si w) (upd : u.Idx → α) (i : s.Idx) (m0 : Fin u.numel)
    (h0 : d.resultIdx? (u.rowMajor.symm m0) idx = some i) :
    ∀ (l : List (Fin u.numel)) (r : s.Idx → α), m0 ∈ l → (∀ m ∈ l, d.resultIdx? (u.rowMajor.symm m) idx = some i → m = m0) →
      l.foldl (setStep d idx upd) r i = upd (u.rowMajor.symm m0)
  | [], _, hm, _ => absurd hm (by simp)
  | m :: l, r, hm, huniq => by
    rw [List.foldl_cons]
    by_cases hl : m0 ∈ l
    · exact foldl_setStep_hit d idx upd i m0 h0 l _ hl (fun m' hm' => huniq m' (List.mem_cons_of_mem _ hm'))
    · have hm0 : m0 = m := by
        rcases List.mem_cons.1 hm with h | h
        · exact h
        · exact absurd h hl
      subst hm0
      rw [foldl_setStep_miss d idx upd i l _ (fun m' hm' e => hl (huniq m' (List.mem_cons_of_mem _ hm') e ▸ hm')),
        setStep_of_eq d idx upd r m0 i h0]

/-- THE OVERWRITING SCATTER READ AT ENTRY i, when the landing indices are pairwise distinct there: the update that lands on i. -/
theorem scatter_set_hit (d : ScatterDims s si u) (x : s.Idx → α) (idx : IVec si w) (upd : u.Idx → α) (i : s.Idx) (j0 : u.Idx)
    (h0 : d.resultIdx? j0 idx = some i) (huniq : ∀ j, d.resultIdx? j idx = some i → j = j0) :
    Host.scatter d (fun _ b => b) x idx upd i = upd j0 := by
  rw [scatter_set_eq_foldl]
  have := foldl_setStep_hit d idx upd i (u.rowMajor j0) (by rw [Equiv.symm_apply_apply]; exact h0)
    (List.finRange u.numel) x (List.mem_finRange _)
    (fun m _ e => by rw [← huniq _ e, Equiv.apply_symm_apply])
  rw [this, Equiv.symm_apply_apply]

/-- The overwriting scatter read at an entry no update lands on: the operand's entry. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  rw [scatter_set_eq_foldl]
  exact foldl_setStep_miss d idx upd i _ x (fun m _ => h _)

end SetFold

/-- The prefix overwrite of a vector: the start on the one operand axis is the one index word read signed. -/
theorem start_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (j : (⟨1, ![n]⟩ : Shape).Idx) (b : Fin 1) :
    d.start j idx b = (idx (ix1 (0 : Fin 1))).toInt := by
  obtain ⟨uw, iw, sd, iv, wf⟩ := d
  dsimp only at h1 h2 h3 h4; subst h1 h2 h3 h4
  obtain rfl : b = 0 := Subsingleton.elim _ _
  unfold ScatterDims.start
  rw [dif_pos (List.mem_singleton.mpr rfl)]
  congr 2
  funext c; refine Fin.ext ?_
  match c with
  | ⟨0, _⟩ => rfl

/-- The prefix overwrite of a vector: the window coordinate on the one operand axis is the update's position. -/
theorem window_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (c : Fin n) (b : Fin 1) :
    d.window (ix1 c) b = c.val := by
  obtain ⟨uw, iw, sd, iv, wf⟩ := d
  dsimp only at h1 h2 h3 h4; subst h1 h2 h3 h4
  obtain rfl : b = 0 := Subsingleton.elim _ _
  unfold ScatterDims.window
  rw [dif_pos (by simp [ScatterDims.sKept, Shape.kept])]
  rfl

/-- The prefix overwrite of a vector at the start word 0: update c lands on entry a exactly when c = a. -/
theorem resultIdx?_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (a : Fin N) :
    d.resultIdx? (ix1 c) idx = some (ix1 a) ↔ c.val = a.val := by
  rw [resultIdx?_eq_some_iff]
  have h0 : (0#32 : BitVec 32).toInt = 0 := by decide
  constructor
  · intro h
    have e0 := h 0
    rw [start_pvec d h1 h2 h3 h4, window_pvec d h1 h2 h3 h4, hidx, h0, zero_add] at e0
    exact_mod_cast e0
  · intro h b
    obtain rfl : b = 0 := Subsingleton.elim _ _
    rw [start_pvec d h1 h2 h3 h4, window_pvec d h1 h2 h3 h4, hidx, h0, zero_add]
    exact_mod_cast h

/-- Overwriting the leading n entries of a vector of N ≥ n entries (one start index, the word 0; the body returns the update): x.at[:n].set(u). Generic in the element type α. -/
theorem scatter_set_prefix_vec {α : Type} {N n : ℕ} (hn : n ≤ N) (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (x : (⟨1, ![N]⟩ : Shape).Idx → α) (idx : IVec ⟨1, ![1]⟩ 32) (hidx : idx (ix1 (0 : Fin 1)) = 0#32) (upd : (⟨1, ![n]⟩ : Shape).Idx → α) (a : Fin N) :
    Host.scatter d (fun _ b => b) x idx upd (ix1 a) = if h : a.val < n then upd (ix1 ⟨a.val, h⟩) else x (ix1 a) := by
  by_cases h : a.val < n
  · rw [dif_pos h]
    refine scatter_set_hit d x idx upd (ix1 a) (ix1 ⟨a.val, h⟩) ((resultIdx?_pvec d h1 h2 h3 h4 idx hidx ⟨a.val, h⟩ a).2 rfl) ?_
    intro j e
    obtain ⟨c, rfl⟩ : ∃ c, j = ix1 c := ⟨j 0, eq_ix1 j⟩
    have hc := (resultIdx?_pvec d h1 h2 h3 h4 idx hidx c a).1 e
    exact congrArg ix1 (Fin.ext hc)
  · rw [dif_neg h]
    refine scatter_set_miss d x idx upd (ix1 a) ?_
    intro j e
    obtain ⟨c, rfl⟩ : ∃ c, j = ix1 c := ⟨j 0, eq_ix1 j⟩
    have hc := (resultIdx?_pvec d h1 h2 h3 h4 idx hidx c a).1 e
    exact h (hc ▸ c.isLt)

/-- The prefix overwrite of a matrix's rows: the start is the one index word read signed on the row axis, zero on the column axis. -/
theorem start_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (j : (⟨2, ![n, f]⟩ : Shape).Idx) :
    d.start j idx 0 = (idx (ix1 (0 : Fin 1))).toInt ∧ d.start j idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext c; refine Fin.ext ?_
    match c with
    | ⟨0, _⟩ => rfl
  · rw [dif_neg (show (1 : Fin 2) ∉ [(0 : Fin 2)] by decide)]

/-- The prefix overwrite of a matrix's rows: the window coordinates are the update's row and column. -/
theorem window_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (c : Fin n) (k : Fin f) :
    d.window (ix2 c k) 0 = c.val ∧ d.window (ix2 c k) 1 = k.val := by
  obtain ⟨uw, iw, sd, iv, wf⟩ := d
  dsimp only at h1 h2 h3 h4; subst h1 h2 h3 h4
  unfold ScatterDims.window
  constructor
  · rw [dif_pos (by simp [ScatterDims.sKept, Shape.kept])]
    rfl
  · rw [dif_pos (by simp [ScatterDims.sKept, Shape.kept])]
    rfl

/-- The prefix overwrite of a matrix's rows at the start word 0: element (c, k') of the updates lands on entry (a, k) exactly when c = a and k' = k. -/
theorem resultIdx?_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (k' : Fin f) (a : Fin N) (k : Fin f) :
    d.resultIdx? (ix2 c k') idx = some (ix2 a k) ↔ c.val = a.val ∧ k' = k := by
  rw [resultIdx?_eq_some_iff]
  have h0 : (0#32 : BitVec 32).toInt = 0 := by decide
  obtain ⟨hs0, hs1⟩ := start_prows d h1 h2 h3 h4 idx (ix2 c k')
  obtain ⟨hw0, hw1⟩ := window_prows d h1 h2 h3 h4 c k'
  constructor
  · intro h
    have e0 := h 0
    have e1 := h 1
    rw [hs0, hw0, hidx, h0, zero_add] at e0
    rw [hs1, hw1, zero_add] at e1
    exact ⟨by exact_mod_cast e0, Fin.ext (by exact_mod_cast e1)⟩
  · rintro ⟨h, rfl⟩ b
    match b with
    | ⟨0, _⟩ =>
      show d.start (ix2 c k') idx 0 + ((d.window (ix2 c k') 0 : ℕ) : ℤ) = _
      rw [hs0, hw0, hidx, h0, zero_add]; exact_mod_cast h
    | ⟨1, _⟩ =>
      show d.start (ix2 c k') idx 1 + ((d.window (ix2 c k') 1 : ℕ) : ℤ) = _
      rw [hs1, hw1, zero_add]

/-- The same for the leading n rows of a matrix [N, f]: x.at[:n].set(u) with u : [n, f]. -/
theorem scatter_set_prefix_rows {α : Type} {N n f : ℕ} (hn : n ≤ N) (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (x : (⟨2, ![N, f]⟩ : Shape).Idx → α) (idx : IVec ⟨1, ![1]⟩ 32) (hidx : idx (ix1 (0 : Fin 1)) = 0#32) (upd : (⟨2, ![n, f]⟩ : Shape).Idx → α) (a : Fin N) (k : Fin f) :
    Host.scatter d (fun _ b => b) x idx upd (ix2 a k) = if h : a.val < n then upd (ix2 ⟨a.val, h⟩ k) else x (ix2 a k) := by
  by_cases h : a.val < n
  · rw [dif_pos h]
    refine scatter_set_hit d x idx upd (ix2 a k) (ix2 ⟨a.val, h⟩ k)
      ((resultIdx?_prows d h1 h2 h3 h4 idx hidx ⟨a.val, h⟩ k a k).2 ⟨rfl, rfl⟩) ?_
    intro j e
    obtain ⟨c, k', rfl⟩ : ∃ c k', j = ix2 c k' := ⟨j 0, j 1, eq_ix2 j⟩
    obtain ⟨hc, rfl⟩ := (resultIdx?_prows d h1 h2 h3 h4 idx hidx c k' a k).1 e
    obtain rfl : c = ⟨a.val, h⟩ := Fin.ext hc
    rfl
  · rw [dif_neg h]
    refine scatter_set_miss d x idx upd (ix2 a k) ?_
    intro j e
    obtain ⟨c, k', rfl⟩ : ∃ c k', j = ix2 c k' := ⟨j 0, j 1, eq_ix2 j⟩
    have hc := ((resultIdx?_prows d h1 h2 h3 h4 idx hidx c k' a k).1 e).1
    exact h (hc ▸ c.isLt)

/-- A gather of E rows of a matrix [n, f] (index array [E,1], slice sizes [1, f]): row e of the result is the row of x named by the index word read signed, clamped into [0, n-1]; stated for an index word that IS in range. -/
theorem gather_rows_apply {α : Type} {n f E : ℕ} (d : GatherDims ⟨2, ![n, f]⟩ ⟨2, ![E, 1]⟩ ⟨2, ![E, f]⟩)
    (h1 : d.offsetDims = [1]) (h2 : d.collapsedSliceDims = [0]) (h3 : d.operandBatchingDims = []) (h4 : d.startIndicesBatchingDims = []) (h5 : d.startIndexMap = [0]) (h6 : d.indexVectorDim = 1) (h7 : d.sliceSizes = ![1, f])
    (x : (⟨2, ![n, f]⟩ : Shape).Idx → α) (idx : IVec ⟨2, ![E, 1]⟩ 32) (e : Fin E) (k : Fin f) (a : Fin n) (ha : (idx (ix2 e (0 : Fin 1))).toInt = (a.val : ℤ)) :
    Host.gather d x idx (ix2 e k) = x (ix2 a k) := by
  obtain ⟨od, cd, ob, sb, sm, iv, ss, wf⟩ := d
  dsimp only at h1 h2 h3 h4 h5 h6 h7; subst h1 h2 h3 h4 h5 h6 h7
  unfold Host.gather
  congr 1
  funext b
  refine Fin.ext ?_
  match b with
  | ⟨0, _⟩ =>
    show GatherDims.start _ (ix2 e k) idx 0 + GatherDims.batchCoord _ (ix2 e k) 0 + GatherDims.offCoord _ (ix2 e k) 0 = a.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![n, f]⟩) (si := ⟨2, ![E, 1]⟩) (t := ⟨2, ![E, f]⟩)
        ⟨[1], [0], [], [], [0], 1, ![1, f], wf⟩ (ix2 e k)
        ⟨List.idxOf (0 : Fin 2) [0], List.idxOf_lt_length_iff.2 (List.mem_singleton.mpr rfl)⟩ = ix2 e (0 : Fin 1) := by
      funext c; refine Fin.ext ?_
      match c with
      | ⟨0, _⟩ => rfl
      | ⟨1, _⟩ => rfl
    rw [hsi, ha]
    show min ((a.val : ℤ)).toNat (n - 1) = a.val
    rw [Int.toNat_natCast]
    have := a.isLt
    omega
  | ⟨1, _⟩ =>
    show GatherDims.start _ (ix2 e k) idx 1 + GatherDims.batchCoord _ (ix2 e k) 1 + GatherDims.offCoord _ (ix2 e k) 1 = k.val
    rw [GatherDims.batchCoord_eq_zero _ _ _ List.not_mem_nil]
    unfold GatherDims.start GatherDims.offCoord
    rw [dif_neg (show (1 : Fin 2) ∉ [(0 : Fin 2)] by decide),
      dif_pos (by simp [GatherDims.sKept, Shape.kept])]
    simp only [Nat.add_zero, Nat.zero_add]
    rfl

end Idealize.ShloMosaic.ScatterRead

end
-- ==== Proof.KHost.lean ====
/-
  What the dense program's host operations leave in the buffers its two kernel regions read.

  Around its two kernel calls the program computes, on the host: the out- and in-degree of every node (a
  scatter-add of ones at the source and destination words), their clip at one and inverse square root, the two
  normalisation vectors padded with ones to the padded node range, the dense count matrix (a scatter-add of ones
  at the index pairs (destination, source)), its rows scaled by the in-normalisation and its columns by the
  out-normalisation, a change of float format (the identity on extended reals), the features padded with zero
  rows, and the two biases viewed as one-row matrices; after the second call it cuts the first rows out of the
  result.  Each lemma below reads one of these buffers at an index and finds the formula of the specification.
-/
import proofs.«414079_j34359738415_1_alg».proof.Proof.Gen.KernelIdeal.Regions
import proofs.«414079_j34359738415_1_alg».proof.Proof.Spec
import proofs.«414079_j34359738415_1_alg».proof.Proof.LibScatterRead
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.Lib.StableHlo.Predicate
import Idealize.ShloMosaic.PureOps.Ideal.Laws

noncomputable section

namespace Cert.KHost

open Idealize.ShloMosaic Idealize.ShloMosaic.ValueIdx Idealize.ShloMosaic.TcCoe
open Cert.KernelIdeal Cert.KernelIdeal.Gen

variable (m : (ℓ : Loc nD τ sig) → Buf (Elt Ideal) ℓ) (c : Dev nD) (outs : Outs (F := Ideal))

/-- The launch contents of the seven arguments: features, source words, destination words, the two weight
    matrices and the two biases. -/
abbrev x0 : S10000x128.Idx → EReal := m ((c : Thread nD τ).loc main_arg0)
abbrev x1 : S640000.Idx → BitVec 32 := m ((c : Thread nD τ).loc main_arg1)
abbrev x2 : S640000.Idx → BitVec 32 := m ((c : Thread nD τ).loc main_arg2)
abbrev x3 : S128x128.Idx → EReal := m ((c : Thread nD τ).loc main_arg3)
abbrev x4 : S128.Idx → EReal := m ((c : Thread nD τ).loc main_arg4)
abbrev x5 : S128x64.Idx → EReal := m ((c : Thread nD τ).loc main_arg5)
abbrev x6 : S64.Idx → EReal := m ((c : Thread nD τ).loc main_arg6)

/-! ## Buffers no host operation writes before they are read -/

/-- The first weight matrix reaches the first kernel call as launched. -/
theorem V5_W1 : V5 m c main_arg3 = x3 m c :=
  (V5_of m c main_arg3 (by decide)).trans <| (V4_of m c main_arg3 (by decide)).trans <|
    (V3_of m c main_arg3 (by decide)).trans <| (V2_of m c main_arg3 (by decide)).trans <|
    (V1_of m c main_arg3 (by decide)).trans rfl

/-- The second weight matrix reaches the second kernel call as launched. -/
theorem V7_W2 : V7 m outs c main_arg5 = x5 m c :=
  (V7_of m outs c main_arg5 (by decide)).trans <| (V6_of m outs c main_arg5 (by decide)).trans <|
    (V5_of m c main_arg5 (by decide)).trans <| (V4_of m c main_arg5 (by decide)).trans <|
    (V3_of m c main_arg5 (by decide)).trans <| (V2_of m c main_arg5 (by decide)).trans <|
    (V1_of m c main_arg5 (by decide)).trans rfl

/-- The normalised adjacency matrix is the same at the second kernel call as at the first. -/
theorem V7_adj : V7 m outs c main_v39 = V5 m c main_v39 :=
  (V7_of m outs c main_v39 (by decide)).trans (V6_of m outs c main_v39 (by decide))

/-- The second kernel call reads, as its features, what the first kernel call left. -/
theorem V7_h1 : V7 m outs c main_v44 = outs 6 main_v44 c :=
  (V7_of m outs c main_v44 (by decide)).trans (by simp only [V6, Function.update_self])

/-! ## The biases as one-row matrices, and the result cut to the node range -/

/-- The first bias as a one-row matrix: its entry (0, j) is the bias at j. -/
theorem V5_b1 (j : Fin 128) : V5 m c main_v43 (ix2 (0 : Fin 1) j) = x4 m c (ix1 j) := by
  have e : (V5 m c main_v43 : S1x128.Idx → EReal) = shapeCast S1x128 (x4 m c) shapeCasts_S128_S1x128 := by
    show StableHlo.after hostOps0_4 (V4 m c) (Proc.devRef .tc main_v43) = _
    after_results
    rfl
  rw [e]
  exact shapeCast_a_1a_apply (x4 m c) shapeCasts_S128_S1x128 0 j

/-- The second bias reaches the host operation before the second kernel call as launched. -/
theorem V6_b2 : V6 m outs c main_arg6 = x6 m c :=
  (V6_of m outs c main_arg6 (by decide)).trans <|
    (V5_of m c main_arg6 (by decide)).trans <| (V4_of m c main_arg6 (by decide)).trans <|
    (V3_of m c main_arg6 (by decide)).trans <| (V2_of m c main_arg6 (by decide)).trans <|
    (V1_of m c main_arg6 (by decide)).trans rfl

/-- The second bias as a one-row matrix: its entry (0, j) is the bias at j. -/
theorem V7_b2 (j : Fin 64) : V7 m outs c main_v45 (ix2 (0 : Fin 1) j) = x6 m c (ix1 j) := by
  have e : (V7 m outs c main_v45 : S1x64.Idx → EReal)
      = shapeCast S1x64 (V6 m outs c main_arg6 : S64.Idx → EReal) shapeCasts_S64_S1x64 := by
    show StableHlo.after hostOps1 (V6 m outs c) (Proc.devRef .tc main_v45) = _
    after_results
    rfl
  rw [e, V6_b2]
  exact shapeCast_a_1a_apply (x6 m c) shapeCasts_S64_S1x64 0 j

/-- The program's result is the leading rows of what the second kernel call left: row a of the result is its
    padded row a. -/
theorem V9_out (a : Fin 10000) (j : Fin 64) :
    V9 m outs c main_v47 (ix2 a j) = outs 8 main_v46 c (ix2 (Cert.Spec.pad a) j) := by
  have e : (V9 m outs c main_v47 : S10000x64.Idx → EReal)
      = extractStridedSlice S10000x64 ![0, 0] (V8 m outs c main_v46 : S10240x64.Idx → EReal) slices_S10240x64_S10000x64_0_0 := by
    show StableHlo.after hostOps2 (V8 m outs c) (Proc.devRef .tc main_v47) = _
    after_results
  have e8 : V8 m outs c main_v46 = outs 8 main_v46 c := by simp only [V8, Function.update_self]
  rw [e, e8]
  exact slice2_axis0_apply 0 _ slices_S10240x64_S10000x64_0_0 a j (Cert.Spec.pad a) (Nat.zero_add _).symm

/-! ## The features padded with zero rows -/

/-- The first kernel call's features: the launched features in the node rows, zero in the rows past them. -/
theorem V5_xpad (q : Fin 10240) (k : Fin 128) :
    V5 m c main_v42 (ix2 q k) = Cert.Spec.padRows (fun a k => x0 m c (ix2 a k)) q k := by
  have e : (V5 m c main_v42 : S10240x128.Idx → EReal)
      = Host.scatter scatter_S10240x128_S1_S10000x128_01_n_0_0 (fun _ b => b)
          (broadcastInDim S10240x128 ![] bcast_S_S10240x128 (constant (F := Ideal) S_ .f32 0x00000000#32))
          (broadcastInDim S1 ![] bcast_S_S1 (constantI S_ 32 0#32)) (x0 m c) := by
    show StableHlo.after hostOps0_4 (V4 m c) (Proc.devRef .tc main_v42) = _
    after_results
  rw [e, ScatterRead.scatter_set_prefix_rows (by decide) _ rfl rfl rfl rfl _ _ rfl _ q k]
  unfold Cert.Spec.padRows
  by_cases h : q.val < Cert.Spec.nN
  · rw [dif_pos h, dif_pos h]
  · rw [dif_neg h, dif_neg h, broadcastInDim_scalar_apply, constant_apply, Ideal.ofBits_zero_f32]

/-! ## The normalised adjacency matrix: the host's term -/

section Term

/-- The constant vectors of the host computation. -/
abbrev onesE : FVec Ideal S640000 .f32 := broadcastInDim S640000 ![] bcast_S_S640000 (constant S_ .f32 0x3F800000#32)
abbrev onesN : FVec Ideal S10000 .f32 := broadcastInDim S10000 ![] bcast_S_S10000 (constant S_ .f32 0x3F800000#32)
abbrev zerosN : FVec Ideal S10000 .f32 := broadcastInDim S10000 ![] bcast_S_S10000 (constant S_ .f32 0x00000000#32)
abbrev onesP : FVec Ideal S10240 .f32 := broadcastInDim S10240 ![] bcast_S_S10240 (constant S_ .f32 0x3F800000#32)
abbrev zerosPP : FVec Ideal S10240x10240 .f32 := broadcastInDim S10240x10240 ![] bcast_S_S10240x10240 (constant S_ .f32 0x00000000#32)
abbrev zeroW1 : IVec S1 32 := broadcastInDim S1 ![] bcast_S_S1 (constantI S_ 32 0#32)

/-- The number of index words equal to each node: a scatter-add of ones at the words. -/
def degT (w : IVec S640000 32) : FVec Ideal S10000 .f32 :=
  Host.scatterAdd scatter_S10000_S640000x1_S640000_n_0_0_1 zerosN
    (broadcastInDim S640000x1 ![0] bcast_S640000_S640000x1_0 w) onesE

/-- The inverse square root of the count clipped below at one. -/
def normT (w : IVec S640000 32) : FVec Ideal S10000 .f32 := Host.rsqrt (maximumf onesN (degT w))

/-- The same over the padded range: ones past the last node. -/
def normPT (w : IVec S640000 32) : FVec Ideal S10240 .f32 :=
  Host.scatter scatter_S10240_S1_S10000_0_n_0_0 (fun _ b => b) onesP zeroW1 (normT w)

/-- An index word with a negative value wrapped around the padded extent. -/
def wrapT (w : IVec S640000 32) : IVec S640000 32 :=
  select (cmpi .slt w (broadcastInDim S640000 ![] bcast_S_S640000 (constantI S_ 32 0#32)))
    (addi w (broadcastInDim S640000 ![] bcast_S_S640000 (constantI S_ 32 10240#32))) w

/-- The index pairs (destination, source), one row per edge. -/
def pairT (w1 w2 : IVec S640000 32) : IVec S640000x2 32 :=
  concatenate S640000x2 1
    [⟨S640000x1, broadcastInDim S640000x1 ![0] bcast_S640000_S640000x1_0 (wrapT w2)⟩,
     ⟨S640000x1, broadcastInDim S640000x1 ![0] bcast_S640000_S640000x1_0 (wrapT w1)⟩]
    concatenates_S640000x1_S640000x1_S640000x2_d1

/-- The count matrix: a scatter-add of ones at the index pairs. -/
def cntT (w1 w2 : IVec S640000 32) : FVec Ideal S10240x10240 .f32 :=
  Host.scatterAdd scatter_S10240x10240_S640000x2_S640000_n_01_01_1 zerosPP (pairT w1 w2) onesE

/-- The count matrix with row p scaled by the in-normalisation at p and column q by the out-normalisation at q,
    in the narrower float format. -/
def adjT (w1 w2 : IVec S640000 32) : FVec Ideal S10240x10240 .bf16 :=
  truncf .bf16
    (mulf
      (mulf (cntT w1 w2)
        (broadcastInDim S10240x10240 ![0, 1] bcast_S10240x1_S10240x10240_0_1
          (broadcastInDim S10240x1 ![0] bcast_S10240_S10240x1_0 (normPT w2))))
      (broadcastInDim S10240x10240 ![0, 1] bcast_S1x10240_S10240x10240_0_1
        (broadcastInDim S1x10240 ![1] bcast_S10240_S1x10240_1 (normPT w1))))
    bitsLt_bf16_f32

end Term

set_option maxHeartbeats 1000000 in
/-- The buffer the two kernel calls read as the adjacency matrix holds the host's term over the launched index
    words. -/
theorem V5_adj_term : (V5 m c main_v39 : S10240x10240.Idx → EReal) = adjT (x1 m c) (x2 m c) := by
  show StableHlo.after hostOps0_4 (V4 m c) (Proc.devRef .tc main_v39) = _
  after_results_simp
  rfl

/-! ## Reading the term at an index -/

section Read

/-- A broadcast float constant reads the value its word encodes. -/
theorem bcastConst_apply {T : Shape} (h : S_.BroadcastsInDim T ![]) (b : BitVec 32) (j : T.Idx) :
    broadcastInDim T ![] h (constant (F := Ideal) S_ .f32 b) j = Ideal.ofBits .f32 b := by
  rw [broadcastInDim_scalar_apply, constant_apply]

/-- The constant vectors read one or zero everywhere. -/
theorem onesE_apply (j : S640000.Idx) : onesE j = 1 := by
  unfold onesE; rw [bcastConst_apply, Ideal.ofBits_one_f32]
theorem onesN_apply (j : S10000.Idx) : onesN j = 1 := by
  unfold onesN; rw [bcastConst_apply, Ideal.ofBits_one_f32]
theorem zerosN_apply (j : S10000.Idx) : zerosN j = 0 := by
  unfold zerosN; rw [bcastConst_apply, Ideal.ofBits_zero_f32]
theorem onesP_apply (j : S10240.Idx) : onesP j = 1 := by
  unfold onesP; rw [bcastConst_apply, Ideal.ofBits_one_f32]
theorem zerosPP_apply (j : S10240x10240.Idx) : zerosPP j = 0 := by
  unfold zerosPP; rw [bcastConst_apply, Ideal.ofBits_zero_f32]

/-- The host's inverse square root at an index is the extended reals' of the entry. -/
theorem hostRsqrt_apply {s : Shape} (x : FVec Ideal s .f32) (i : s.Idx) : Host.rsqrt x i = Ideal.rsqrt (x i) := rfl

/-- A vector viewed as a one-column matrix reads the vector's entry. -/
theorem col_apply {α : Type} {n : ℕ} (h : (⟨1, ![n]⟩ : Shape).BroadcastsInDim ⟨2, ![n, 1]⟩ ![0])
    (v : (⟨1, ![n]⟩ : Shape).Idx → α) (e : Fin n) (z : Fin 1) :
    broadcastInDim ⟨2, ![n, 1]⟩ ![0] h v (ix2 e z) = v (ix1 e) :=
  broadcastInDim_apply _ h v _ (ix1 e) fun a => by
    match a with
    | ⟨0, _⟩ =>
      show e.val = if n = 1 then 0 else e.val
      split
      · have := e.isLt; omega
      · rfl

/-- A vector viewed as a one-row matrix reads the vector's entry. -/
theorem row_apply {α : Type} {n : ℕ} (h : (⟨1, ![n]⟩ : Shape).BroadcastsInDim ⟨2, ![1, n]⟩ ![1])
    (v : (⟨1, ![n]⟩ : Shape).Idx → α) (z : Fin 1) (e : Fin n) :
    broadcastInDim ⟨2, ![1, n]⟩ ![1] h v (ix2 z e) = v (ix1 e) :=
  broadcastInDim_apply _ h v _ (ix1 e) fun a => by
    match a with
    | ⟨0, _⟩ =>
      show e.val = if n = 1 then 0 else e.val
      split
      · have := e.isLt; omega
      · rfl

/-- A vector laid down the rows of a matrix (constant along each row) reads, at (p, q), the vector at p. -/
theorem rows_apply {α : Type} {n k : ℕ} (h₁ : (⟨1, ![n]⟩ : Shape).BroadcastsInDim ⟨2, ![n, 1]⟩ ![0])
    (h₂ : (⟨2, ![n, 1]⟩ : Shape).BroadcastsInDim ⟨2, ![n, k]⟩ ![0, 1])
    (v : (⟨1, ![n]⟩ : Shape).Idx → α) (p : Fin n) (q : Fin k) :
    broadcastInDim ⟨2, ![n, k]⟩ ![0, 1] h₂ (broadcastInDim ⟨2, ![n, 1]⟩ ![0] h₁ v) (ix2 p q) = v (ix1 p) := by
  rw [broadcastInDim_apply _ h₂ _ (ix2 p q) (ix2 p (0 : Fin 1)) fun a => by
    match a with
    | ⟨0, _⟩ =>
      show p.val = if n = 1 then 0 else p.val
      split
      · have := p.isLt; omega
      · rfl
    | ⟨1, _⟩ => rfl]
  exact col_apply h₁ v p 0

/-- A vector laid along the columns of a matrix (constant down each column) reads, at (p, q), the vector at q. -/
theorem cols_apply {α : Type} {n k : ℕ} (h₁ : (⟨1, ![k]⟩ : Shape).BroadcastsInDim ⟨2, ![1, k]⟩ ![1])
    (h₂ : (⟨2, ![1, k]⟩ : Shape).BroadcastsInDim ⟨2, ![n, k]⟩ ![0, 1])
    (v : (⟨1, ![k]⟩ : Shape).Idx → α) (p : Fin n) (q : Fin k) :
    broadcastInDim ⟨2, ![n, k]⟩ ![0, 1] h₂ (broadcastInDim ⟨2, ![1, k]⟩ ![1] h₁ v) (ix2 p q) = v (ix1 q) := by
  rw [broadcastInDim_apply _ h₂ _ (ix2 p q) (ix2 (0 : Fin 1) q) fun a => by
    match a with
    | ⟨0, _⟩ => rfl
    | ⟨1, _⟩ =>
      show q.val = if k = 1 then 0 else q.val
      split
      · have := q.isLt; omega
      · rfl]
  exact row_apply h₁ v 0 q

/-- A word that encodes a number below the node count reads, signed, as that number. -/
theorem toInt_word (v : ℕ) (hv : v < 10000) (a : ℕ) : (BitVec.ofNat 32 v).toInt = (a : ℤ) ↔ v = a := by
  rw [StableHlo.Predicate.toInt_ofNat_small v (by omega)]
  exact Nat.cast_inj

/-- Such a word is not negative, so the wrap leaves it alone. -/
theorem wrapT_apply (w : IVec S640000 32) (e : Fin 640000) (v : ℕ) (hv : v < 10000)
    (hw : w (ix1 e) = BitVec.ofNat 32 v) : wrapT w (ix1 e) = BitVec.ofNat 32 v := by
  unfold wrapT
  rw [select_apply]
  have hc : cmpi .slt w (broadcastInDim S640000 ![] bcast_S_S640000 (constantI S_ 32 0#32)) (ix1 e) = 0#1 := by
    show IntOp.cmpi .slt (w (ix1 e)) (broadcastInDim S640000 ![] bcast_S_S640000 (constantI S_ 32 0#32) (ix1 e)) = 0#1
    rw [broadcastInDim_scalar_apply, constantI_apply, hw]
    refine eq_zero_of_ne_one ?_
    show ¬ BitVec.ofBool ((BitVec.ofNat 32 v).slt (BitVec.ofNat 32 0)) = 1#1
    rw [StableHlo.Predicate.slt_ofNat_iff v 0 (by omega) (by omega)]
    omega
  rw [hc, select_zero, hw]

/-- The scatter-add of ones at the words counts, for each node, the words equal to it. -/
theorem degT_apply (w : IVec S640000 32) (f : Fin 640000 → Fin 10000)
    (hf : ∀ e : Fin 640000, w (ix1 e) = BitVec.ofNat 32 (f e).val) (a : Fin 10000) :
    degT w (ix1 a) = Cert.Spec.outCount f a := by
  unfold degT Cert.Spec.outCount
  rw [ScatterRead.scatterAdd_vec_apply _ rfl rfl rfl rfl, zerosN_apply, zero_add]
  refine Finset.sum_congr (Finset.filter_congr fun e _ => ?_) fun e _ => onesE_apply _
  rw [col_apply, hf e, toInt_word _ (f e).isLt, Fin.ext_iff]

/-- The clipped inverse square root of the count is the specification's normalisation. -/
theorem normT_apply (w : IVec S640000 32) (f : Fin 640000 → Fin 10000)
    (hf : ∀ e : Fin 640000, w (ix1 e) = BitVec.ofNat 32 (f e).val) (a : Fin 10000) :
    normT w (ix1 a) = Cert.Spec.outNorm f a := by
  unfold normT
  rw [hostRsqrt_apply, maximumf_apply, onesN_apply, degT_apply w f hf a]
  rfl

/-- Over the padded range: the normalisation at a node, one past the last node. -/
theorem normPT_apply (w : IVec S640000 32) (f : Fin 640000 → Fin 10000)
    (hf : ∀ e : Fin 640000, w (ix1 e) = BitVec.ofNat 32 (f e).val) (p : Fin 10240) :
    normPT w (ix1 p) = Cert.Spec.outNormP f p := by
  unfold normPT Cert.Spec.outNormP
  rw [ScatterRead.scatter_set_prefix_vec (by decide) _ rfl rfl rfl rfl _ _ rfl _ p]
  by_cases h : p.val < Cert.Spec.nN
  · rw [dif_pos h, dif_pos h, normT_apply w f hf]
  · rw [dif_neg h, dif_neg h, onesP_apply]

/-- The first column of the index pairs is the destination word, -/
theorem pairT_apply0 (w1 w2 : IVec S640000 32) (e : Fin 640000) :
    pairT w1 w2 (ix2 e (0 : Fin 2)) = wrapT w2 (ix1 e) := by
  unfold pairT
  rw [concatenate_pair_apply_left (t := S640000x2) (s₁ := S640000x1) (s₂ := S640000x1) (1 : Fin 2) _ _ _
    (ix2 e (0 : Fin 2)) (rfl : S640000x1.rank = S640000x2.rank) (ix2 e (0 : Fin 1))
    (fun b => by match b with | ⟨0, _⟩ => rfl | ⟨1, _⟩ => rfl)]
  exact col_apply _ _ e 0

/-- and the second column the source word. -/
theorem pairT_apply1 (w1 w2 : IVec S640000 32) (e : Fin 640000) :
    pairT w1 w2 (ix2 e (1 : Fin 2)) = wrapT w1 (ix1 e) := by
  unfold pairT
  rw [concatenate_pair_apply_right (t := S640000x2) (s₁ := S640000x1) (s₂ := S640000x1) (1 : Fin 2) _ _ _
    (ix2 e (1 : Fin 2)) (rfl : S640000x1.rank = S640000x2.rank) (rfl : S640000x1.rank = S640000x2.rank) (ix2 e (0 : Fin 1))
    (fun b hb => by
      match b, hb with
      | ⟨0, _⟩, _ => rfl
      | ⟨1, _⟩, hb => exact absurd rfl hb) rfl]
  exact col_apply _ _ e 0

/-- The scatter-add of ones at the index pairs counts, for each (p, q), the edges q → p. -/
theorem cntT_apply (w1 w2 : IVec S640000 32) (s d : Fin 640000 → Fin 10000)
    (hs : ∀ e : Fin 640000, w1 (ix1 e) = BitVec.ofNat 32 (s e).val)
    (hd : ∀ e : Fin 640000, w2 (ix1 e) = BitVec.ofNat 32 (d e).val) (p q : Fin 10240) :
    cntT w1 w2 (ix2 p q) = Cert.Spec.adj s d p q := by
  unfold cntT Cert.Spec.adj
  rw [ScatterRead.scatterAdd_mat_apply _ rfl rfl rfl rfl, zerosPP_apply, zero_add]
  refine Finset.sum_congr (Finset.filter_congr fun e _ => ?_) fun e _ => onesE_apply _
  rw [pairT_apply0, pairT_apply1, wrapT_apply w2 e _ (d e).isLt (hd e), wrapT_apply w1 e _ (s e).isLt (hs e),
    toInt_word _ (d e).isLt, toInt_word _ (s e).isLt]

/-- The host's term at (p, q) is the specification's normalised adjacency matrix there. -/
theorem adjT_apply (w1 w2 : IVec S640000 32) (s d : Fin 640000 → Fin 10000)
    (hs : ∀ e : Fin 640000, w1 (ix1 e) = BitVec.ofNat 32 (s e).val)
    (hd : ∀ e : Fin 640000, w2 (ix1 e) = BitVec.ofNat 32 (d e).val) (p q : Fin 10240) :
    adjT w1 w2 (ix2 p q) = Cert.Spec.adjN s d p q := by
  unfold adjT
  rw [truncf_apply, mulf_apply, mulf_apply, cntT_apply w1 w2 s d hs hd, rows_apply, cols_apply, normPT_apply w2 d hd, normPT_apply w1 s hs]
  rfl

end Read

/-- The adjacency matrix the two kernel calls read is the specification's normalised adjacency matrix, when
    the index words encode node numbers. -/
theorem V5_adj (s d : Fin 640000 → Fin 10000)
    (hs : ∀ e : Fin 640000, x1 m c (ix1 e) = BitVec.ofNat 32 (s e).val)
    (hd : ∀ e : Fin 640000, x2 m c (ix1 e) = BitVec.ofNat 32 (d e).val) (p q : Fin 10240) :
    V5 m c main_v39 (ix2 p q) = Cert.Spec.adjN s d p q :=
  (congrFun (V5_adj_term m c) (ix2 p q)).trans (adjT_apply (x1 m c) (x2 m c) s d hs hd p q)

end Cert.KHost

end
-- ==== Proof.KValue0.lean ====
/-
  The first aggregation-and-projection call: what its result array holds after the call, entry by entry.

  The call walks a 10 × 10 grid of points (i, k), the point at position t = 10·i + k.  Along a row of points it keeps a
  running sum `acc` (1024 × 128): zero before k = 0, and at every k the product of block (i, k) of the normalised
  adjacency matrix A (1024 × 1024) with block k of the features X (1024 × 128) is added.  At k = 9 the output block i is
  written: `max (acc · W + b) 0`.

  Over the extended reals, where every float operation is the exact one:
    * after the point at position n the accumulator's entry (r, f) is the sum of the first n % 10 + 1 stretches of 1024
      terms of  Σ_q A(1024·(n/10) + r, q) · X(q, f)   (induction on n; addition is associative, nothing else is used);
    * at k = 9 the ten stretches are the whole sum over the 10240 inner positions;
    * so the block written at position 10·i + 9 is block i of the one function
          (p, j) ↦ max (Σ_k (Σ_q A(p, q) · X(q, k)) · W(k, j) + b(0, j)) 0,
      and the ten written blocks tile the result array.
-/
import proofs.«414079_j34359738415_1_alg».proof.Proof.Region0c
import Idealize.ShloMosaic.PureOps.Ideal.Laws
import Idealize.ShloMosaic.Lib.ValueIdx
import Idealize.ShloMosaic.Lib.Pipeline.Value
import Mathlib.Algebra.BigOperators.Fin
import Mathlib.Algebra.BigOperators.Intervals

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

section Regroup

variable {M : Type*} [AddCommMonoid M]

/-- The part of a sum over 10240 terms that falls in the `k`-th stretch of 1024 (zero past the tenth). -/
def stretch (h : Fin 10240 → M) (k : ℕ) : M :=
  if hk : k < 10 then ∑ q : Fin 1024, h ⟨1024 * k + q.val, by have := q.isLt; omega⟩ else 0

theorem stretch_of_lt (h : Fin 10240 → M) (k : ℕ) (hk : k < 10) :
    stretch h k = ∑ q : Fin 1024, h ⟨1024 * k + q.val, by have := q.isLt; omega⟩ := dif_pos hk

/-- A sum over 10240 terms is the sum of its ten stretches of 1024. -/
theorem sum_stretch (h : Fin 10240 → M) : ∑ k ∈ Finset.range 10, stretch h k = ∑ q : Fin 10240, h q := by
  rw [← Fin.sum_univ_eq_sum_range (fun k => stretch h k) 10]
  rw [← Equiv.sum_comp (finProdFinEquiv (m := 10) (n := 1024)) h, Fintype.sum_prod_type]
  refine Finset.sum_congr rfl fun k _ => ?_
  rw [stretch_of_lt h k.val k.isLt]
  refine Finset.sum_congr rfl fun q _ => ?_
  refine congrArg h (Fin.ext ?_)
  show 1024 * k.val + q.val = q.val + 1024 * k.val
  omega

end Regroup

/-! ## The body's arithmetic at an index, over the extended reals -/

/-- The reset stores zero. -/
theorem pay1_apply (r : Fin 1024) (f : Fin 128) : (k0_pay1 (F := Ideal) : S1024x128.Idx → EReal) (ix2 r f) = 0 := by
  unfold k0_pay1
  refine (congrFun (shapeCast_self _ _) (ix2 r f)).trans ?_
  exact Ideal.ofBits_zero_f32

/-! ### The block product: a 1024 × 1024 block times a 1024 × 128 block -/

theorem lhsA_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhsA_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhsA_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhsA_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The block product into a zero accumulator, at (r, f): the sum over the 1024 inner positions. -/
theorem matmulA_apply (a : FVec Ideal S1024x1024 .bf16) (b : FVec Ideal S1024x128 .bf16) (r : Fin 1024) (f : Fin 128) :
    matmul dot_S1024x1024_S1024x128_S1024x128_1_0_0_1_n_n none a b (constant S1024x128 .f32 0x00000000#32) (ix2 r f)
      = ∑ q : Fin 1024, a (ix2 r q) * b (ix2 q f) := by
  refine (Ideal.matmul_constant_zero_apply dot_S1024x1024_S1024x128_S1024x128_1_0_0_1_n_n none a b (ix2 r f)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 r f) ((contrEquiv1 dot_S1024x1024_S1024x128_S1024x128_1_0_0_1_n_n 1024 rfl rfl).symm k) = ix2 r k := funext fun a => Fin.ext (by
    match a with
    | ⟨0, _⟩ => exact lhsA_0 _ _
    | ⟨1, _⟩ => exact (lhsA_1 _ _).trans hk)
  have er : dot_S1024x1024_S1024x128_S1024x128_1_0_0_1_n_n.rhsIdx (ix2 r f) ((contrEquiv1 dot_S1024x1024_S1024x128_S1024x128_1_0_0_1_n_n 1024 rfl rfl).symm k) = ix2 k f := funext fun a => Fin.ext (by
    match a with
    | ⟨0, _⟩ => exact (rhsA_0 _ _).trans hk
    | ⟨1, _⟩ => exact rhsA_1 _ _)
  rw [el, er]

/-- The accumulation step: the accumulator plus the block product. -/
theorem pay2_apply (x0 : FVec Ideal S1024x1024 .bf16) (x1 : FVec Ideal S1024x128 .f32) (xs : FVec Ideal S1024x128 .f32) (r : Fin 1024) (f : Fin 128) :
    k0_pay2 x0 x1 xs (ix2 r f) = xs (ix2 r f) + ∑ q : Fin 1024, x0 (ix2 r q) * x1 (ix2 q f) := by
  unfold k0_pay2
  refine (congrFun (shapeCast_self _ _) (ix2 r f)).trans ?_
  refine (addf_apply _ _ _).trans ?_
  refine congrArg (xs (ix2 r f) + ·) ?_
  refine (matmulA_apply _ _ r f).trans ?_
  refine Finset.sum_congr rfl fun q _ => ?_
  refine congrArg₂ (· * ·) (congrFun (shapeCast_self x0 _) (ix2 r q)) ?_
  exact congrFun (shapeCast_self x1 _) (ix2 q f)

/-! ### The projection: a 1024 × 128 block times the 128 × 128 weights -/

theorem lhsW_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhsW_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhsW_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhsW_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The projection into a zero accumulator, at (r, f): the sum over the 128 features. -/
theorem matmulW_apply (a : FVec Ideal S1024x128 .bf16) (b : FVec Ideal S128x128 .bf16) (r : Fin 1024) (f : Fin 128) :
    matmul dot_S1024x128_S128x128_S1024x128_1_0_0_1_n_n none a b (constant S1024x128 .f32 0x00000000#32) (ix2 r f)
      = ∑ k : Fin 128, a (ix2 r k) * b (ix2 k f) := by
  refine (Ideal.matmul_constant_zero_apply dot_S1024x128_S128x128_S1024x128_1_0_0_1_n_n none a b (ix2 r f)).trans ?_
  rw [← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r f) ((contrEquiv1 dot_S1024x128_S128x128_S1024x128_1_0_0_1_n_n 128 rfl rfl).symm k) = ix2 r k := funext fun a => Fin.ext (by
    match a with
    | ⟨0, _⟩ => exact lhsW_0 _ _
    | ⟨1, _⟩ => exact (lhsW_1 _ _).trans hk)
  have er : dot_S1024x128_S128x128_S1024x128_1_0_0_1_n_n.rhsIdx (ix2 r f) ((contrEquiv1 dot_S1024x128_S128x128_S1024x128_1_0_0_1_n_n 128 rfl rfl).symm k) = ix2 k f := funext fun a => Fin.ext (by
    match a with
    | ⟨0, _⟩ => exact (rhsW_0 _ _).trans hk
    | ⟨1, _⟩ => exact rhsW_1 _ _)
  rw [el, er]

/-- The bias row broadcast down the 1024 rows. -/
theorem bias_apply (b : FVec Ideal S1x128 .f32) (r : Fin 1024) (f : Fin 128) :
    broadcastTo S1024x128 (shapeCast S1x128 b shapeCasts_S1x128_S1x128) broadcasts_S1x128_S1024x128 (ix2 r f) = b (ix2 (0 : Fin 1) f) := by
  refine (broadcastTo_apply _ broadcasts_S1x128_S1024x128 (ix2 r f) (ix2 (0 : Fin 1) f) (fun a => ?_)).trans ?_
  · match a with
    | ⟨0, _⟩ => rfl
    | ⟨1, _⟩ => rfl
  · exact congrFun (shapeCast_self b _) _

/-- The output block: the accumulator times the weights, plus the bias, clamped below at zero. -/
theorem pay3_apply (xa : FVec Ideal S1024x128 .f32) (w : FVec Ideal S128x128 .f32) (b : FVec Ideal S1x128 .f32) (r : Fin 1024) (f : Fin 128) :
    k0_pay3 xa w b (ix2 r f) = max ((∑ k : Fin 128, xa (ix2 r k) * w (ix2 k f)) + b (ix2 (0 : Fin 1) f)) 0 := by
  unfold k0_pay3
  refine (maximumf_apply _ _ _).trans ?_
  refine congrArg₂ max ?_ Ideal.ofBits_zero_f32
  refine (addf_apply _ _ _).trans ?_
  refine congrArg₂ (· + ·) ?_ (bias_apply b r f)
  exact matmulW_apply _ _ r f

section Pieces

variable {F : FTy → Type} [FloatOps F]
variable (V : (c : Dev nD) → (b : Ref sig .tc) → Buf (Elt F) ((c : Thread nD τ).loc b))

theorem hz0 : (![0, 0] : Fin 2 → Nat) = fun _ => 0 := funext fun a => by fin_cases a <;> rfl

/-- The accumulator's buffer, holding `xs`, reads `xs`. -/
theorem read_acc0 (h : (scM0 : Memref sig .tc .vmem S1024x128 .f32).IsWhole) (xs : Vec F S1024x128 .f32) :
    View.read (Elt F) (View.whole cc0_scratch0) (h.unread xs) = xs := h.read_unread xs

theorem accB0_eq (c : Dev nD) (t : Fin cfg0.N) (h0 : ¬cond0_0 (grid0.coords t)) (h1 : ¬cond0_1 (grid0.coords t)) (xs : Vec F S1024x128 .f32) :
    accB0 V c t h0 h1 xs = k0_pay2 (iblk0 V c 0 t) (iblk0 V c 1 t) xs := by
  unfold accB0
  rw [View.read_writes_eq_canon _ _ _ (coverB0 V c t h0 h1 xs)]
  unfold kernelRun0_B
  dsimp only
  sl_unfold_words
  rw [View.canon_unit_zero hz0]
  simp only [View.readAt_eq_ld, Memref.IsWhole.read_unread, read_acc0, View.ld_unit_zero (S := S1024x128) hz0, View.ld_unit_zero (S := S1024x1024) hz0]

theorem accA0_eq (c : Dev nD) (t : Fin cfg0.N) (h0 : cond0_0 (grid0.coords t)) (h1 : ¬cond0_1 (grid0.coords t)) :
    accA0 V c t h0 h1 = k0_pay2 (iblk0 V c 0 t) (iblk0 V c 1 t) (k0_pay1 (F := F)) := by
  unfold accA0
  rw [View.read_writes_eq_canon _ _ _ (coverA0 V c t h0 h1)]
  unfold kernelRun0_A
  dsimp only
  sl_unfold_words
  rw [View.canon_cons_unit_zero (S := S1024x128) hz0, View.readCov_unit_zero (S := S1024x128) _ hz0]
  simp only [View.readAt_eq_ld, Memref.IsWhole.read_unread, read_acc0, View.ld_unit_zero (S := S1024x128) hz0, View.ld_unit_zero (S := S1024x1024) hz0]

theorem accC0_eq (c : Dev nD) (t : Fin cfg0.N) (h0 : ¬cond0_0 (grid0.coords t)) (h1 : cond0_1 (grid0.coords t)) (xs : Vec F S1024x128 .f32) :
    accC0 V c t h0 h1 xs = k0_pay2 (iblk0 V c 0 t) (iblk0 V c 1 t) xs := by
  unfold accC0
  rw [View.read_writes_eq_canon _ _ _ (coverCs0 V c t h0 h1 xs)]
  unfold kernelRun0_C
  dsimp only
  sl_unfold_words
  rw [View.canon_unit_zero hz0]
  simp only [View.readAt_eq_ld, Memref.IsWhole.read_unread, read_acc0, View.ld_unit_zero (S := S1024x128) hz0, View.ld_unit_zero (S := S1024x1024) hz0]

theorem outC0_eq (c : Dev nD) (t : Fin cfg0.N) (h0 : ¬cond0_0 (grid0.coords t)) (h1 : cond0_1 (grid0.coords t)) (xs : Vec F S1024x128 .f32) :
    outC0 V c t h0 h1 xs = k0_pay3 (k0_pay2 (iblk0 V c 0 t) (iblk0 V c 1 t) xs) (iblk0 V c 2 t) (iblk0 V c 3 t) := by
  unfold outC0
  rw [View.read_writes_eq_canon _ _ _ (coverCo0 V c t h0 h1 xs)]
  unfold kernelRun0_C
  dsimp only
  sl_unfold_words
  rw [View.canon_unit_zero hz0]
  simp only [View.readAt_eq_ld, Memref.IsWhole.read_unread, read_acc0, View.readCov_unit_zero (S := S1024x128) _ hz0, View.ld_unit_zero (S := S1024x128) hz0, View.ld_unit_zero (S := S1024x1024) hz0, View.ld_unit_zero (S := S128x128) hz0, View.ld_unit_zero (S := S1x128) hz0]

end Pieces

section Blocks

variable {F : FTy → Type} [FloatOps F]
variable (V : (c : Dev nD) → (b : Ref sig .tc) → Buf (Elt F) ((c : Thread nD τ).loc b))

/-- The block indices of the five windows at a point, decided over the grid: the point at position `t` is row block
    `t / 10` and inner block `t % 10`. -/
theorem idx_facts0 : ∀ t : Fin cfg0.N, win0_0.index t (0 : Fin 2) = t.val / 10 ∧ win0_0.index t (1 : Fin 2) = t.val % 10
    ∧ win0_1.index t (0 : Fin 2) = t.val % 10 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 10 ∧ win0_4.index t (1 : Fin 2) = 0 :=
  (by decide +kernel : ∀ t : Fin grid0.N, _)

/-- The arrays as the call finds them, at their literal types. -/
abbrev arrA (c : Dev nD) : Vec F S10240x10240 .bf16 := V c main_v39
abbrev arrX (c : Dev nD) : Vec F S10240x128 .f32 := V c main_v42
abbrev arrW (c : Dev nD) : Vec F S128x128 .f32 := V c main_arg3
abbrev arrB (c : Dev nD) : Vec F S1x128 .f32 := V c main_v43

/-- Row `r` of the row block of the point at position `n`, and inner position `q` of its inner block. -/
def rowAt (n : ℕ) (r : Fin 1024) : Fin 10240 := ⟨1024 * (n / 10 % 10) + r.val, by have := r.isLt; omega⟩
def colAt (n : ℕ) (q : Fin 1024) : Fin 10240 := ⟨1024 * (n % 10) + q.val, by have := q.isLt; omega⟩

theorem blkA_apply (c : Dev nD) (t : Fin cfg0.N) (r q : Fin 1024) :
    (iblk0 V c 0 t : Vec F S1024x1024 .bf16) (ix2 r q) = arrA V c (ix2 (rowAt t.val r) (colAt t.val q)) := by
  have hN : t.val < 100 := lt_of_lt_of_eq t.isLt (show cfg0.N = 100 from N_0)
  obtain ⟨e0, e1, -⟩ := idx_facts0 t
  unfold iblk0
  rw [View.read_apply]
  show arrA V c _ = arrA V c _
  refine congrArg (arrA V c) (funext fun a => Fin.ext ?_)
  match a with
  | ⟨0, _⟩ => show win0_0.index t (0 : Fin 2) * 1024 + 1 * r.val = 1024 * (t.val / 10 % 10) + r.val; rw [e0]; omega
  | ⟨1, _⟩ => show win0_0.index t (1 : Fin 2) * 1024 + 1 * q.val = 1024 * (t.val % 10) + q.val; rw [e1]; omega

theorem blkX_apply (c : Dev nD) (t : Fin cfg0.N) (q : Fin 1024) (f : Fin 128) :
    (iblk0 V c 1 t : Vec F S1024x128 .f32) (ix2 q f) = arrX V c (ix2 (colAt t.val q) f) := by
  obtain ⟨-, -, e0, e1, -⟩ := idx_facts0 t
  unfold iblk0
  rw [View.read_apply]
  show arrX V c _ = arrX V c _
  refine congrArg (arrX V c) (funext fun a => Fin.ext ?_)
  match a with
  | ⟨0, _⟩ => show win0_1.index t (0 : Fin 2) * 1024 + 1 * q.val = 1024 * (t.val % 10) + q.val; rw [e0]; omega
  | ⟨1, _⟩ => show win0_1.index t (1 : Fin 2) * 128 + 1 * f.val = f.val; rw [e1]; omega

theorem blkW_apply (c : Dev nD) (t : Fin cfg0.N) (k f : Fin 128) :
    (iblk0 V c 2 t : Vec F S128x128 .f32) (ix2 k f) = arrW V c (ix2 k f) := by
  obtain ⟨-, -, -, -, e0, e1, -⟩ := idx_facts0 t
  unfold iblk0
  rw [View.read_apply]
  show arrW V c _ = arrW V c _
  refine congrArg (arrW V c) (funext fun a => Fin.ext ?_)
  match a with
  | ⟨0, _⟩ => show win0_2.index t (0 : Fin 2) * 128 + 1 * k.val = k.val; rw [e0]; omega
  | ⟨1, _⟩ => show win0_2.index t (1 : Fin 2) * 128 + 1 * f.val = f.val; rw [e1]; omega

theorem blkB_apply (c : Dev nD) (t : Fin cfg0.N) (f : Fin 128) :
    (iblk0 V c 3 t : Vec F S1x128 .f32) (ix2 (0 : Fin 1) f) = arrB V c (ix2 (0 : Fin 1) f) := by
  obtain ⟨-, -, -, -, -, -, e0, e1, -⟩ := idx_facts0 t
  unfold iblk0
  rw [View.read_apply]
  show arrB V c _ = arrB V c _
  refine congrArg (arrB V c) (funext fun a => Fin.ext ?_)
  match a with
  | ⟨0, _⟩ => show win0_3.index t (0 : Fin 2) * 1 + 1 * (0 : Fin 1).val = (0 : Fin 1).val; rw [e0]; rfl
  | ⟨1, _⟩ => show win0_3.index t (1 : Fin 2) * 128 + 1 * f.val = f.val; rw [e1]; omega

end Blocks

section Invariant

variable (V : (c : Dev nD) → (b : Ref sig .tc) → Buf (Elt Ideal) ((c : Thread nD τ).loc b))

/-- The products whose sum over `q` is entry (p, f) of the aggregated features. -/
def prodAX (c : Dev nD) (p : Fin 10240) (f : Fin 128) : Fin 10240 → EReal :=
  fun q => (arrA V c (ix2 p q) : EReal) * (arrX V c (ix2 q f) : EReal)

/-- One accumulation step at the point at position `t`: the accumulator gains the stretch `t % 10` of row `rowAt t r`. -/
theorem step_eq (c : Dev nD) (t : Fin cfg0.N) (xs : FVec Ideal S1024x128 .f32) (r : Fin 1024) (f : Fin 128) :
    k0_pay2 (iblk0 V c 0 t) (iblk0 V c 1 t) xs (ix2 r f)
      = xs (ix2 r f) + stretch (prodAX V c (rowAt t.val r) f) (t.val % 10) := by
  refine (pay2_apply (iblk0 V c 0 t) (iblk0 V c 1 t) xs r f).trans ?_
  refine congrArg (xs (ix2 r f) + ·) ?_
  rw [stretch_of_lt _ _ (Nat.mod_lt _ (by decide))]
  refine Finset.sum_congr rfl fun q _ => ?_
  exact congrArg₂ (· * ·) (blkA_apply V c t r q) (blkX_apply V c t q f)

/-- A reset point leaves the first stretch alone. -/
theorem acc_reset (c : Dev nD) (t : Fin cfg0.N) (h0 : t.val % 10 = 0) (r : Fin 1024) (f : Fin 128) :
    ((outsAt0 V c t.val t.isLt).2 : FVec Ideal S1024x128 .f32) (ix2 r f)
      = ∑ k ∈ Finset.range (t.val % 10 + 1), stretch (prodAX V c (rowAt t.val r) f) k := by
  rw [outsAt0_A V c t h0]; dsimp only
  refine (congrFun (accA0_eq V c t ((hcond0_0 t).mpr h0) (fun h => (fun h => by omega) ((hcond0_1 t).mp h))) (ix2 r f)).trans ?_
  refine (step_eq V c t (k0_pay1 (F := Ideal)) r f).trans ?_
  rw [pay1_apply, zero_add, h0, Finset.sum_range_one]

/-- THE INVARIANT: after the point at position `n`, in inner block `n % 10` of its row block, the accumulator
    holds the first `n % 10 + 1` stretches of each of its rows' sums. -/
theorem acc_eq (c : Dev nD) : ∀ (n : ℕ) (hn : n < cfg0.N) (r : Fin 1024) (f : Fin 128),
    ((outsAt0 V c n hn).2 : FVec Ideal S1024x128 .f32) (ix2 r f)
      = ∑ k ∈ Finset.range (n % 10 + 1), stretch (prodAX V c (rowAt n r) f) k := by
  intro n
  induction n with
  | zero => intro hn r f; exact acc_reset V c ⟨0, hn⟩ rfl r f
  | succ n ih =>
    intro hn r f
    by_cases h0 : (n + 1) % 10 = 0
    · exact acc_reset V c ⟨n + 1, hn⟩ h0 r f
    · have e1 : n % 10 + 1 = (n + 1) % 10 := by omega
      have e2 : rowAt n r = rowAt (n + 1) r := Fin.ext (by
        show 1024 * (n / 10 % 10) + r.val = 1024 * ((n + 1) / 10 % 10) + r.val
        omega)
      have hprev := ih (Nat.lt_of_succ_lt hn) r f
      rw [e1, e2] at hprev
      by_cases h1 : (n + 1) % 10 = 9
      · rw [outsAt0_C V c ⟨n + 1, hn⟩ h0 h1]; dsimp only
        refine (congrFun (accC0_eq V c ⟨n + 1, hn⟩ (fun h => h0 ((hcond0_0 ⟨n + 1, hn⟩).mp h)) ((hcond0_1 ⟨n + 1, hn⟩).mpr h1) _) (ix2 r f)).trans ?_
        refine (step_eq V c ⟨n + 1, hn⟩ _ r f).trans ?_
        rw [Finset.sum_range_succ]
        exact congrArg (· + _) hprev
      · rw [outsAt0_B V c ⟨n + 1, hn⟩ h0 h1]; dsimp only
        refine (congrFun (accB0_eq V c ⟨n + 1, hn⟩ (fun h => h0 ((hcond0_0 ⟨n + 1, hn⟩).mp h)) (fun h => h1 ((hcond0_1 ⟨n + 1, hn⟩).mp h)) _) (ix2 r f)).trans ?_
        refine (step_eq V c ⟨n + 1, hn⟩ _ r f).trans ?_
        rw [Finset.sum_range_succ]
        exact congrArg (· + _) hprev

end Invariant

section Result

variable (V : (c : Dev nD) → (b : Ref sig .tc) → Buf (Elt Ideal) ((c : Thread nD τ).loc b))

/-- At the last inner block the accumulator holds the whole sum. -/
theorem acc_full (c : Dev nD) (t : Fin cfg0.N) (h9 : t.val % 10 = 9) (r : Fin 1024) (k : Fin 128) :
    ((outsAt0 V c t.val t.isLt).2 : FVec Ideal S1024x128 .f32) (ix2 r k) = ∑ q : Fin 10240, prodAX V c (rowAt t.val r) k q :=
  (acc_eq V c t.val t.isLt r k).trans
    ((Finset.sum_congr (by rw [h9]) fun _ _ => rfl).trans (sum_stretch (prodAX V c (rowAt t.val r) k)))

/-- The call's result at (p, j): the aggregated features times the weights, plus the bias, clamped below at zero. -/
def layer0 (c : Dev nD) (p : Fin 10240) (j : Fin 128) : EReal :=
  max ((∑ k : Fin 128, (∑ q : Fin 10240, (arrA V c (ix2 p q) : EReal) * (arrX V c (ix2 q k) : EReal)) * (arrW V c (ix2 k j) : EReal))
        + (arrB V c (ix2 (0 : Fin 1) j) : EReal)) 0

/-- The output block a point with inner block 9 writes. -/
theorem out_apply (c : Dev nD) (t : Fin cfg0.N) (h0 : ¬t.val % 10 = 0) (h9 : t.val % 10 = 9) (r : Fin 1024) (f : Fin 128) :
    ((outsAt0 V c t.val t.isLt).1 : FVec Ideal S1024x128 .f32) (ix2 r f) = layer0 V c (rowAt t.val r) f := by
  have hacc : ∀ k : Fin 128, k0_pay2 (iblk0 V c 0 t) (iblk0 V c 1 t) (outsAt0 V c (t.val - 1) (Nat.lt_of_le_of_lt (Nat.sub_le _ _) t.isLt)).2 (ix2 r k)
      = ∑ q : Fin 10240, prodAX V c (rowAt t.val r) k q := by
    intro k
    have h := acc_full V c t h9 r k
    rw [outsAt0_C V c t h0 h9] at h; dsimp only at h
    exact (congrFun (accC0_eq V c t (fun h => h0 ((hcond0_0 t).mp h)) ((hcond0_1 t).mpr h9) _) (ix2 r k)).symm.trans h
  rw [outsAt0_C V c t h0 h9]; dsimp only
  refine (congrFun (outC0_eq V c t (fun h => h0 ((hcond0_0 t).mp h)) ((hcond0_1 t).mpr h9) _) (ix2 r f)).trans ?_
  refine (pay3_apply _ (iblk0 V c 2 t) (iblk0 V c 3 t) r f).trans ?_
  unfold layer0
  refine congrArg₂ max (congrArg₂ (· + ·) (Finset.sum_congr rfl fun k _ => congrArg₂ (· * ·) (hacc k) (blkW_apply V c t k f)) (blkB_apply V c t f)) rfl

/-- The whole result array. -/
abbrev G0 (c : Dev nD) : S10240x128.Idx → EReal := fun i => layer0 V c (i 0) (i 1)

theorem flushed_eq0 (c : Dev nD) (t : Fin cfg0.N) (hf : (cfg0.win 4).flush t = true) :
    (dat0 V c).flushed 4 t = ((cfg0.win 4).blk t).view.read (Elt Ideal) (G0 V c) := by
  have h9 : t.val % 10 = 9 := (flush0_4 t).mp hf
  have h0 : ¬t.val % 10 = 0 := by omega
  have hN : t.val < 100 := lt_of_lt_of_eq t.isLt (show cfg0.N = 100 from N_0)
  obtain ⟨-, -, -, -, -, -, -, -, e0, e1⟩ := idx_facts0 t
  show (cfg0.win 4).cut (grid0.coords t) ((dat0 V c).after 4 t) = _
  rw [after0_4]
  funext j
  obtain ⟨r, f, rfl⟩ : ∃ (r : Fin 1024) (f : Fin 128), j = ix2 r f := ⟨j 0, j 1, eq_ix2 j⟩
  rw [View.read_apply]
  refine (out_apply V c t h0 h9 r f).trans ?_
  show layer0 V c (rowAt t.val r) f = layer0 V c ((((cfg0.win 4).blk t).view.emb (ix2 r f)) 0) ((((cfg0.win 4).blk t).view.emb (ix2 r f)) 1)
  refine congrArg₂ (layer0 V c) (Fin.ext ?_) (Fin.ext ?_)
  · show 1024 * (t.val / 10 % 10) + r.val = win0_4.index t (0 : Fin 2) * 1024 + 1 * r.val
    rw [e0]; omega
  · show f.val = win0_4.index t (1 : Fin 2) * 128 + 1 * f.val
    rw [e1]; omega

/-- An index of the result array is in the block of the point at position `t` iff each coordinate is in the block's range. -/
theorem mem_blk0 (t : Fin cfg0.N) (i : S10240x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v44).slice (win0_4.rect t)).set ↔ _
  rw [View.set_slice_whole, Rect.mem_set_unit]
  exact Iff.rfl

/-- Every index of the result array is written: row `p` by the last point of row block `p / 1024`. -/
theorem cover0 (i : S10240x128.Idx) : ∃ t : Fin cfg0.N, (cfg0.win 4).flush t = true ∧ i ∈ ((cfg0.win 4).blk t).view.set := by
  have hi0 : (i 0).val < 10240 := (i 0).isLt
  have hi1 : (i 1).val < 128 := (i 1).isLt
  have hlt : 10 * ((i 0).val / 1024) + 9 < cfg0.N := lt_of_lt_of_eq (by omega : 10 * ((i 0).val / 1024) + 9 < 100) (show cfg0.N = 100 from N_0).symm
  obtain ⟨-, -, -, -, -, -, -, -, e0, e1⟩ := idx_facts0 ⟨10 * ((i 0).val / 1024) + 9, hlt⟩
  refine ⟨⟨10 * ((i 0).val / 1024) + 9, hlt⟩, (flush0_4 _).mpr (by show (10 * ((i 0).val / 1024) + 9) % 10 = 9; omega), ?_⟩
  rw [mem_blk0]
  intro a
  match a with
  | ⟨0, _⟩ =>
    show win0_4.index ⟨10 * ((i 0).val / 1024) + 9, hlt⟩ (0 : Fin 2) * 1024 ≤ (i 0).val ∧ (i 0).val < win0_4.index ⟨10 * ((i 0).val / 1024) + 9, hlt⟩ (0 : Fin 2) * 1024 + 1024
    rw [e0]; show (10 * ((i 0).val / 1024) + 9) / 10 * 1024 ≤ (i 0).val ∧ (i 0).val < (10 * ((i 0).val / 1024) + 9) / 10 * 1024 + 1024
    omega
  | ⟨1, _⟩ =>
    show win0_4.index ⟨10 * ((i 0).val / 1024) + 9, hlt⟩ (1 : Fin 2) * 128 ≤ (i 1).val ∧ (i 1).val < win0_4.index ⟨10 * ((i 0).val / 1024) + 9, hlt⟩ (1 : Fin 2) * 128 + 128
    rw [e1]; omega

/-- The result array after the call. -/
theorem final0 (c : Dev nD) : (dat0 V c).arrAt 4 cfg0.N = G0 V c :=
  (dat0 V c).arrAt_eq_of_cover 4 (G0 V c) (fun t hf => flushed_eq0 V c t hf) cover0

/-- The result array after the call, at its literal type. -/
abbrev res0 (c : Dev nD) : Vec Ideal S10240x128 .f32 := (dat0 V c).arrAt 4 cfg0.N

/-- WHAT THE FIRST CALL LEAVES IN ITS RESULT ARRAY, entry by entry: with A the normalised adjacency matrix, X the
    features, W the weights and b the bias as the call finds them, `max ((A·X)·W + b) 0` at (p, j). -/
theorem layer0_value (c : Dev nD) (p : Fin 10240) (j : Fin 128) :
    (res0 V c (ix2 p j) : EReal)
      = max ((∑ k : Fin 128, (∑ q : Fin 10240, (arrA V c (ix2 p q) : EReal) * (arrX V c (ix2 q k) : EReal)) * (arrW V c (ix2 k j) : EReal))
             + (arrB V c (ix2 (0 : Fin 1) j) : EReal)) 0 :=
  congrFun (final0 V c) (ix2 p j)

end Result

end Cert.KernelIdeal.Hand
-- ==== Proof.KValue1.lean ====
/-
  The second aggregation-and-projection call: what its result array holds after the call, entry by entry.

  The call walks the same 10 × 10 grid of points (i, k), the point at position t = 10·i + k, with the same running sum:
  zero before k = 0, and at every k the product of block (i, k) of the normalised adjacency matrix A (1024 × 1024) with
  block k of the hidden features H (1024 × 128), the first call's result, is added.  At k = 9 the output block i is
  written: `acc · W + b` with the 128 × 64 weights and the 1 × 64 bias, and no clamp.

  Over the extended reals the accumulator after the point at position n holds, at (r, f), the first n % 10 + 1 stretches
  of 1024 terms of  Σ_q A(1024·(n/10) + r, q) · H(q, f);  at k = 9 that is the whole sum, so the block written at
  position 10·i + 9 is block i of
        (p, j) ↦ Σ_k (Σ_q A(p, q) · H(q, k)) · W(k, j) + b(0, j),
  and the ten written blocks tile the result array.  The regrouping of a sum of 10240 terms into ten stretches, the
  block product read at an index and the rows and inner positions of a point are those of the first call's module.
-/
import proofs.«414079_j34359738415_1_alg».proof.Proof.Region1c
import proofs.«414079_j34359738415_1_alg».proof.Proof.KValue0

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

/-! ## The body's arithmetic at an index, over the extended reals -/

/-- The reset stores zero. -/
theorem pay1'_apply (r : Fin 1024) (f : Fin 128) : (k1_pay1 (F := Ideal) : S1024x128.Idx → EReal) (ix2 r f) = 0 := by
  unfold k1_pay1
  refine (congrFun (shapeCast_self _ _) (ix2 r f)).trans ?_
  exact Ideal.ofBits_zero_f32

/-- The accumulation step: the accumulator plus the block product. -/
theorem pay2'_apply (x0 : FVec Ideal S1024x1024 .bf16) (x1 : FVec Ideal S1024x128 .f32) (xs : FVec Ideal S1024x128 .f32) (r : Fin 1024) (f : Fin 128) :
    k1_pay2 x0 x1 xs (ix2 r f) = xs (ix2 r f) + ∑ q : Fin 1024, x0 (ix2 r q) * x1 (ix2 q f) := by
  unfold k1_pay2
  refine (congrFun (shapeCast_self _ _) (ix2 r f)).trans ?_
  refine (addf_apply _ _ _).trans ?_
  refine congrArg (xs (ix2 r f) + ·) ?_
  refine (matmulA_apply _ _ r f).trans ?_
  refine Finset.sum_congr rfl fun q _ => ?_
  refine congrArg₂ (· * ·) (congrFun (shapeCast_self x0 _) (ix2 r q)) ?_
  exact congrFun (shapeCast_self x1 _) (ix2 q f)

/-! ### The projection: a 1024 × 128 block times the 128 × 64 weights -/

theorem lhsP_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem lhsP_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
theorem rhsP_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
theorem rhsP_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

/-- The projection into a zero accumulator, at (r, f): the sum over the 128 features. -/
theorem matmulP_apply (a : FVec Ideal S1024x128 .bf16) (b : FVec Ideal S128x64 .bf16) (r : Fin 1024) (f : Fin 64) :
    matmul dot_S1024x128_S128x64_S1024x64_1_0_0_1_n_n none a b (constant S1024x64 .f32 0x00000000#32) (ix2 r f)
      = ∑ k : Fin 128, a (ix2 r k) * b (ix2 k f) := by
  refine (Ideal.matmul_constant_zero_apply dot_S1024x128_S128x64_S1024x64_1_0_0_1_n_n none a b (ix2 r f)).trans ?_
  rw [← Equiv.sum_comp (contrEquiv1 dot_S1024x128_S128x64_S1024x64_1_0_0_1_n_n 128 rfl rfl).symm]
  refine Finset.sum_congr rfl fun k _ => ?_
  have hk := contrEquiv1_symm_val dot_S1024x128_S128x64_S1024x64_1_0_0_1_n_n 128 rfl rfl k
  have el : dot_S1024x128_S128x64_S1024x64_1_0_0_1_n_n.lhsIdx (ix2 r f) ((contrEquiv1 dot_S1024x128_S128x64_S1024x64_1_0_0_1_n_n 128 rfl rfl).symm k) = ix2 r k := funext fun a => Fin.ext (by
    match a with
    | ⟨0, _⟩ => exact lhsP_0 _ _
    | ⟨1, _⟩ => exact (lhsP_1 _ _).trans hk)
  have er : dot_S1024x128_S128x64_S1024x64_1_0_0_1_n_n.rhsIdx (ix2 r f) ((contrEquiv1 dot_S1024x128_S128x64_S1024x64_1_0_0_1_n_n 128 rfl rfl).symm k) = ix2 k f := funext fun a => Fin.ext (by
    match a with
    | ⟨0, _⟩ => exact (rhsP_0 _ _).trans hk
    | ⟨1, _⟩ => exact rhsP_1 _ _)
  rw [el, er]

/-- The bias row broadcast down the 1024 rows. -/
theorem bias1_apply (b : FVec Ideal S1x64 .f32) (r : Fin 1024) (f : Fin 64) :
    broadcastTo S1024x64 (shapeCast S1x64 b shapeCasts_S1x64_S1x64) broadcasts_S1x64_S1024x64 (ix2 r f) = b (ix2 (0 : Fin 1) f) := by
  refine (broadcastTo_apply _ broadcasts_S1x64_S1024x64 (ix2 r f) (ix2 (0 : Fin 1) f) (fun a => ?_)).trans ?_
  · match a with
    | ⟨0, _⟩ => rfl
    | ⟨1, _⟩ => rfl
  · exact congrFun (shapeCast_self b _) _

/-- The output block: the accumulator times the weights, plus the bias. -/
theorem pay3'_apply (xa : FVec Ideal S1024x128 .f32) (w : FVec Ideal S128x64 .f32) (b : FVec Ideal S1x64 .f32) (r : Fin 1024) (f : Fin 64) :
    k1_pay3 xa w b (ix2 r f) = (∑ k : Fin 128, xa (ix2 r k) * w (ix2 k f)) + b (ix2 (0 : Fin 1) f) := by
  unfold k1_pay3
  refine (addf_apply _ _ _).trans ?_
  refine congrArg₂ (· + ·) ?_ (bias1_apply b r f)
  exact matmulP_apply _ _ r f

section Pieces1

variable {F : FTy → Type} [FloatOps F]
variable (V : (c : Dev nD) → (b : Ref sig .tc) → Buf (Elt F) ((c : Thread nD τ).loc b))

/-- The accumulator's buffer, holding `xs`, reads `xs`. -/
theorem read_acc1 (h : (scM1 : Memref sig .tc .vmem S1024x128 .f32).IsWhole) (xs : Vec F S1024x128 .f32) :
    View.read (Elt F) (View.whole cc1_scratch0) (h.unread xs) = xs := h.read_unread xs

theorem accB1_eq (c : Dev nD) (t : Fin cfg1.N) (h0 : ¬cond1_0 (grid1.coords t)) (h1 : ¬cond1_1 (grid1.coords t)) (xs : Vec F S1024x128 .f32) :
    accB1 V c t h0 h1 xs = k1_pay2 (iblk1 V c 0 t) (iblk1 V c 1 t) xs := by
  unfold accB1
  rw [View.read_writes_eq_canon _ _ _ (coverB1 V c t h0 h1 xs)]
  unfold kernelRun1_B
  dsimp only
  sl_unfold_words
  rw [View.canon_unit_zero hz0]
  simp only [View.readAt_eq_ld, Memref.IsWhole.read_unread, read_acc1, View.ld_unit_zero (S := S1024x128) hz0, View.ld_unit_zero (S := S1024x1024) hz0]

theorem accA1_eq (c : Dev nD) (t : Fin cfg1.N) (h0 : cond1_0 (grid1.coords t)) (h1 : ¬cond1_1 (grid1.coords t)) :
    accA1 V c t h0 h1 = k1_pay2 (iblk1 V c 0 t) (iblk1 V c 1 t) (k1_pay1 (F := F)) := by
  unfold accA1
  rw [View.read_writes_eq_canon _ _ _ (coverA1 V c t h0 h1)]
  unfold kernelRun1_A
  dsimp only
  sl_unfold_words
  rw [View.canon_cons_unit_zero (S := S1024x128) hz0, View.readCov_unit_zero (S := S1024x128) _ hz0]
  simp only [View.readAt_eq_ld, Memref.IsWhole.read_unread, read_acc1, View.ld_unit_zero (S := S1024x128) hz0, View.ld_unit_zero (S := S1024x1024) hz0]

theorem accC1_eq (c : Dev nD) (t : Fin cfg1.N) (h0 : ¬cond1_0 (grid1.coords t)) (h1 : cond1_1 (grid1.coords t)) (xs : Vec F S1024x128 .f32) :
    accC1 V c t h0 h1 xs = k1_pay2 (iblk1 V c 0 t) (iblk1 V c 1 t) xs := by
  unfold accC1
  rw [View.read_writes_eq_canon _ _ _ (coverCs1 V c t h0 h1 xs)]
  unfold kernelRun1_C
  dsimp only
  sl_unfold_words
  rw [View.canon_unit_zero hz0]
  simp only [View.readAt_eq_ld, Memref.IsWhole.read_unread, read_acc1, View.ld_unit_zero (S := S1024x128) hz0, View.ld_unit_zero (S := S1024x1024) hz0]

theorem outC1_eq (c : Dev nD) (t : Fin cfg1.N) (h0 : ¬cond1_0 (grid1.coords t)) (h1 : cond1_1 (grid1.coords t)) (xs : Vec F S1024x128 .f32) :
    outC1 V c t h0 h1 xs = k1_pay3 (k1_pay2 (iblk1 V c 0 t) (iblk1 V c 1 t) xs) (iblk1 V c 2 t) (iblk1 V c 3 t) := by
  unfold outC1
  rw [View.read_writes_eq_canon _ _ _ (coverCo1 V c t h0 h1 xs)]
  unfold kernelRun1_C
  dsimp only
  sl_unfold_words
  rw [View.canon_unit_zero hz0]
  simp only [View.readAt_eq_ld, Memref.IsWhole.read_unread, read_acc1, View.readCov_unit_zero (S := S1024x128) _ hz0, View.ld_unit_zero (S := S1024x128) hz0, View.ld_unit_zero (S := S1024x1024) hz0, View.ld_unit_zero (S := S128x64) hz0, View.ld_unit_zero (S := S1x64) hz0]

end Pieces1

section Blocks1

variable {F : FTy → Type} [FloatOps F]
variable (V : (c : Dev nD) → (b : Ref sig .tc) → Buf (Elt F) ((c : Thread nD τ).loc b))

/-- The block indices of the five windows at a point, decided over the grid: the point at position `t` is row block
    `t / 10` and inner block `t % 10`. -/
theorem idx_facts1 : ∀ t : Fin cfg1.N, win1_0.index t (0 : Fin 2) = t.val / 10 ∧ win1_0.index t (1 : Fin 2) = t.val % 10
    ∧ win1_1.index t (0 : Fin 2) = t.val % 10 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 10 ∧ win1_4.index t (1 : Fin 2) = 0 :=
  (by decide +kernel : ∀ t : Fin grid1.N, _)

/-- The hidden features, the second weights and the second bias as the call finds them, at their literal types. -/
abbrev arrH (c : Dev nD) : Vec F S10240x128 .f32 := V c main_v44
abbrev arrW1 (c : Dev nD) : Vec F S128x64 .f32 := V c main_arg5
abbrev arrB1 (c : Dev nD) : Vec F S1x64 .f32 := V c main_v45

theorem blkA1_apply (c : Dev nD) (t : Fin cfg1.N) (r q : Fin 1024) :
    (iblk1 V c 0 t : Vec F S1024x1024 .bf16) (ix2 r q) = arrA V c (ix2 (rowAt t.val r) (colAt t.val q)) := by
  have hN : t.val < 100 := lt_of_lt_of_eq t.isLt (show cfg1.N = 100 from N_1)
  obtain ⟨e0, e1, -⟩ := idx_facts1 t
  unfold iblk1
  rw [View.read_apply]
  show arrA V c _ = arrA V c _
  refine congrArg (arrA V c) (funext fun a => Fin.ext ?_)
  match a with
  | ⟨0, _⟩ => show win1_0.index t (0 : Fin 2) * 1024 + 1 * r.val = 1024 * (t.val / 10 % 10) + r.val; rw [e0]; omega
  | ⟨1, _⟩ => show win1_0.index t (1 : Fin 2) * 1024 + 1 * q.val = 1024 * (t.val % 10) + q.val; rw [e1]; omega

theorem blkH_apply (c : Dev nD) (t : Fin cfg1.N) (q : Fin 1024) (f : Fin 128) :
    (iblk1 V c 1 t : Vec F S1024x128 .f32) (ix2 q f) = arrH V c (ix2 (colAt t.val q) f) := by
  obtain ⟨-, -, e0, e1, -⟩ := idx_facts1 t
  unfold iblk1
  rw [View.read_apply]
  show arrH V c _ = arrH V c _
  refine congrArg (arrH V c) (funext fun a => Fin.ext ?_)
  match a with
  | ⟨0, _⟩ => show win1_1.index t (0 : Fin 2) * 1024 + 1 * q.val = 1024 * (t.val % 10) + q.val; rw [e0]; omega
  | ⟨1, _⟩ => show win1_1.index t (1 : Fin 2) * 128 + 1 * f.val = f.val; rw [e1]; omega

theorem blkW1_apply (c : Dev nD) (t : Fin cfg1.N) (k : Fin 128) (f : Fin 64) :
    (iblk1 V c 2 t : Vec F S128x64 .f32) (ix2 k f) = arrW1 V c (ix2 k f) := by
  obtain ⟨-, -, -, -, e0, e1, -⟩ := idx_facts1 t
  unfold iblk1
  rw [View.read_apply]
  show arrW1 V c _ = arrW1 V c _
  refine congrArg (arrW1 V c) (funext fun a => Fin.ext ?_)
  match a with
  | ⟨0, _⟩ => show win1_2.index t (0 : Fin 2) * 128 + 1 * k.val = k.val; rw [e0]; omega
  | ⟨1, _⟩ => show win1_2.index t (1 : Fin 2) * 64 + 1 * f.val = f.val; rw [e1]; omega

theorem blkB1_apply (c : Dev nD) (t : Fin cfg1.N) (f : Fin 64) :
    (iblk1 V c 3 t : Vec F S1x64 .f32) (ix2 (0 : Fin 1) f) = arrB1 V c (ix2 (0 : Fin 1) f) := by
  obtain ⟨-, -, -, -, -, -, e0, e1, -⟩ := idx_facts1 t
  unfold iblk1
  rw [View.read_apply]
  show arrB1 V c _ = arrB1 V c _
  refine congrArg (arrB1 V c) (funext fun a => Fin.ext ?_)
  match a with
  | ⟨0, _⟩ => show win1_3.index t (0 : Fin 2) * 1 + 1 * (0 : Fin 1).val = (0 : Fin 1).val; rw [e0]; rfl
  | ⟨1, _⟩ => show win1_3.index t (1 : Fin 2) * 64 + 1 * f.val = f.val; rw [e1]; omega

end Blocks1

section Invariant1

variable (V : (c : Dev nD) → (b : Ref sig .tc) → Buf (Elt Ideal) ((c : Thread nD τ).loc b))

/-- The products whose sum over `q` is entry (p, f) of the aggregated hidden features. -/
def prodAH (c : Dev nD) (p : Fin 10240) (f : Fin 128) : Fin 10240 → EReal :=
  fun q => (arrA V c (ix2 p q) : EReal) * (arrH V c (ix2 q f) : EReal)

/-- One accumulation step at the point at position `t`: the accumulator gains the stretch `t % 10` of row `rowAt t r`. -/
theorem step1_eq (c : Dev nD) (t : Fin cfg1.N) (xs : FVec Ideal S1024x128 .f32) (r : Fin 1024) (f : Fin 128) :
    k1_pay2 (iblk1 V c 0 t) (iblk1 V c 1 t) xs (ix2 r f)
      = xs (ix2 r f) + stretch (prodAH V c (rowAt t.val r) f) (t.val % 10) := by
  refine (pay2'_apply (iblk1 V c 0 t) (iblk1 V c 1 t) xs r f).trans ?_
  refine congrArg (xs (ix2 r f) + ·) ?_
  rw [stretch_of_lt _ _ (Nat.mod_lt _ (by decide))]
  refine Finset.sum_congr rfl fun q _ => ?_
  exact congrArg₂ (· * ·) (blkA1_apply V c t r q) (blkH_apply V c t q f)

/-- A reset point leaves the first stretch alone. -/
theorem acc1_reset (c : Dev nD) (t : Fin cfg1.N) (h0 : t.val % 10 = 0) (r : Fin 1024) (f : Fin 128) :
    ((outsAt1 V c t.val t.isLt).2 : FVec Ideal S1024x128 .f32) (ix2 r f)
      = ∑ k ∈ Finset.range (t.val % 10 + 1), stretch (prodAH V c (rowAt t.val r) f) k := by
  rw [outsAt1_A V c t h0]; dsimp only
  refine (congrFun (accA1_eq V c t ((hcond1_0 t).mpr h0) (fun h => (fun h => by omega) ((hcond1_1 t).mp h))) (ix2 r f)).trans ?_
  refine (step1_eq V c t (k1_pay1 (F := Ideal)) r f).trans ?_
  rw [pay1'_apply, zero_add, h0, Finset.sum_range_one]

/-- THE INVARIANT: after the point at position `n`, in inner block `n % 10` of its row block, the accumulator
    holds the first `n % 10 + 1` stretches of each of its rows' sums. -/
theorem acc1_eq (c : Dev nD) : ∀ (n : ℕ) (hn : n < cfg1.N) (r : Fin 1024) (f : Fin 128),
    ((outsAt1 V c n hn).2 : FVec Ideal S1024x128 .f32) (ix2 r f)
      = ∑ k ∈ Finset.range (n % 10 + 1), stretch (prodAH V c (rowAt n r) f) k := by
  intro n
  induction n with
  | zero => intro hn r f; exact acc1_reset V c ⟨0, hn⟩ rfl r f
  | succ n ih =>
    intro hn r f
    by_cases h0 : (n + 1) % 10 = 0
    · exact acc1_reset V c ⟨n + 1, hn⟩ h0 r f
    · have e1 : n % 10 + 1 = (n + 1) % 10 := by omega
      have e2 : rowAt n r = rowAt (n + 1) r := Fin.ext (by
        show 1024 * (n / 10 % 10) + r.val = 1024 * ((n + 1) / 10 % 10) + r.val
        omega)
      have hprev := ih (Nat.lt_of_succ_lt hn) r f
      rw [e1, e2] at hprev
      by_cases h1 : (n + 1) % 10 = 9
      · rw [outsAt1_C V c ⟨n + 1, hn⟩ h0 h1]; dsimp only
        refine (congrFun (accC1_eq V c ⟨n + 1, hn⟩ (fun h => h0 ((hcond1_0 ⟨n + 1, hn⟩).mp h)) ((hcond1_1 ⟨n + 1, hn⟩).mpr h1) _) (ix2 r f)).trans ?_
        refine (step1_eq V c ⟨n + 1, hn⟩ _ r f).trans ?_
        rw [Finset.sum_range_succ]
        exact congrArg (· + _) hprev
      · rw [outsAt1_B V c ⟨n + 1, hn⟩ h0 h1]; dsimp only
        refine (congrFun (accB1_eq V c ⟨n + 1, hn⟩ (fun h => h0 ((hcond1_0 ⟨n + 1, hn⟩).mp h)) (fun h => h1 ((hcond1_1 ⟨n + 1, hn⟩).mp h)) _) (ix2 r f)).trans ?_
        refine (step1_eq V c ⟨n + 1, hn⟩ _ r f).trans ?_
        rw [Finset.sum_range_succ]
        exact congrArg (· + _) hprev

end Invariant1

section Result1

variable (V : (c : Dev nD) → (b : Ref sig .tc) → Buf (Elt Ideal) ((c : Thread nD τ).loc b))

/-- At the last inner block the accumulator holds the whole sum. -/
theorem acc1_full (c : Dev nD) (t : Fin cfg1.N) (h9 : t.val % 10 = 9) (r : Fin 1024) (k : Fin 128) :
    ((outsAt1 V c t.val t.isLt).2 : FVec Ideal S1024x128 .f32) (ix2 r k) = ∑ q : Fin 10240, prodAH V c (rowAt t.val r) k q :=
  (acc1_eq V c t.val t.isLt r k).trans
    ((Finset.sum_congr (by rw [h9]) fun _ _ => rfl).trans (sum_stretch (prodAH V c (rowAt t.val r) k)))

/-- The call's result at (p, j): the aggregated hidden features times the weights, plus the bias. -/
def layer1 (c : Dev nD) (p : Fin 10240) (j : Fin 64) : EReal :=
  (∑ k : Fin 128, (∑ q : Fin 10240, (arrA V c (ix2 p q) : EReal) * (arrH V c (ix2 q k) : EReal)) * (arrW1 V c (ix2 k j) : EReal))
    + (arrB1 V c (ix2 (0 : Fin 1) j) : EReal)

/-- The output block a point with inner block 9 writes. -/
theorem out1_apply (c : Dev nD) (t : Fin cfg1.N) (h0 : ¬t.val % 10 = 0) (h9 : t.val % 10 = 9) (r : Fin 1024) (f : Fin 64) :
    ((outsAt1 V c t.val t.isLt).1 : FVec Ideal S1024x64 .f32) (ix2 r f) = layer1 V c (rowAt t.val r) f := by
  have hacc : ∀ k : Fin 128, k1_pay2 (iblk1 V c 0 t) (iblk1 V c 1 t) (outsAt1 V c (t.val - 1) (Nat.lt_of_le_of_lt (Nat.sub_le _ _) t.isLt)).2 (ix2 r k)
      = ∑ q : Fin 10240, prodAH V c (rowAt t.val r) k q := by
    intro k
    have h := acc1_full V c t h9 r k
    rw [outsAt1_C V c t h0 h9] at h; dsimp only at h
    exact (congrFun (accC1_eq V c t (fun h => h0 ((hcond1_0 t).mp h)) ((hcond1_1 t).mpr h9) _) (ix2 r k)).symm.trans h
  rw [outsAt1_C V c t h0 h9]; dsimp only
  refine (congrFun (outC1_eq V c t (fun h => h0 ((hcond1_0 t).mp h)) ((hcond1_1 t).mpr h9) _) (ix2 r f)).trans ?_
  refine (pay3'_apply _ (iblk1 V c 2 t) (iblk1 V c 3 t) r f).trans ?_
  unfold layer1
  exact congrArg₂ (· + ·) (Finset.sum_congr rfl fun k _ => congrArg₂ (· * ·) (hacc k) (blkW1_apply V c t k f)) (blkB1_apply V c t f)

/-- The whole result array. -/
abbrev G1 (c : Dev nD) : S10240x64.Idx → EReal := fun i => layer1 V c (i 0) (i 1)

theorem flushed_eq1 (c : Dev nD) (t : Fin cfg1.N) (hf : (cfg1.win 4).flush t = true) :
    (dat1 V c).flushed 4 t = ((cfg1.win 4).blk t).view.read (Elt Ideal) (G1 V c) := by
  have h9 : t.val % 10 = 9 := (flush1_4 t).mp hf
  have h0 : ¬t.val % 10 = 0 := by omega
  have hN : t.val < 100 := lt_of_lt_of_eq t.isLt (show cfg1.N = 100 from N_1)
  obtain ⟨-, -, -, -, -, -, -, -, e0, e1⟩ := idx_facts1 t
  show (cfg1.win 4).cut (grid1.coords t) ((dat1 V c).after 4 t) = _
  rw [after1_4]
  funext j
  obtain ⟨r, f, rfl⟩ : ∃ (r : Fin 1024) (f : Fin 64), j = ix2 r f := ⟨j 0, j 1, eq_ix2 j⟩
  rw [View.read_apply]
  refine (out1_apply V c t h0 h9 r f).trans ?_
  show layer1 V c (rowAt t.val r) f = layer1 V c ((((cfg1.win 4).blk t).view.emb (ix2 r f)) 0) ((((cfg1.win 4).blk t).view.emb (ix2 r f)) 1)
  refine congrArg₂ (layer1 V c) (Fin.ext ?_) (Fin.ext ?_)
  · show 1024 * (t.val / 10 % 10) + r.val = win1_4.index t (0 : Fin 2) * 1024 + 1 * r.val
    rw [e0]; omega
  · show f.val = win1_4.index t (1 : Fin 2) * 64 + 1 * f.val
    rw [e1]; omega

/-- An index of the result array is in the block of the point at position `t` iff each coordinate is in the block's range. -/
theorem mem_blk1 (t : Fin cfg1.N) (i : S10240x64.Idx) :
    i ∈ ((cfg1.win 4).blk t).view.set ↔ ∀ a : Fin 2, win1_4.index t a * S1024x64.size a ≤ (i a).val ∧ (i a).val < win1_4.index t a * S1024x64.size a + S1024x64.size a := by
  show i ∈ ((View.whole main_v46).slice (win1_4.rect t)).set ↔ _
  rw [View.set_slice_whole, Rect.mem_set_unit]
  exact Iff.rfl

/-- Every index of the result array is written: row `p` by the last point of row block `p / 1024`. -/
theorem cover1 (i : S10240x64.Idx) : ∃ t : Fin cfg1.N, (cfg1.win 4).flush t = true ∧ i ∈ ((cfg1.win 4).blk t).view.set := by
  have hi0 : (i 0).val < 10240 := (i 0).isLt
  have hi1 : (i 1).val < 64 := (i 1).isLt
  have hlt : 10 * ((i 0).val / 1024) + 9 < cfg1.N := lt_of_lt_of_eq (by omega : 10 * ((i 0).val / 1024) + 9 < 100) (show cfg1.N = 100 from N_1).symm
  obtain ⟨-, -, -, -, -, -, -, -, e0, e1⟩ := idx_facts1 ⟨10 * ((i 0).val / 1024) + 9, hlt⟩
  refine ⟨⟨10 * ((i 0).val / 1024) + 9, hlt⟩, (flush1_4 _).mpr (by show (10 * ((i 0).val / 1024) + 9) % 10 = 9; omega), ?_⟩
  rw [mem_blk1]
  intro a
  match a with
  | ⟨0, _⟩ =>
    show win1_4.index ⟨10 * ((i 0).val / 1024) + 9, hlt⟩ (0 : Fin 2) * 1024 ≤ (i 0).val ∧ (i 0).val < win1_4.index ⟨10 * ((i 0).val / 1024) + 9, hlt⟩ (0 : Fin 2) * 1024 + 1024
    rw [e0]; show (10 * ((i 0).val / 1024) + 9) / 10 * 1024 ≤ (i 0).val ∧ (i 0).val < (10 * ((i 0).val / 1024) + 9) / 10 * 1024 + 1024
    omega
  | ⟨1, _⟩ =>
    show win1_4.index ⟨10 * ((i 0).val / 1024) + 9, hlt⟩ (1 : Fin 2) * 64 ≤ (i 1).val ∧ (i 1).val < win1_4.index ⟨10 * ((i 0).val / 1024) + 9, hlt⟩ (1 : Fin 2) * 64 + 64
    rw [e1]; omega

/-- The result array after the call. -/
theorem final1 (c : Dev nD) : (dat1 V c).arrAt 4 cfg1.N = G1 V c :=
  (dat1 V c).arrAt_eq_of_cover 4 (G1 V c) (fun t hf => flushed_eq1 V c t hf) cover1

/-- The result array after the call, at its literal type. -/
abbrev res1 (c : Dev nD) : Vec Ideal S10240x64 .f32 := (dat1 V c).arrAt 4 cfg1.N

/-- WHAT THE SECOND CALL LEAVES IN ITS RESULT ARRAY, entry by entry: with A the normalised adjacency matrix, H the
    hidden features, W the weights and b the bias as the call finds them, `(A·H)·W + b` at (p, j). -/
theorem layer1_value (c : Dev nD) (p : Fin 10240) (j : Fin 64) :
    (res1 V c (ix2 p j) : EReal)
      = (∑ k : Fin 128, (∑ q : Fin 10240, (arrA V c (ix2 p q) : EReal) * (arrH V c (ix2 q k) : EReal)) * (arrW1 V c (ix2 k j) : EReal))
        + (arrB1 V c (ix2 (0 : Fin 1) j) : EReal) :=
  congrFun (final1 V c) (ix2 p j)

end Result1

end Cert.KernelIdeal.Hand
-- ==== Proof.RefImports.lean ====
/- The reference program's generated run and its read-at-an-index lemmas, gathered under one import. -/
import proofs.«414079_j34359738415_1_alg».proof.Proof.Gen.ReferenceIdeal.Run
import proofs.«414079_j34359738415_1_alg».proof.Proof.Gen.ReferenceIdeal.Read
-- ==== Proof.RefValue.lean ====
/-
  The reference program's result, read at a node and an output column, is the edge form of the two-layer graph
  convolution: every stage of the program is read at an index, bottom-up, and the stages are then composed.
-/
import proofs.«414079_j34359738415_1_alg».proof.Proof.RefImports
import proofs.«414079_j34359738415_1_alg».proof.Proof.Spec
import proofs.«414079_j34359738415_1_alg».proof.Proof.LibScatterRead
import Idealize.ShloMosaic.Lib.ValueIdx
import Idealize.ShloMosaic.Lib.Pipeline.Value
import Idealize.ShloMosaic.PureOps.Ideal.Laws
import Idealize.ShloMosaic.Lib.StableHlo.Predicate

noncomputable section

namespace Cert.RefValue

open Idealize.ShloMosaic Idealize.ShloMosaic.ValueIdx Cert.ReferenceIdeal Cert.ReferenceIdeal.Read

/-! ## Constants and index words -/

/-- The pattern of `1.0` denotes the extended real `1`. -/
theorem ofBits_one : Ideal.ofBits .f32 0x3F800000#32 = 1 := by
  simp [Ideal.ofBits, Ideal.ieee, -EReal.coe_mul]; norm_num

/-- An index array whose words are small naturals `t e` selects, read signed against `a`, the edges with `t e = a`. -/
theorem filter_word {E n : ℕ} (hn : n ≤ 2 ^ 31) (w : IVec ⟨2, ![E, 1]⟩ 32) (t : Fin E → Fin n)
    (hw : ∀ e : Fin E, w (ix2 e (0 : Fin 1)) = BitVec.ofNat 32 (t e).val) (a : Fin n) :
    Finset.univ.filter (fun e : Fin E => (w (ix2 e (0 : Fin 1))).toInt = (a.val : ℤ))
      = Finset.univ.filter (fun e : Fin E => t e = a) := by
  apply Finset.filter_congr
  intro e _
  rw [hw e, StableHlo.Predicate.toInt_ofNat_small _ (lt_of_lt_of_le (t e).isLt hn)]
  constructor
  · intro h; exact Fin.ext (by exact_mod_cast h)
  · intro h; rw [h]

/-! ## Degree counts and normalisations

The reshaped index arrays read an edge's word; a scatter-add of ones from zeros is a count. -/

abbrev EdgeW := (⟨S640000, .i32⟩ : BufTy).Contents (Elt Ideal)

/-- The `[E]` to `[E, 1]` reshaping reads the edge's word. -/
theorem idx_E1 (e : Fin 640000) : idx_main_v2 (ix2 e (0 : Fin 1)) = ix1 e := by
  funext b; match b with | ⟨0, _⟩ => rfl

/-- The vectors of ones read `1`, the vectors of zeros read `0`. -/
theorem v0_at (i : S640000.Idx) : val_main_v0 (F := Ideal) i = 1 := by
  rw [val_main_v0_apply, val_main_cst_apply]; exact ofBits_one
theorem v32_at (i : S640000.Idx) : val_main_v32 (F := Ideal) i = 1 := by
  rw [val_main_v32_apply, val_main_cst_6_apply]; exact ofBits_one
theorem v1_at (i : S10000.Idx) : val_main_v1 (F := Ideal) i = 0 := by
  rw [val_main_v1_apply, val_main_cst_0_apply]; exact Ideal.ofBits_zero_f32
theorem v5_at (i : S10000.Idx) : val_main_v5 (F := Ideal) i = 0 := by
  rw [val_main_v5_apply, val_main_cst_2_apply]; exact Ideal.ofBits_zero_f32
theorem v33_at (i : S10000.Idx) : val_main_v33 (F := Ideal) i = 0 := by
  rw [val_main_v33_apply, val_main_cst_7_apply]; exact Ideal.ofBits_zero_f32
theorem v37_at (i : S10000.Idx) : val_main_v37 (F := Ideal) i = 0 := by
  rw [val_main_v37_apply, val_main_cst_9_apply]; exact Ideal.ofBits_zero_f32

/-- The reshaped index arrays at an edge. -/
theorem v2_at (x1 : EdgeW) (e : Fin 640000) : val_main_v2 (F := Ideal) x1 (ix2 e (0 : Fin 1)) = x1 (ix1 e) := by
  rw [val_main_v2_apply]; exact congrArg x1 (idx_E1 e)
theorem v6_at (x2 : EdgeW) (e : Fin 640000) : val_main_v6 (F := Ideal) x2 (ix2 e (0 : Fin 1)) = x2 (ix1 e) := by
  rw [val_main_v6_apply]; exact congrArg x2 (idx_E1 e)
theorem v21_at (x2 : EdgeW) (e : Fin 640000) : val_main_v21 (F := Ideal) x2 (ix2 e (0 : Fin 1)) = x2 (ix1 e) := by
  rw [val_main_v21_apply]; exact congrArg x2 (idx_E1 e)
theorem v34_at (x1 : EdgeW) (e : Fin 640000) : val_main_v34 (F := Ideal) x1 (ix2 e (0 : Fin 1)) = x1 (ix1 e) := by
  rw [val_main_v34_apply]; exact congrArg x1 (idx_E1 e)
theorem v38_at (x2 : EdgeW) (e : Fin 640000) : val_main_v38 (F := Ideal) x2 (ix2 e (0 : Fin 1)) = x2 (ix1 e) := by
  rw [val_main_v38_apply]; exact congrArg x2 (idx_E1 e)
theorem v53_at (x2 : EdgeW) (e : Fin 640000) : val_main_v53 (F := Ideal) x2 (ix2 e (0 : Fin 1)) = x2 (ix1 e) := by
  rw [val_main_v53_apply]; exact congrArg x2 (idx_E1 e)

/-- A scatter-add of ones into zeros counts, at node `a`, the edges whose index word names `a`. -/
theorem count_scatter (z : (⟨S10000, .f32⟩ : BufTy).Contents (Elt Ideal))
    (w : (⟨S640000x1, .i32⟩ : BufTy).Contents (Elt Ideal)) (o : (⟨S640000, .f32⟩ : BufTy).Contents (Elt Ideal))
    (hz : ∀ i, z i = 0) (ho : ∀ i, o i = 1) (t : Fin 640000 → Fin 10000)
    (hw : ∀ e : Fin 640000, w (ix2 e (0 : Fin 1)) = BitVec.ofNat 32 (t e).val) (a : Fin 10000) :
    Host.scatterAdd (F := Ideal) (φ := .f32) scatter_S10000_S640000x1_S640000_n_0_0_1 z w o (ix1 a)
      = ∑ e ∈ Finset.univ.filter (fun e => t e = a), (1 : EReal) := by
  rw [ScatterRead.scatterAdd_vec_apply _ rfl rfl rfl rfl, filter_word (by norm_num) w t hw a, hz, zero_add]
  exact Finset.sum_congr rfl fun e _ => ho _

section Stages

variable (x1 x2 : EdgeW) (s d : Fin 640000 → Fin 10000)
  (hs : ∀ e : Fin 640000, x1 (ix1 e) = BitVec.ofNat 32 (s e).val)
  (hd : ∀ e : Fin 640000, x2 (ix1 e) = BitVec.ofNat 32 (d e).val)

include hs in
/-- The out-degree count, first and second layer. -/
theorem v3_at (a : Fin 10000) : val_main_v3 (F := Ideal) x1 (ix1 a) = Cert.Spec.outCount s a :=
  count_scatter _ _ _ v1_at v0_at s (fun e => (v2_at x1 e).trans (hs e)) a
include hs in
theorem v35_at (a : Fin 10000) : val_main_v35 (F := Ideal) x1 (ix1 a) = Cert.Spec.outCount s a :=
  count_scatter _ _ _ v33_at v32_at s (fun e => (v34_at x1 e).trans (hs e)) a
include hd in
/-- The in-degree count, first and second layer. -/
theorem v7_at (a : Fin 10000) : val_main_v7 (F := Ideal) x2 (ix1 a) = Cert.Spec.inCount d a :=
  count_scatter _ _ _ v5_at v0_at d (fun e => (v6_at x2 e).trans (hd e)) a
include hd in
theorem v39_at (a : Fin 10000) : val_main_v39 (F := Ideal) x2 (ix1 a) = Cert.Spec.inCount d a :=
  count_scatter _ _ _ v37_at v32_at d (fun e => (v38_at x2 e).trans (hd e)) a

/-- The clip's lower bound reads `1`. -/
theorem call0_v1_at (i : S10000.Idx) : val_main_call0_v1 (F := Ideal) i = 1 := by
  rw [val_main_call0_v1_apply, val_main_call0_v0_apply, val_main_cst_1_apply]; exact ofBits_one
theorem call1_v1_at (i : S10000.Idx) : val_main_call1_v1 (F := Ideal) i = 1 := by
  rw [val_main_call1_v1_apply, val_main_call1_v0_apply, val_main_cst_3_apply]; exact ofBits_one
theorem call3_v1_at (i : S10000.Idx) : val_main_call3_v1 (F := Ideal) i = 1 := by
  rw [val_main_call3_v1_apply, val_main_call3_v0_apply, val_main_cst_8_apply]; exact ofBits_one
theorem call4_v1_at (i : S10000.Idx) : val_main_call4_v1 (F := Ideal) i = 1 := by
  rw [val_main_call4_v1_apply, val_main_call4_v0_apply, val_main_cst_10_apply]; exact ofBits_one

include hs in
/-- The source-side normalisation, first and second layer. -/
theorem v9_at (a : Fin 10000) : val_main_v9 (F := Ideal) x1 (ix1 a) = Cert.Spec.outNorm s a := by
  rw [val_main_v9_apply, val_main_v4_apply, call0_v1_at, v3_at x1 s hs a, Ideal.hostUnary_rsqrt_def, Ideal.maximumf_def, Cert.Spec.outNorm]
include hs in
theorem v41_at (a : Fin 10000) : val_main_v41 (F := Ideal) x1 (ix1 a) = Cert.Spec.outNorm s a := by
  rw [val_main_v41_apply, val_main_v36_apply, call3_v1_at, v35_at x1 s hs a, Ideal.hostUnary_rsqrt_def, Ideal.maximumf_def, Cert.Spec.outNorm]
include hd in
/-- The destination-side normalisation, first and second layer. -/
theorem v23_at (a : Fin 10000) : val_main_v23 (F := Ideal) x2 (ix1 a) = Cert.Spec.inNorm d a := by
  rw [val_main_v23_apply, val_main_v8_apply, call1_v1_at, v7_at x2 d hd a, Ideal.hostUnary_rsqrt_def, Ideal.maximumf_def, Cert.Spec.inNorm]
include hd in
theorem v55_at (a : Fin 10000) : val_main_v55 (F := Ideal) x2 (ix1 a) = Cert.Spec.inNorm d a := by
  rw [val_main_v55_apply, val_main_v40_apply, call4_v1_at, v39_at x2 d hd a, Ideal.hostUnary_rsqrt_def, Ideal.maximumf_def, Cert.Spec.inNorm]

/-- The broadcast of a node vector along the feature axis reads the node's entry. -/
theorem idx_row (a : Fin 10000) (k : Fin 128) : idx_main_v10 (idx_main_v11 (ix2 a k)) = ix1 a := by
  funext b; match b with | ⟨0, _⟩ => rfl

include hs in
theorem v11_at (a : Fin 10000) (k : Fin 128) : val_main_v11 (F := Ideal) x1 (ix2 a k) = Cert.Spec.outNorm s a := by
  rw [val_main_v11_apply, val_main_v10_apply, idx_row, v9_at x1 s hs a]
include hs in
theorem v43_at (a : Fin 10000) (k : Fin 128) : val_main_v43 (F := Ideal) x1 (ix2 a k) = Cert.Spec.outNorm s a := by
  rw [val_main_v43_apply, val_main_v42_apply]
  exact (congrArg (val_main_v41 (F := Ideal) x1) (idx_row a k)).trans (v41_at x1 s hs a)
include hd in
theorem v25_at (a : Fin 10000) (k : Fin 128) : val_main_v25 (F := Ideal) x2 (ix2 a k) = Cert.Spec.inNorm d a := by
  rw [val_main_v25_apply, val_main_v24_apply]
  exact (congrArg (val_main_v23 (F := Ideal) x2) (idx_row a k)).trans (v23_at x2 d hd a)
include hd in
theorem v57_at (a : Fin 10000) (k : Fin 128) : val_main_v57 (F := Ideal) x2 (ix2 a k) = Cert.Spec.inNorm d a := by
  rw [val_main_v57_apply, val_main_v56_apply]
  exact (congrArg (val_main_v55 (F := Ideal) x2) (idx_row a k)).trans (v55_at x2 d hd a)

/-! ## The gather's index words

The reference wraps a negative index by the number of nodes before it gathers; a word that is a node number is
not negative, so the wrapped index array is the edge's source word itself. -/

/-- A small natural, as a word, is not negative. -/
theorem word_not_neg (v : ℕ) (hv : v < 2 ^ 31) : IntOp.cmpi .slt (BitVec.ofNat 32 v) 0#32 = 0#1 := by
  apply eq_zero_of_ne_one
  intro h
  have h' := (StableHlo.Predicate.slt_iff_toNat (a := BitVec.ofNat 32 v) (b := 0#32)
    (by rw [BitVec.toNat_ofNat]; exact lt_of_le_of_lt (Nat.mod_le _ _) hv) (by decide)).mp h
  exact absurd h' (Nat.not_lt_zero _)

include hs in
theorem v17_at (e : Fin 640000) : val_main_v17 (F := Ideal) x1 (ix1 e) = x1 (ix1 e) := by
  rw [val_main_v17_apply, val_main_v14_apply, val_main_v13_apply, val_main_c_apply, hs e,
    word_not_neg _ (lt_trans (s e).isLt (by norm_num)), select_zero]
include hs in
theorem v49_at (e : Fin 640000) : val_main_v49 (F := Ideal) x1 (ix1 e) = x1 (ix1 e) := by
  rw [val_main_v49_apply, val_main_v46_apply, val_main_v45_apply, val_main_c_11_apply, hs e,
    word_not_neg _ (lt_trans (s e).isLt (by norm_num)), select_zero]

include hs in
theorem v18_at (e : Fin 640000) : val_main_v18 (F := Ideal) x1 (ix2 e (0 : Fin 1)) = BitVec.ofNat 32 (s e).val := by
  rw [val_main_v18_apply]
  exact (congrArg (val_main_v17 (F := Ideal) x1) (idx_E1 e)).trans ((v17_at x1 s hs e).trans (hs e))
include hs in
theorem v50_at (e : Fin 640000) : val_main_v50 (F := Ideal) x1 (ix2 e (0 : Fin 1)) = BitVec.ofNat 32 (s e).val := by
  rw [val_main_v50_apply]
  exact (congrArg (val_main_v49 (F := Ideal) x1) (idx_E1 e)).trans ((v49_at x1 s hs e).trans (hs e))

/-! ## Gathering the sources' rows and adding them up at the destinations -/

/-- The matrices of zeros read `0`. -/
theorem v20_at (i : S10000x128.Idx) : val_main_v20 (F := Ideal) i = 0 := by
  rw [val_main_v20_apply, val_main_cst_5_apply]; exact Ideal.ofBits_zero_f32
theorem v52_at (i : S10000x128.Idx) : val_main_v52 (F := Ideal) i = 0 := by
  rw [val_main_v52_apply, val_main_cst_13_apply]; exact Ideal.ofBits_zero_f32

/-- Gather the rows `h (s e)` over the edges, then scatter-add row `e` into row `d e` of zeros: row `a` ends as the
    sum of `h (s e)` over the edges entering `a`. -/
theorem gather_scatter (h z : (⟨S10000x128, .f32⟩ : BufTy).Contents (Elt Ideal))
    (wg ws : (⟨S640000x1, .i32⟩ : BufTy).Contents (Elt Ideal)) (hz : ∀ i, z i = 0)
    (s d : Fin 640000 → Fin 10000)
    (hwg : ∀ e : Fin 640000, wg (ix2 e (0 : Fin 1)) = BitVec.ofNat 32 (s e).val)
    (hws : ∀ e : Fin 640000, ws (ix2 e (0 : Fin 1)) = BitVec.ofNat 32 (d e).val)
    (a : Fin 10000) (k : Fin 128) :
    Host.scatterAdd (F := Ideal) (φ := .f32) scatter_S10000x128_S640000x1_S640000x128_1_0_0_1 z ws
        (Host.gather gather_S10000x128_S640000x1_S640000x128_1_0_n_n_0_1_1128 h wg) (ix2 a k)
      = ∑ e ∈ Finset.univ.filter (fun e => d e = a), h (ix2 (s e) k) := by
  rw [ScatterRead.scatterAdd_rows_apply _ rfl rfl rfl rfl, filter_word (by norm_num) ws d hws a, hz, zero_add]
  refine Finset.sum_congr rfl fun e _ => ?_
  exact ScatterRead.gather_rows_apply _ rfl rfl rfl rfl rfl rfl rfl h wg e k (s e)
    (by rw [hwg e]; exact StableHlo.Predicate.toInt_ofNat_small _ (lt_trans (s e).isLt (by norm_num)))

/-! ## The first layer -/

abbrev Feat := (⟨S10000x128, .f32⟩ : BufTy).Contents (Elt Ideal)

variable (x0 : Feat) (x3 : (⟨S128x128, .f32⟩ : BufTy).Contents (Elt Ideal)) (x4 : (⟨S128, .f32⟩ : BufTy).Contents (Elt Ideal))
  (x5 : (⟨S128x64, .f32⟩ : BufTy).Contents (Elt Ideal)) (x6 : (⟨S64, .f32⟩ : BufTy).Contents (Elt Ideal))

include hs in
/-- The features scaled by the source-side normalisation. -/
theorem v12_at (a : Fin 10000) (k : Fin 128) :
    val_main_v12 (F := Ideal) x0 x1 (ix2 a k) = x0 (ix2 a k) * Cert.Spec.outNorm s a := by
  rw [val_main_v12_apply, v11_at x1 s hs a k, Ideal.mulf_def]

include hs hd in
/-- The normalised sum over the entering edges. -/
theorem v26_at (a : Fin 10000) (k : Fin 128) :
    val_main_v26 (F := Ideal) x0 x1 x2 (ix2 a k) = Cert.Spec.refAgg s d (fun a k => x0 (ix2 a k)) a k := by
  rw [val_main_v26_apply, v25_at x2 d hd a k, Ideal.mulf_def]
  unfold val_main_v22 val_main_v19
  rw [gather_scatter _ _ _ _ v20_at s d (v18_at x1 s hs) (fun e => (v21_at x2 e).trans (hd e)) a k]
  unfold Cert.Spec.refAgg
  exact congrArg (· * Cert.Spec.inNorm d a) (Finset.sum_congr rfl fun e _ => v12_at x1 s hs x0 (s e) k)

/-- The operands of the product with the weights, at row `a`, column `j` and contraction index `k`. -/
theorem lidx27 (a : Fin 10000) (j k : Fin 128) : lidx_main_v27 (ix2 a j) k = ix2 a k := by
  funext b; match b with | ⟨0, _⟩ => rfl | ⟨1, _⟩ => rfl
theorem ridx27 (a : Fin 10000) (j k : Fin 128) : ridx_main_v27 (ix2 a j) k = ix2 k j := by
  funext b; match b with | ⟨0, _⟩ => rfl | ⟨1, _⟩ => rfl
/-- The bias, broadcast along the rows, reads its column's entry. -/
theorem idx_bias1 (a : Fin 10000) (j : Fin 128) : idx_main_v28 (idx_main_v29 (ix2 a j)) = ix1 j := by
  funext b; match b with | ⟨0, _⟩ => rfl

theorem v29_at (a : Fin 10000) (j : Fin 128) : val_main_v29 (F := Ideal) x4 (ix2 a j) = x4 (ix1 j) := by
  rw [val_main_v29_apply, val_main_v28_apply, idx_bias1]

include hs hd in
/-- The first layer before its activation. -/
theorem v30_at (a : Fin 10000) (j : Fin 128) :
    val_main_v30 (F := Ideal) x0 x1 x2 x3 x4 (ix2 a j)
      = Cert.Spec.refLayer s d (fun a k => x0 (ix2 a k)) (fun k j => x3 (ix2 k j)) (fun j => x4 (ix1 j)) a j := by
  rw [val_main_v30_apply, val_main_v27_apply, v29_at x4 a j, Ideal.addf_def]
  unfold Cert.Spec.refLayer
  refine congrArg (· + x4 (ix1 j)) (Finset.sum_congr rfl fun k _ => ?_)
  rw [lidx27, ridx27, v26_at x1 x2 s d hs hd x0 a k]

/-- The activation's zero matrix reads `0`. -/
theorem call2_v0_at (i : S10000x128.Idx) : val_main_call2_v0 (F := Ideal) i = 0 := by
  rw [val_main_call2_v0_apply, val_main_call2_cst_apply]; exact Ideal.ofBits_zero_f32

/-- The hidden features: the first layer under `max · 0`. -/
abbrev hidden (a : Fin 10000) (k : Fin 128) : EReal :=
  max (Cert.Spec.refLayer s d (fun a k => x0 (ix2 a k)) (fun k j => x3 (ix2 k j)) (fun j => x4 (ix1 j)) a k) 0

include hs hd in
theorem v31_at (a : Fin 10000) (j : Fin 128) :
    val_main_v31 (F := Ideal) x0 x1 x2 x3 x4 (ix2 a j) = hidden s d x0 x3 x4 a j := by
  rw [val_main_v31_apply, v30_at x1 x2 s d hs hd x0 x3 x4 a j, call2_v0_at, Ideal.maximumf_def]

/-! ## The second layer -/

include hs hd in
/-- The hidden features scaled by the source-side normalisation. -/
theorem v44_at (a : Fin 10000) (k : Fin 128) :
    val_main_v44 (F := Ideal) x0 x1 x2 x3 x4 (ix2 a k) = hidden s d x0 x3 x4 a k * Cert.Spec.outNorm s a := by
  rw [val_main_v44_apply, v31_at x1 x2 s d hs hd x0 x3 x4 a k, v43_at x1 s hs a k, Ideal.mulf_def]

include hs hd in
/-- The normalised sum over the entering edges. -/
theorem v58_at (a : Fin 10000) (k : Fin 128) :
    val_main_v58 (F := Ideal) x0 x1 x2 x3 x4 (ix2 a k) = Cert.Spec.refAgg s d (hidden s d x0 x3 x4) a k := by
  rw [val_main_v58_apply, v57_at x2 d hd a k, Ideal.mulf_def]
  unfold val_main_v54 val_main_v51
  rw [gather_scatter _ _ _ _ v52_at s d (v50_at x1 s hs) (fun e => (v53_at x2 e).trans (hd e)) a k]
  unfold Cert.Spec.refAgg
  exact congrArg (· * Cert.Spec.inNorm d a)
    (Finset.sum_congr rfl fun e _ => v44_at x1 x2 s d hs hd x0 x3 x4 (s e) k)

theorem lidx59 (a : Fin 10000) (j : Fin 64) (k : Fin 128) : lidx_main_v59 (ix2 a j) k = ix2 a k := by
  funext b; match b with | ⟨0, _⟩ => rfl | ⟨1, _⟩ => rfl
theorem ridx59 (a : Fin 10000) (j : Fin 64) (k : Fin 128) : ridx_main_v59 (ix2 a j) k = ix2 k j := by
  funext b; match b with | ⟨0, _⟩ => rfl | ⟨1, _⟩ => rfl
theorem idx_bias2 (a : Fin 10000) (j : Fin 64) : idx_main_v60 (idx_main_v61 (ix2 a j)) = ix1 j := by
  funext b; match b with | ⟨0, _⟩ => rfl

theorem v61_at (a : Fin 10000) (j : Fin 64) : val_main_v61 (F := Ideal) x6 (ix2 a j) = x6 (ix1 j) := by
  rw [val_main_v61_apply, val_main_v60_apply, idx_bias2]

include hs hd in
/-- The second layer, composed with the first. -/
theorem v62_at (a : Fin 10000) (j : Fin 64) :
    Cert.ReferenceIdeal.Read.val_main_v62 (F := Ideal) x0 x1 x2 x3 x4 x5 x6 (ix2 a j)
      = Cert.Spec.refOut s d (fun a k => x0 (ix2 a k)) (fun k j => x3 (ix2 k j)) (fun j => x4 (ix1 j))
          (fun k j => x5 (ix2 k j)) (fun j => x6 (ix1 j)) a j := by
  rw [val_main_v62_apply, val_main_v59_apply, v61_at x6 a j, Ideal.addf_def]
  unfold Cert.Spec.refOut Cert.Spec.refLayer
  refine congrArg (· + x6 (ix1 j)) (Finset.sum_congr rfl fun k _ => ?_)
  rw [lidx59, ridx59, v58_at x1 x2 s d hs hd x0 x3 x4 a k]
  rfl

end Stages

/-- The reference's result at node `a`, column `j`, is the edge form of the two layers, whenever the two index
    arrays hold the words of the edges' source and destination nodes. -/
theorem ref_value (x0 : (⟨S10000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal))
    (x5 : (⟨S128x64, .f32⟩ : BufTy).Contents (Elt Ideal)) (x6 : (⟨S64, .f32⟩ : BufTy).Contents (Elt Ideal))
    (s d : Fin 640000 → Fin 10000) (hs : ∀ e : Fin 640000, x1 (ix1 e) = BitVec.ofNat 32 (s e).val)
    (hd : ∀ e : Fin 640000, x2 (ix1 e) = BitVec.ofNat 32 (d e).val)
    (a : Fin 10000) (j : Fin 64) :
    Cert.ReferenceIdeal.Read.val_main_v62 (F := Ideal) x0 x1 x2 x3 x4 x5 x6 (ix2 a j)
      = Cert.Spec.refOut s d (fun a k => x0 (ix2 a k)) (fun k j => x3 (ix2 k j)) (fun j => x4 (ix1 j))
          (fun k j => x5 (ix2 k j)) (fun j => x6 (ix1 j)) a j :=
  v62_at x1 x2 s d hs hd x0 x3 x4 x5 x6 a j

end Cert.RefValue

end
-- ==== Proof.LibMaskedSelect.lean ====
/-
  General lemmas for a row-wise selection written as a masked sum, none of them about a particular program.

  * `broadcastTo_a1_ab_apply`: a column [a, 1] broadcast to [a, b] reads, at (p, c), the column's entry p — the
    keepdims form a per-row weight is spread over a row in.
  * `Host.reduce_andi_of_all`: a reduce by `and` from an initial 1 over an array of 1s is 1 (the converse of
    Lib/ReduceAll.lean's `Host.reduce_andi_eq_one`): how an in-range test that is true everywhere reads after `jnp.all`
    along an axis.
  * `toNat_lt_of_sge_slt`: a 32-bit word that compares signed ≥ 0 and signed < n (n below 2³¹) has unsigned value below n:
    what the two comparisons of an index-range precondition say of the word.
  * `eq_ofNat_of_toNat_lt`: such a word is the word of an index below n.
-/
import Idealize.ShloMosaic.Lib.ReduceAll
import Idealize.ShloMosaic.Lib.ValueIdx
import Idealize.ShloMosaic.Lib.Pipeline.Value
import Idealize.ShloMosaic.Lib.StableHlo.Predicate

namespace Idealize.ShloMosaic.MaskedSelect

open Idealize.ShloMosaic Idealize.ShloMosaic.ValueIdx

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_of_all f l _ ?_ (fun n hn => hl n (List.mem_cons_of_mem _ hn))
    show IntOp.andi init (f a) = 1#1
    rw [hi, hl a (List.mem_cons_self ..)]
    decide

/-- A `stablehlo.reduce` by `and` whose initial value is 1 and whose operand is 1 everywhere is 1 everywhere. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_of_all x _ _ hinit (fun i _ => hx i)

/-- A word that is signed ≥ 0 and signed < n, for n below 2³¹, is below n read unsigned. -/
theorem toNat_lt_of_sge_slt (v : BitVec 32) (n : ℕ) (hn : n < 2 ^ 31) (h0 : IntOp.cmpi .sge v 0#32 = 1#1)
    (h1 : IntOp.cmpi .slt v (BitVec.ofNat 32 n) = 1#1) : v.toNat < n := by
  simp only [IntOp.cmpi, StableHlo.Predicate.ofBool_eq_one_iff, BitVec.sle, BitVec.slt, decide_eq_true_eq] at h0 h1
  rw [StableHlo.Predicate.toInt_ofNat_small n hn] at h1
  have hz : (0#32 : BitVec 32).toInt = 0 := by decide
  rw [hz] at h0
  rw [BitVec.toInt_eq_toNat_cond] at h0 h1
  split at h0 <;> omega

/-- A word whose unsigned value is below n is the word of some index below n. -/
theorem eq_ofNat_of_toNat_lt (v : BitVec 32) (n : ℕ) (h : v.toNat < n) : ∃ e : Fin n, v = BitVec.ofNat 32 e.val :=
  ⟨⟨v.toNat, h⟩, BitVec.eq_of_toNat_eq (by rw [BitVec.toNat_ofNat]; exact (Nat.mod_eq_of_lt v.isLt).symm)⟩

end Idealize.ShloMosaic.MaskedSelect
-- ==== Proof.PreDecode.lean ====
/-
  The printed precondition, read back.

  The precondition is a conjunction of seven `all`s: for each of the five float arrays, `all(|x| < +∞)`; for each of the
  two index arrays, `all((v ≥ 0) ∧ (v < 10000))` with signed comparisons. It states that the conjunction is 1.

  * An extended real `x` with `max x (-x) < ⊤` is a real number (`isReal_of_abs_lt_top`): at `⊥` and at `⊤` that maximum
    is `⊤`. So each float array is real everywhere (`isReal_of_all`).
  * A 32-bit word that is signed ≥ 0 and signed < 10000 is the word of an index below 10000. So each index array is
    `e ↦ word (f e)` for a function `f` into `Fin 10000` (`inRange_of_all`).
  * `of_pre`: the seven facts from the precondition.
-/
import proofs.«414079_j34359738415_1_alg».proof.Pre_finite_inputs
import proofs.«414079_j34359738415_1_alg».proof.Proof.Spec
import proofs.«414079_j34359738415_1_alg».proof.Proof.LibMaskedSelect
import Idealize.ShloMosaic.Lib.ReduceAll
import Idealize.ShloMosaic.Lib.ValueIdx
import Idealize.ShloMosaic.Lib.StableHlo.Predicate
import Idealize.ShloMosaic.PureOps.Ideal

namespace Cert.PreDecode

open Idealize.ShloMosaic Idealize.ShloMosaic.ValueIdx
open Cert.Pre_finite_inputs (S_ S640000)

instance : Subsingleton S_.Idx := ⟨fun a b => funext fun d => d.elim0⟩

/-- An extended real whose absolute value `max x (-x)` is below `+∞` is a real number: at `⊥` and at `⊤` the
    absolute value is `⊤`. -/
theorem isReal_of_abs_lt_top (x : EReal) (h : max x (-x) < ⊤) : Cert.Spec.IsReal x := by
  induction x using EReal.rec with
  | bot => simp at h
  | coe r => exact ⟨r, rfl⟩
  | top => simp at h

/-- The bit pattern `0x7F800000` denotes `+∞`. -/
theorem ofBits_inf : Ideal.ofBits .f32 0x7F800000#32 = (⊤ : EReal) := by simp [Ideal.ofBits, Ideal.ieee]

/-- One element of the comparison `|a| < +∞` being 1 says that element of `a` is real. -/
theorem isReal_of_elem {s : Shape} (a : FVec Ideal s .f32) (hb : S_.BroadcastsInDim s (![] : Fin 0 → Fin s.rank)) (i : s.Idx)
    (h : cmpf .olt (Host.absf a) (broadcastInDim s ![] hb (constant S_ .f32 0x7F800000#32)) i = 1#1) :
    Cert.Spec.IsReal (a i) := by
  have h' : BitVec.ofBool (decide (max (a i) (-(a i)) < Ideal.ofBits .f32 0x7F800000#32)) = 1#1 := h
  rw [ofBits_inf, StableHlo.Predicate.ofBool_eq_one_iff, decide_eq_true_eq] at h'
  exact isReal_of_abs_lt_top _ h'

/-- `all(|a| < +∞)` being 1 says every element of `a` is real. -/
theorem isReal_of_all {s : Shape} {axes : List (Fin s.rank)} (a : FVec Ideal s .f32)
    (hb : S_.BroadcastsInDim s (![] : Fin 0 → Fin s.rank)) (hr : s.ReducesTo axes S_) (hu : 0 < S_.numel) (init : IVec S_ 1)
    (h : Host.reduce IntOp.andi (cmpf .olt (Host.absf a) (broadcastInDim s ![] hb (constant S_ .f32 0x7F800000#32))) init hr hu ix0
      = 1#1) (i : s.Idx) : Cert.Spec.IsReal (a i) :=
  isReal_of_elem a hb i (Host.reduce_andi_all _ init hr hu ix0 h i)

/-- One element of `(v ≥ 0) ∧ (v < n)` (signed) being 1 says that word is the word of an index below `n`. -/
theorem inRange_of_elem {s : Shape} (v : IVec s 32) (n : ℕ) (hn : n < 2 ^ 31)
    (hb : S_.BroadcastsInDim s (![] : Fin 0 → Fin s.rank)) (i : s.Idx)
    (h : andi (cmpi .sge v (broadcastInDim s ![] hb (constantI S_ 32 0#32)))
        (cmpi .slt v (broadcastInDim s ![] hb (constantI S_ 32 (BitVec.ofNat 32 n)))) i = 1#1) :
    ∃ e : Fin n, v i = BitVec.ofNat 32 e.val := by
  have h' : IntOp.andi (IntOp.cmpi .sge (v i) 0#32) (IntOp.cmpi .slt (v i) (BitVec.ofNat 32 n)) = 1#1 := h
  obtain ⟨h0, h1⟩ := IntOp.andi_eq_one.1 h'
  exact MaskedSelect.eq_ofNat_of_toNat_lt _ n (MaskedSelect.toNat_lt_of_sge_slt _ n hn h0 h1)

/-- `all((v ≥ 0) ∧ (v < n))` being 1 says every word of `v` is the word of an index below `n`. -/
theorem inRange_of_all {m : ℕ} {axes : List (Fin (⟨1, ![m]⟩ : Shape).rank)} (v : IVec ⟨1, ![m]⟩ 32) (n : ℕ) (hn : n < 2 ^ 31)
    (hb : S_.BroadcastsInDim (⟨1, ![m]⟩ : Shape) (![] : Fin 0 → Fin 1)) (hr : (⟨1, ![m]⟩ : Shape).ReducesTo axes S_)
    (hu : 0 < S_.numel) (init : IVec S_ 1)
    (h : Host.reduce IntOp.andi (andi (cmpi .sge v (broadcastInDim ⟨1, ![m]⟩ ![] hb (constantI S_ 32 0#32)))
        (cmpi .slt v (broadcastInDim ⟨1, ![m]⟩ ![] hb (constantI S_ 32 (BitVec.ofNat 32 n))))) init hr hu ix0 = 1#1) :
    ∃ f : Fin m → Fin n, ∀ e : Fin m, v (ix1 e) = BitVec.ofNat 32 (f e).val := by
  have key : ∀ e : Fin m, ∃ k : Fin n, v (ix1 e) = BitVec.ofNat 32 k.val := fun e =>
    inRange_of_elem v n hn hb (ix1 e) (Host.reduce_andi_all _ init hr hu ix0 h (ix1 e))
  choose f hf using key
  exact ⟨f, hf⟩

/-- A conjunction of two one-bit arrays that is 1 at an index has both conjuncts 1 there. -/
theorem andi_at {s : Shape} (x y : IVec s 1) (i : s.Idx) (h : andi x y i = 1#1) : x i = 1#1 ∧ y i = 1#1 :=
  IntOp.andi_eq_one.1 h

variable [Cert.Pre_finite_inputs.Facts]

/-- The precondition gives: the five float arrays are real everywhere, and the two index arrays are the words of
    functions into `Fin 10000`. -/
theorem of_pre (a0 : FVec Ideal Cert.Pre_finite_inputs.S10000x128 .f32) (a1 a2 : IVec Cert.Pre_finite_inputs.S640000 32) (a3 : FVec Ideal Cert.Pre_finite_inputs.S128x128 .f32) (a4 : FVec Ideal Cert.Pre_finite_inputs.S128 .f32) (a5 : FVec Ideal Cert.Pre_finite_inputs.S128x64 .f32) (a6 : FVec Ideal Cert.Pre_finite_inputs.S64 .f32)
    (h : Cert.Pre_finite_inputs.fn (F := Ideal) a0 a1 a2 a3 a4 a5 a6 = fun _ => 1#1) :
    (∀ i, Cert.Spec.IsReal (a0 i)) ∧ (∀ i, Cert.Spec.IsReal (a3 i)) ∧ (∀ i, Cert.Spec.IsReal (a4 i)) ∧ (∀ i, Cert.Spec.IsReal (a5 i)) ∧ (∀ i, Cert.Spec.IsReal (a6 i))
    ∧ (∃ s : Fin 640000 → Fin 10000, ∀ e : Fin 640000, a1 (ix1 e) = BitVec.ofNat 32 (s e).val)
    ∧ (∃ d : Fin 640000 → Fin 10000, ∀ e : Fin 640000, a2 (ix1 e) = BitVec.ofNat 32 (d e).val) := by
  have h0 := congrFun h ix0
  dsimp only [Cert.Pre_finite_inputs.fn] at h0
  dsimp only [Cert.Pre_finite_inputs.fn_part1] at h0
  dsimp only [Cert.Pre_finite_inputs.fn_part2] at h0
  obtain ⟨h0, h2⟩ := andi_at _ _ _ h0
  obtain ⟨h0, h1⟩ := andi_at _ _ _ h0
  obtain ⟨h0, h6⟩ := andi_at _ _ _ h0
  obtain ⟨h0, h5⟩ := andi_at _ _ _ h0
  obtain ⟨h0, h4⟩ := andi_at _ _ _ h0
  obtain ⟨h0, h3⟩ := andi_at _ _ _ h0
  exact ⟨isReal_of_all a0 _ _ _ _ h0, isReal_of_all a3 _ _ _ _ h3, isReal_of_all a4 _ _ _ _ h4, isReal_of_all a5 _ _ _ _ h5,
    isReal_of_all a6 _ _ _ _ h6, inRange_of_all a1 10000 (by norm_num) _ _ _ _ h1, inRange_of_all a2 10000 (by norm_num) _ _ _ _ h2⟩

end Cert.PreDecode
-- ==== Proof.SpecEq.lean ====
/-
  The dense form and the edge form of the two-layer graph convolution agree at every node, for real
  features, weights and biases.

  The argument has three parts.

  * Reals inside the extended reals.  The degree counts are finite sums of `1`, so they are real; the
    larger of `1` and a count is a real number at least `1`, and the inverse square root of a positive
    real is real.  Hence both normalisations are real.  Sums, products and maxima of reals are real, and a
    finite sum of coerced reals is the coercion of the real sum.

  * One layer.  Let `Y` have `nP` rows that agree with the real rows of `X` at the nodes (nothing is
    assumed of the rows past `nN`).  The column `q` of the count matrix is zero when `q` is past `nN`,
    because no edge has such a source, and zero times any extended real is zero: so the sum over the padded
    range collapses to the sum over the nodes.  At a node `a'` the entry is the number of edges `a' → a`;
    that number times the real `ι a * ω a' * X a'` is that real added once for every such edge, and
    regrouping the edges entering `a` by their source gives the edge form.

  * Two layers.  The first layers agree at every node and the edge form of a real input is real, so the
    inputs of the second layers (after `max · 0`) satisfy the hypotheses of the one-layer statement again.
-/
import proofs.«414079_j34359738415_1_alg».proof.Proof.Spec
import Mathlib.Data.EReal.Basic
import Mathlib.Algebra.BigOperators.Group.Finset.Basic
import Mathlib.Algebra.BigOperators.Ring.Finset
import Mathlib.Tactic.Ring

noncomputable section

namespace Cert.Spec

open Idealize.ShloMosaic

/-! ## Real numbers inside the extended reals -/

/-- A finite sum of coerced reals is the coercion of the real sum. -/
theorem coe_sum {α : Type*} (t : Finset α) (f : α → ℝ) :
    ((∑ i ∈ t, f i : ℝ) : EReal) = ∑ i ∈ t, (f i : EReal) := by
  classical
  induction t using Finset.induction_on with
  | empty => rw [Finset.sum_empty, Finset.sum_empty, EReal.coe_zero]
  | insert a t ha ih => rw [Finset.sum_insert ha, Finset.sum_insert ha, EReal.coe_add, ih]

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h
  · rw [h]; exact hx
  · rw [h]; exact hy

theorem IsReal.sum {α : Type*} (t : Finset α) (f : α → EReal) (h : ∀ i ∈ t, IsReal (f i)) :
    IsReal (∑ i ∈ t, f i) := by
  classical
  induction t using Finset.induction_on with
  | empty => rw [Finset.sum_empty]; exact isReal_zero
  | insert a t ha ih =>
    rw [Finset.sum_insert ha]
    exact (h a (Finset.mem_insert_self a t)).add
      (ih (fun i hi => h i (Finset.mem_insert_of_mem hi)))

/-- The inverse square root of the larger of `1` and a real number is real. -/
theorem isReal_rsqrt_max_one {x : EReal} (hx : IsReal x) : IsReal (Ideal.rsqrt (max 1 x)) := by
  obtain ⟨r, rfl⟩ := hx
  have hm : max (1 : EReal) (r : EReal) = ((max 1 r : ℝ) : EReal) :=
    (EReal.coe_strictMono.monotone.map_max (a := (1 : ℝ)) (b := r)).symm
  have ht : (0 : ℝ) < max 1 r := lt_of_lt_of_le one_pos (le_max_left 1 r)
  rw [hm, Ideal.rsqrt_coe, if_neg (not_lt.2 ht.le), if_neg ht.ne']
  exact isReal_coe _

variable (s d : Fin nE → Fin nN)

theorem isReal_outCount (a : Fin nN) : IsReal (outCount s a) :=
  IsReal.sum _ _ (fun _ _ => isReal_one)

theorem isReal_inCount (a : Fin nN) : IsReal (inCount d a) :=
  IsReal.sum _ _ (fun _ _ => isReal_one)

theorem isReal_outNorm (a : Fin nN) : IsReal (outNorm s a) :=
  isReal_rsqrt_max_one (isReal_outCount s a)

theorem isReal_inNorm (a : Fin nN) : IsReal (inNorm d a) :=
  isReal_rsqrt_max_one (isReal_inCount d a)

/-! ## The padded range -/

theorem pad_injective : Function.Injective pad := by
  intro a b h
  have hv : (pad a).val = (pad b).val := congrArg Fin.val h
  exact Fin.ext hv

theorem inNormP_pad (a : Fin nN) : inNormP d (pad a) = inNorm d a := by
  have h : (pad a).val < nN := a.isLt
  rw [inNormP, dif_pos h]
  rfl

theorem outNormP_pad (a : Fin nN) : outNormP s (pad a) = outNorm s a := by
  have h : (pad a).val < nN := a.isLt
  rw [outNormP, dif_pos h]
  rfl

theorem padRows_pad {fi : ℕ} (X : Fin nN → Fin fi → EReal) (a : Fin nN) (k : Fin fi) :
    padRows X (pad a) k = X a k := by
  have h : (pad a).val < nN := a.isLt
  rw [padRows, dif_pos h]
  rfl

/-- No edge has a source past the last node: such a column of the count matrix is zero. -/
theorem adj_eq_zero (p q : Fin nP) (h : nN ≤ q.val) : adj s d p q = 0 := by
  unfold adj
  apply Finset.sum_eq_zero
  intro e he
  exfalso
  have h1 : (s e).val = q.val := (Finset.mem_filter.1 he).2.2
  have h2 : (s e).val < nN := (s e).isLt
  omega

/-- Between two nodes the count matrix counts the edges from the one to the other. -/
theorem adj_pad (a a' : Fin nN) :
    adj s d (pad a) (pad a') = ∑ e ∈ Finset.univ.filter (fun e => d e = a ∧ s e = a'), (1 : EReal) := by
  unfold adj
  refine Finset.sum_congr (Finset.filter_congr (fun e _ => ?_)) (fun _ _ => rfl)
  show ((d e).val = a.val ∧ (s e).val = a'.val) ↔ (d e = a ∧ s e = a')
  rw [Fin.val_inj, Fin.val_inj]

/-! ## Regrouping the edges entering a node by their source, over the reals -/

theorem real_regroup (a : Fin nN) (ι ω x : Fin nN → ℝ) :
    ∑ a' : Fin nN, (∑ e ∈ Finset.univ.filter (fun e => d e = a ∧ s e = a'), (1 : ℝ)) * ι a * ω a' * x a'
      = (∑ e ∈ Finset.univ.filter (fun e => d e = a), x (s e) * ω (s e)) * ι a := by
  have hR : (∑ e ∈ Finset.univ.filter (fun e => d e = a), x (s e) * ω (s e)) * ι a
      = ∑ a' : Fin nN, ∑ e ∈ (Finset.univ.filter (fun e => d e = a)).filter (fun e => s e = a'),
          x (s e) * ω (s e) * ι a := by
    rw [Finset.sum_mul]
    exact (Finset.sum_fiberwise _ s _).symm
  rw [hR]
  refine Finset.sum_congr rfl (fun a' _ => ?_)
  rw [Finset.filter_filter, Finset.sum_mul, Finset.sum_mul, Finset.sum_mul]
  refine Finset.sum_congr rfl (fun e he => ?_)
  have hs : s e = a' := (Finset.mem_filter.1 he).2.2
  rw [hs]
  ring

/-! ## One layer -/

section Layer
variable {fi fo : ℕ}

/-- The dense aggregation at a node is the edge aggregation, whatever the rows past `nN` hold. -/
theorem kerAgg_eq_refAgg (Y : Fin nP → Fin fi → EReal) (X : Fin nN → Fin fi → EReal)
    (hY : ∀ a k, Y (pad a) k = X a k) (hX : ∀ a k, IsReal (X a k)) (a : Fin nN) (k : Fin fi) :
    kerAgg s d Y (pad a) k = refAgg s d X a k := by
  classical
  choose xr hxr using hX
  choose ω hω using isReal_outNorm s
  choose ι hι using isReal_inNorm d
  -- the columns past nN vanish
  have h1 : kerAgg s d Y (pad a) k = ∑ a' : Fin nN, adjN s d (pad a) (pad a') * Y (pad a') k := by
    unfold kerAgg
    symm
    apply Fintype.sum_of_injective pad pad_injective
    · intro q hq
      have hge : nN ≤ q.val := by
        by_contra hlt
        exact hq ⟨⟨q.val, not_le.1 hlt⟩, Fin.ext rfl⟩
      rw [adjN, adj_eq_zero s d _ _ hge, zero_mul, zero_mul, zero_mul]
    · intro a'
      rfl
  -- each remaining term is a real number
  have h2 : ∀ a' : Fin nN, adjN s d (pad a) (pad a') * Y (pad a') k
      = (((∑ e ∈ Finset.univ.filter (fun e => d e = a ∧ s e = a'), (1 : ℝ)) * ι a * ω a' * xr a' k : ℝ)
          : EReal) := by
    intro a'
    rw [adjN, adj_pad, inNormP_pad, outNormP_pad, hY, hxr, hω, hι, EReal.coe_mul, EReal.coe_mul,
      EReal.coe_mul, coe_sum, EReal.coe_one]
  -- the edge form is a real number
  have h3 : refAgg s d X a k
      = (((∑ e ∈ Finset.univ.filter (fun e => d e = a), xr (s e) k * ω (s e)) * ι a : ℝ) : EReal) := by
    have hsum : ∑ e ∈ Finset.univ.filter (fun e => d e = a), X (s e) k * outNorm s (s e)
        = ((∑ e ∈ Finset.univ.filter (fun e => d e = a), xr (s e) k * ω (s e) : ℝ) : EReal) := by
      rw [coe_sum]
      refine Finset.sum_congr rfl (fun e _ => ?_)
      rw [hxr, hω, EReal.coe_mul]
    rw [refAgg, hsum, hι, EReal.coe_mul]
  rw [h1, h3, Finset.sum_congr rfl (fun a' _ => h2 a'), ← coe_sum]
  exact congrArg (fun r : ℝ => (r : EReal)) (real_regroup s d a ι ω (fun a' => xr a' k))

/-- One layer: the dense form at a node is the edge form. -/
theorem kerLayer_eq_refLayer (Y : Fin nP → Fin fi → EReal) (X : Fin nN → Fin fi → EReal)
    (hY : ∀ a k, Y (pad a) k = X a k) (hX : ∀ a k, IsReal (X a k))
    (W : Fin fi → Fin fo → EReal) (b : Fin fo → EReal) (a : Fin nN) (j : Fin fo) :
    kerLayer s d Y W b (pad a) j = refLayer s d X W b a j := by
  unfold kerLayer refLayer
  rw [Finset.sum_congr rfl (fun k _ => by rw [kerAgg_eq_refAgg s d Y X hY hX a k])]

/-- The edge form of real data is real. -/
theorem isReal_refLayer (X : Fin nN → Fin fi → EReal) (hX : ∀ a k, IsReal (X a k))
    (W : Fin fi → Fin fo → EReal) (hW : ∀ k j, IsReal (W k j)) (b : Fin fo → EReal)
    (hb : ∀ j, IsReal (b j)) (a : Fin nN) (j : Fin fo) : IsReal (refLayer s d X W b a j) := by
  unfold refLayer
  refine IsReal.add (IsReal.sum _ _ (fun k _ => IsReal.mul ?_ (hW k j))) (hb j)
  unfold refAgg
  exact IsReal.mul (IsReal.sum _ _ (fun e _ => IsReal.mul (hX _ _) (isReal_outNorm s _)))
    (isReal_inNorm d a)

end Layer

/-! ## Two layers -/

theorem kerOut_eq_refOut {f0 f1 f2 : ℕ} (s d : Fin nE → Fin nN) (x : Fin nN → Fin f0 → EReal)
    (W1 : Fin f0 → Fin f1 → EReal) (b1 : Fin f1 → EReal) (W2 : Fin f1 → Fin f2 → EReal)
    (b2 : Fin f2 → EReal)
    (hx : ∀ a k, IsReal (x a k)) (hW1 : ∀ k j, IsReal (W1 k j)) (hb1 : ∀ j, IsReal (b1 j))
    (hW2 : ∀ k j, IsReal (W2 k j)) (hb2 : ∀ j, IsReal (b2 j)) (a : Fin nN) (j : Fin f2) :
    kerOut s d x W1 b1 W2 b2 a j = refOut s d x W1 b1 W2 b2 a j := by
  unfold kerOut refOut
  apply kerLayer_eq_refLayer
  · intro a k
    show max (kerLayer s d (padRows x) W1 b1 (pad a) k) 0 = max (refLayer s d x W1 b1 a k) 0
    rw [kerLayer_eq_refLayer s d (padRows x) x (fun a k => padRows_pad x a k) hx]
  · intro a k
    exact (isReal_refLayer s d x hx W1 hW1 b1 hb1 a k).max isReal_zero

end Cert.Spec

end
-- ==== Proof.Bridge.lean ====
/-
  The two programs compute the same function.

  The kernel program's result, read at a node `a` and an output column `j`, is the dense form `kerOut`: the last host
  operation reads row `a` of the second call's output array, which the second call's write-backs leave at one dense layer
  over the normalised adjacency matrix and the first call's output array, itself one dense layer followed by `max · 0`
  over the padded features; the host operations before the calls build exactly the normalised adjacency matrix, the padded
  features and the bias rows.  The reference program's result is the edge form `refOut`.  Under the precondition every
  feature, weight and bias is a real number and every edge endpoint is a node, and there the two forms agree.
-/
import proofs.«414079_j34359738415_1_alg».proof.Defs
import proofs.«414079_j34359738415_1_alg».proof.Proof.Gen.Pre_finite_inputs
import proofs.«414079_j34359738415_1_alg».proof.Proof.Gen.KernelIdeal
import proofs.«414079_j34359738415_1_alg».proof.Proof.Gen.ReferenceIdeal
import proofs.«414079_j34359738415_1_alg».proof.Proof.Run
import proofs.«414079_j34359738415_1_alg».proof.Proof.KHost
import proofs.«414079_j34359738415_1_alg».proof.Proof.KValue0
import proofs.«414079_j34359738415_1_alg».proof.Proof.KValue1
import proofs.«414079_j34359738415_1_alg».proof.Proof.RefValue
import proofs.«414079_j34359738415_1_alg».proof.Proof.PreDecode
import proofs.«414079_j34359738415_1_alg».proof.Proof.SpecEq

noncomputable section

namespace Cert.Bridge

open Idealize.ShloMosaic Idealize.ShloMosaic.ValueIdx Idealize.ShloMosaic.TcCoe Idealize.SL.Sem
open Cert.KernelIdeal Cert.KernelIdeal.Gen Cert.KernelIdeal.Hand

variable (m : (ℓ : Loc nD τ sig) → Buf (Elt Ideal) ℓ) (c : Dev nD)

/-- The first call's output array, as the second call finds it: one dense layer and `max · 0` over the padded features. -/
theorem hidden_value (s d : Fin 640000 → Fin 10000)
    (hs : ∀ e : Fin 640000, Cert.KHost.x1 m c (ix1 e) = BitVec.ofNat 32 (s e).val)
    (hd : ∀ e : Fin 640000, Cert.KHost.x2 m c (ix1 e) = BitVec.ofNat 32 (d e).val) (q : Fin 10240) (k : Fin 128) :
    (V7 m (outs6 m) c main_v44 : S10240x128.Idx → EReal) (ix2 q k)
      = max (Cert.Spec.kerLayer s d (Cert.Spec.padRows (fun a k => Cert.KHost.x0 m c (ix2 a k)))
          (fun k j => Cert.KHost.x3 m c (ix2 k j)) (fun j => Cert.KHost.x4 m c (ix1 j)) q k) 0 := by
  rw [Cert.KHost.V7_h1 m c (outs6 m), outs6_v44]
  refine (layer0_value (E5 m) c q k).trans ?_
  unfold Cert.Spec.kerLayer Cert.Spec.kerAgg
  have hA : ∀ p q' : Fin 10240, (arrA (E5 m) c (ix2 p q') : EReal) = Cert.Spec.adjN s d p q' :=
    fun p q' => Cert.KHost.V5_adj m c s d hs hd p q'
  have hX : ∀ (q' : Fin 10240) (k' : Fin 128), (arrX (E5 m) c (ix2 q' k') : EReal)
      = Cert.Spec.padRows (fun a k => Cert.KHost.x0 m c (ix2 a k)) q' k' := fun q' k' => Cert.KHost.V5_xpad m c q' k'
  have hW : ∀ (k' : Fin 128) (j' : Fin 128), (arrW (E5 m) c (ix2 k' j') : EReal) = Cert.KHost.x3 m c (ix2 k' j') :=
    fun k' j' => congrFun (Cert.KHost.V5_W1 m c) (ix2 k' j')
  have hb : (arrB (E5 m) c (ix2 (0 : Fin 1) k) : EReal) = Cert.KHost.x4 m c (ix1 k) := Cert.KHost.V5_b1 m c k
  simp only [hA, hX, hW, hb]

/-- The kernel program's result at a node and a column is the dense form. -/
theorem kernel_value (s d : Fin 640000 → Fin 10000)
    (hs : ∀ e : Fin 640000, Cert.KHost.x1 m c (ix1 e) = BitVec.ofNat 32 (s e).val)
    (hd : ∀ e : Fin 640000, Cert.KHost.x2 m c (ix1 e) = BitVec.ofNat 32 (d e).val) (a : Fin 10000) (j : Fin 64) :
    (V9 m (outs m) c main_v47 : S10000x64.Idx → EReal) (ix2 a j)
      = Cert.Spec.kerOut s d (fun a k => Cert.KHost.x0 m c (ix2 a k)) (fun k j => Cert.KHost.x3 m c (ix2 k j))
          (fun j => Cert.KHost.x4 m c (ix1 j)) (fun k j => Cert.KHost.x5 m c (ix2 k j)) (fun j => Cert.KHost.x6 m c (ix1 j)) a j := by
  have hR : Cert.Spec.kerOut s d (fun a k => Cert.KHost.x0 m c (ix2 a k)) (fun k j => Cert.KHost.x3 m c (ix2 k j))
          (fun j => Cert.KHost.x4 m c (ix1 j)) (fun k j => Cert.KHost.x5 m c (ix2 k j)) (fun j => Cert.KHost.x6 m c (ix1 j)) a j
      = (∑ k : Fin 128, (∑ q : Fin 10240, Cert.Spec.adjN s d (Cert.Spec.pad a) q
            * max (Cert.Spec.kerLayer s d (Cert.Spec.padRows (fun a k => Cert.KHost.x0 m c (ix2 a k)))
                (fun k j => Cert.KHost.x3 m c (ix2 k j)) (fun j => Cert.KHost.x4 m c (ix1 j)) q k) 0)
          * Cert.KHost.x5 m c (ix2 k j)) + Cert.KHost.x6 m c (ix1 j) := rfl
  rw [hR, Cert.KHost.V9_out m c (outs m) a j, outs_v46]
  refine (layer1_value (E7 m) c (Cert.Spec.pad a) j).trans ?_
  have hA : ∀ p q : Fin 10240, (arrA (E7 m) c (ix2 p q) : EReal) = Cert.Spec.adjN s d p q := fun p q => by
    show (V7 m (outs6 m) c main_v39 : S10240x10240.Idx → EReal) (ix2 p q) = _
    rw [Cert.KHost.V7_adj m c (outs6 m)]; exact Cert.KHost.V5_adj m c s d hs hd p q
  have hH : ∀ (q : Fin 10240) (k : Fin 128), (arrH (E7 m) c (ix2 q k) : EReal)
      = max (Cert.Spec.kerLayer s d (Cert.Spec.padRows (fun a k => Cert.KHost.x0 m c (ix2 a k)))
          (fun k j => Cert.KHost.x3 m c (ix2 k j)) (fun j => Cert.KHost.x4 m c (ix1 j)) q k) 0 :=
    fun q k => hidden_value m c s d hs hd q k
  have hW : ∀ (k' : Fin 128) (j' : Fin 64), (arrW1 (E7 m) c (ix2 k' j') : EReal) = Cert.KHost.x5 m c (ix2 k' j') :=
    fun k' j' => congrFun (Cert.KHost.V7_W2 m c (outs6 m)) (ix2 k' j')
  have hb : (arrB1 (E7 m) c (ix2 (0 : Fin 1) j) : EReal) = Cert.KHost.x6 m c (ix1 j) := Cert.KHost.V7_b2 m c (outs6 m) j
  simp only [hA, hH, hW, hb]

/-- From memories agreeing on the arguments, under the precondition, both programs run to the end with equal results. -/
theorem algebraic : Cert.algebraic_KernelIdeal_ReferenceIdeal := by
  intro m ρ m' ρ' hpre hagree
  refine ⟨fun c => V9 m (outs m) c main_v47, run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, (hagree c).1, (hagree c).2.1, (hagree c).2.2.1, (hagree c).2.2.2.1,
    (hagree c).2.2.2.2.1, (hagree c).2.2.2.2.2.1, (hagree c).2.2.2.2.2.2]
  obtain ⟨h0, h3, h4, h5, h6, ⟨s, hs⟩, ⟨d, hd⟩⟩ := Cert.PreDecode.of_pre _ _ _ _ _ _ _ (hpre c)
  refine funext fun i => ?_
  obtain ⟨a, j, rfl⟩ : ∃ (a : Fin 10000) (j : Fin 64), i = ix2 a j := ⟨i 0, i 1, eq_ix2 i⟩
  refine (Cert.RefValue.ref_value _ _ _ _ _ _ _ s d hs hd a j).trans ?_
  refine Eq.trans ?_ (kernel_value m c s d hs hd a j).symm
  exact (Cert.Spec.kerOut_eq_refOut s d _ _ _ _ _ (fun a k => h0 _) (fun k j => h3 _) (fun j => h4 _)
    (fun k j => h5 _) (fun j => h6 _) a j).symm

end Cert.Bridge

end
-- ==== Proof.lean ====
/-
  Two-layer graph convolution: a kernel that multiplies a dense normalised adjacency matrix into the features, block by
  block, against a reference that gathers and sums along the edges.

  The claim has five parts.  Each of the three programs runs to the end without a fault and leaves its argument arrays
  unchanged: for the two kernel programs (the printed one and its idealization, which differ only in the float instance)
  this is the run of the host operations and the two calls, each call entered with the buffers its arrays find and left
  with its output array at what its write-backs leave; for the reference it is its run as a composition of host
  operations.  The idealization rewrote nothing, so it is the printed program's own text read over the extended reals.
  And the idealized kernel and the idealized reference, run from memories that agree on the arguments, end with equal
  results: the kernel's is the dense form of the two layers, the reference's the edge form, and under the precondition —
  every float input finite, every edge endpoint a node — the two forms are one function.
-/
import proofs.«414079_j34359738415_1_alg».proof.Defs
import proofs.«414079_j34359738415_1_alg».proof.Proof.Gen.Kernel
import proofs.«414079_j34359738415_1_alg».proof.Proof.Gen.KernelIdeal
import proofs.«414079_j34359738415_1_alg».proof.Proof.Gen.ReferenceIdeal
import proofs.«414079_j34359738415_1_alg».proof.Proof.Gen.Pre_finite_inputs
import proofs.«414079_j34359738415_1_alg».proof.Proof.BitsRun
import proofs.«414079_j34359738415_1_alg».proof.Proof.Bridge

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Bridge.algebraic⟩

end Cert.Proof

end
